-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x8x8 : Shape := ⟨4, ![32, 256, 8, 8]⟩
abbrev S514x512 : Shape := ⟨2, ![514, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S_ : Shape := ⟨0, ![]⟩

class Facts : Prop where
  bcast_S_S32x256x8x8 : S_.BroadcastsInDim S32x256x8x8 (![] : Fin 0 → Fin S32x256x8x8.rank)
  reducesTo_S32x256x8x8_S_d0_1_2_3 : S32x256x8x8.ReducesTo [0, 1, 2, 3] S_
  h_S_ : 0 < S_.numel
  bcast_S_S514x512 : S_.BroadcastsInDim S514x512 (![] : Fin 0 → Fin S514x512.rank)
  reducesTo_S514x512_S_d0_1 : S514x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg7 : FVec F S512x512 .f32) (main_arg8 : FVec F S512 .f32) (main_arg9 : FVec F S512x256 .f32) (main_arg10 : FVec F S256 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x256 .f32 := Host.absf main_arg9
  let main_cst_16 : FVec F S_ .f32 := constant S_ .f32 0x7F800000#32
  let main_v45 : FVec F S512x256 .f32 := broadcastInDim S512x256 ![] bcast_S_S512x256 main_cst_16
  let main_v46 : IVec S512x256 1 := cmpf .olt main_v44 main_v45
  let main_c_17 : IVec S_ 1 := constantI S_ 1 1#1
  let main_v47 : IVec S_ 1 := (fun x v => Host.reduce IntOp.andi x v reducesTo_S512x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S512x256 .f32) (main_arg10 : FVec F S256 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S32x256x8x8 .f32) (main_arg1 : FVec F S514x512 .f32) (main_arg2 : FVec F S512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x256 .f32) (main_arg10 : FVec F S256 .f32) : IVec S_ 1 :=
  let main_v0 : FVec F S32x256x8x8 .f32 := Host.absf main_arg0
  let main_cst : FVec F S_ .f32 := constant S_ .f32 0x7F800000#32
  let main_v1 : FVec F S32x256x8x8 .f32 := broadcastInDim S32x256x8x8 ![] bcast_S_S32x256x8x8 main_cst
  let main_v2 : IVec S32x256x8x8 1 := cmpf .olt main_v0 main_v1
  let main_c : IVec S_ 1 := constantI S_ 1 1#1
  let main_v3 : IVec S_ 1 := (fun x v => Host.reduce IntOp.andi x v reducesTo_S32x256x8x8_S_d0_1_2_3 h_S_) main_v2 main_c
  let main_v4 : FVec F S514x512 .f32 := Host.absf main_arg1
  let main_cst_0 : FVec F S_ .f32 := constant S_ .f32 0x7F800000#32
  let main_v5 : FVec F S514x512 .f32 := broadcastInDim S514x512 ![] bcast_S_S514x512 main_cst_0
  let main_v6 : IVec S514x512 1 := cmpf .olt main_v4 main_v5
  let main_c_1 : IVec S_ 1 := constantI S_ 1 1#1
  let main_v7 : IVec S_ 1 := (fun x v => Host.reduce IntOp.andi x v reducesTo_S514x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_v13 main_v16
-- ==== Kernel.lean ====
abbrev S32x256x8x8 : Shape := ⟨4, ![32, 256, 8, 8]⟩
abbrev S514x512 : Shape := ⟨2, ![514, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S64 : Shape := ⟨1, ![64]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S64x64x1 : Shape := ⟨3, ![64, 64, 1]⟩
abbrev S64x64x2 : Shape := ⟨3, ![64, 64, 2]⟩
abbrev S32x256x64 : Shape := ⟨3, ![32, 256, 64]⟩
abbrev S256x512 : Shape := ⟨2, ![256, 512]⟩
abbrev S2x512 : Shape := ⟨2, ![2, 512]⟩
abbrev S32x1x256 : Shape := ⟨3, ![32, 1, 256]⟩
abbrev S1x256x64 : Shape := ⟨3, ![1, 256, 64]⟩
abbrev S16x64x2 : Shape := ⟨3, ![16, 64, 2]⟩
abbrev S1x1x256 : Shape := ⟨3, ![1, 1, 256]⟩
abbrev S64x256 : Shape := ⟨2, ![64, 256]⟩
abbrev S1x512 : Shape := ⟨2, ![1, 512]⟩
abbrev S256x64 : Shape := ⟨2, ![256, 64]⟩
abbrev S16x256 : Shape := ⟨2, ![16, 256]⟩
abbrev S64x512 : Shape := ⟨2, ![64, 512]⟩
abbrev S16x512 : Shape := ⟨2, ![16, 512]⟩
abbrev S1024x2 : Shape := ⟨2, ![1024, 2]⟩
abbrev S1024x512 : Shape := ⟨2, ![1024, 512]⟩
abbrev S16x64x512 : Shape := ⟨3, ![16, 64, 512]⟩
abbrev S1x64x512 : Shape := ⟨3, ![1, 64, 512]⟩
abbrev S16x1x512 : Shape := ⟨3, ![16, 1, 512]⟩
abbrev S1x1x512 : Shape := ⟨3, ![1, 1, 512]⟩
abbrev S1x256 : Shape := ⟨2, ![1, 256]⟩
abbrev S32x256 : Shape := ⟨2, ![32, 256]⟩

abbrev nBuf : Space → Nat
  | .hbm => 79
  | .vmem => 20
  | .smem => 0
  | _ => 0

abbrev bufTy : (tb : Table) → Fin (tcTables nBuf tb) → BufTy
  | .hbm, ⟨0, _⟩ => ⟨S32x256x8x8, .f32⟩
  | .hbm, ⟨1, _⟩ => ⟨S514x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x256, .f32⟩
  | .hbm, ⟨10, _⟩ => ⟨S256, .f32⟩
  | .hbm, ⟨11, _⟩ => ⟨S64, .i32⟩
  | .hbm, ⟨12, _⟩ => ⟨S_, .i32⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S64, .i32⟩
  | .hbm, ⟨17, _⟩ => ⟨S_, .i32⟩
  | .hbm, ⟨18, _⟩ => ⟨S64, .i32⟩
  | .hbm, ⟨19, _⟩ => ⟨S64, .i1⟩
  | .hbm, ⟨20, _⟩ => ⟨S64, .i32⟩
  | .hbm, ⟨21, _⟩ => ⟨S64, .i32⟩
  | .hbm, ⟨22, _⟩ => ⟨S_, .i32⟩
  | .hbm, ⟨23, _⟩ => ⟨S64, .i32⟩
  | .hbm, ⟨24, _⟩ => ⟨S64, .i1⟩
  | .hbm, ⟨25, _⟩ => ⟨S64, .i1⟩
  | .hbm, ⟨26, _⟩ => ⟨S_, .i32⟩
  | .hbm, ⟨27, _⟩ => ⟨S64, .i32⟩
  | .hbm, ⟨28, _⟩ => ⟨S64, .i32⟩
  | .hbm, ⟨29, _⟩ => ⟨S64, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S64, .i32⟩
  | .hbm, ⟨37, _⟩ => ⟨S64, .i32⟩
  | .hbm, ⟨38, _⟩ => ⟨S_, .i32⟩
  | .hbm, ⟨39, _⟩ => ⟨S64, .i32⟩
  | .hbm, ⟨40, _⟩ => ⟨S64, .i1⟩
  | .hbm, ⟨41, _⟩ => ⟨S_, .i32⟩
  | .hbm, ⟨42, _⟩ => ⟨S64, .i32⟩
  | .hbm, ⟨43, _⟩ => ⟨S64, .i1⟩
  | .hbm, ⟨44, _⟩ => ⟨S_, .i32⟩
  | .hbm, ⟨45, _⟩ => ⟨S_, .i1⟩
  | .hbm, ⟨46, _⟩ => ⟨S64, .i1⟩
  | .hbm, ⟨47, _⟩ => ⟨S64, .i1⟩
  | .hbm, ⟨48, _⟩ => ⟨S64, .i1⟩
  | .hbm, ⟨49, _⟩ => ⟨S64, .i32⟩
  | .hbm, ⟨50, _⟩ => ⟨S64, .i32⟩
  | .hbm, ⟨51, _⟩ => ⟨S64, .i32⟩
  | .hbm, ⟨52, _⟩ => ⟨S64x1, .i32⟩
  | .hbm, ⟨53, _⟩ => ⟨S1x64, .i32⟩
  | .hbm, ⟨54, _⟩ => ⟨S64x64, .i32⟩
  | .hbm, ⟨55, _⟩ => ⟨S64x64, .i32⟩
  | .hbm, ⟨56, _⟩ => ⟨S64x64, .i32⟩
  | .hbm, ⟨57, _⟩ => ⟨S64x64, .f32⟩
  | .hbm, ⟨58, _⟩ => ⟨S64x1, .i32⟩
  | .hbm, ⟨59, _⟩ => ⟨S1x64, .i32⟩
  | .hbm, ⟨60, _⟩ => ⟨S64x64, .i32⟩
  | .hbm, ⟨61, _⟩ => ⟨S64x64, .i32⟩
  | .hbm, ⟨62, _⟩ => ⟨S64x64, .i32⟩
  | .hbm, ⟨63, _⟩ => ⟨S64x64, .f32⟩
  | .hbm, ⟨64, _⟩ => ⟨S64x64x1, .f32⟩
  | .hbm, ⟨65, _⟩ => ⟨S64x64x1, .f32⟩
  | .hbm, ⟨66, _⟩ => ⟨S64x64x2, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S64x64x2, .f32⟩
  | .hbm, ⟨72, _⟩ => ⟨S64x64x2, .f32⟩
  | .hbm, ⟨73, _⟩ => ⟨S32x256x64, .f32⟩
  | .hbm, ⟨74, _⟩ => ⟨S256x512, .f32⟩
  | .hbm, ⟨75, _⟩ => ⟨S256x512, .f32⟩
  | .hbm, ⟨76, _⟩ => ⟨S2x512, .f32⟩
  | .hbm, ⟨77, _⟩ => ⟨S32x1x256, .f32⟩
  | .hbm, ⟨78, _⟩ => ⟨S32x256, .f32⟩
  | .local _ .vmem, ⟨0, _⟩ => ⟨S1x256x64, .f32⟩
  | .local _ .vmem, ⟨1, _⟩ => ⟨S1x256x64, .f32⟩
  | .local _ .vmem, ⟨2, _⟩ => ⟨S16x64x2, .f32⟩
  | .local _ .vmem, ⟨3, _⟩ => ⟨S16x64x2, .f32⟩
  | .local _ .vmem, ⟨4, _⟩ => ⟨S256x512, .f32⟩
  | .local _ .vmem, ⟨5, _⟩ => ⟨S256x512, .f32⟩
  | .local _ .vmem, ⟨6, _⟩ => ⟨S2x512, .f32⟩
  | .local _ .vmem, ⟨7, _⟩ => ⟨S512, .f32⟩
  | .local _ .vmem, ⟨8, _⟩ => ⟨S512x512, .f32⟩
  | .local _ .vmem, ⟨9, _⟩ => ⟨S512, .f32⟩
  | .local _ .vmem, ⟨10, _⟩ => ⟨S512x512, .f32⟩
  | .local _ .vmem, ⟨11, _⟩ => ⟨S512, .f32⟩
  | .local _ .vmem, ⟨12, _⟩ => ⟨S512x512, .f32⟩
  | .local _ .vmem, ⟨13, _⟩ => ⟨S512, .f32⟩
  | .local _ .vmem, ⟨14, _⟩ => ⟨S512x256, .f32⟩
  | .local _ .vmem, ⟨15, _⟩ => ⟨S256, .f32⟩
  | .local _ .vmem, ⟨16, _⟩ => ⟨S1x1x256, .f32⟩
  | .local _ .vmem, ⟨17, _⟩ => ⟨S1x1x256, .f32⟩
  | .local _ .vmem, ⟨18, _⟩ => ⟨S64x256, .bf16⟩
  | .local _ .vmem, ⟨19, _⟩ => ⟨S1x512, .f32⟩
  | _, _ => ⟨S32x256x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v1 : Ref sig .tc := ⟨.hbm, 29, rfl⟩
abbrev main_c_0 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_v5 : Ref sig .tc := ⟨.hbm, 39, rfl⟩
abbrev main_call1_v6 : Ref sig .tc := ⟨.hbm, 40, rfl⟩
abbrev main_call1_c_2 : Ref sig .tc := ⟨.hbm, 41, rfl⟩
abbrev main_call1_v7 : Ref sig .tc := ⟨.hbm, 42, rfl⟩
abbrev main_call1_v8 : Ref sig .tc := ⟨.hbm, 43, rfl⟩
abbrev main_call1_c_3 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_cst : Ref sig .tc := ⟨.hbm, 67, rfl⟩
abbrev main_v18 : Ref sig .tc := ⟨.hbm, 68, rfl⟩
abbrev main_cst_1 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c16_i32 : BitVec 32 := 16#32
  let v10 : BitVec 32 := Scalar.muli arg1 c16_i32
  v10
def k0_off1 (i : grid0.Coords) : Fin 2 → Nat :=
  let arg1 : BitVec 32 := BitVec.ofNat 32 (i 1).val
  let c16_i32 : BitVec 32 := 16#32
  let v10 : BitVec 32 := Scalar.muli arg1 c16_i32
  let v11 : BitVec 32 := v10
  let v12 : Index := Scalar.indexCast v11
  let c0_5 : Index := 0#32
  ![v12.toNat, 0]
def k0_cond2 (i : grid0.Coords) : BitVec 1 :=
  let arg1 : BitVec 32 := BitVec.ofNat 32 (i 1).val
  let c3_i32 : BitVec 32 := 3#32
  let v72 : BitVec 1 := Scalar.cmpi .eq arg1 c3_i32
  let v73 : BitVec 32 := Scalar.extui v72
  let c0_i32_36 : BitVec 32 := 0#32
  let v74 : BitVec 1 := Scalar.cmpi .ne v73 c0_i32_36
  v74

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x64x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S64x64_S64x64x1_0_1 : S64x64.BroadcastsInDim S64x64x1 (![0, 1] : Fin 2 → Fin S64x64x1.rank)
  concatenates_S64x64x1_S64x64x1_S64x64x2_d2 : Shape.Concatenates [S64x64x1, S64x64x1] S64x64x2 2
  reducesTo_S64x64x2_S_d0_1_2 : S64x64x2.ReducesTo [0, 1, 2] S_
  h_S_ : 0 < S_.numel
  bcast_S_S64x64x2 : S_.BroadcastsInDim S64x64x2 (![] : Fin 0 → Fin S64x64x2.rank)
  shapeCasts_S32x256x8x8_S32x256x64 : S32x256x8x8.ShapeCasts S32x256x64
  slices_S514x512_S256x512_0_0 : S514x512.Slices ![0, 0] S256x512
  slices_S514x512_S256x512_256_0 : S514x512.Slices ![256, 0] S256x512
  slices_S514x512_S2x512_512_0 : S514x512.Slices ![512, 0] S2x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  transposes_S256x64_p1_0_S64x256 : S256x64.Transposes [1, 0] S64x256
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  packedbf16_S64x256_S64x256_0_0 : (Rect.unit (s := S64x256) ![0, 0] S64x256.size inb_S64x256_S64x256_0_0).PackedRows (EltTy.packing .bf16)
  h_S16x256 : 0 < S16x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S2x512_S2x512_0_0 : ∀ a, (![0, 0] : Fin 2 → Nat) a + S2x512.size a ≤ S2x512.size a
  h_S2x512 : 0 < S2x512.numel
  shapeCasts_S2x512_S2x512 : S2x512.ShapeCasts S2x512
  inb_S16x64x2_S16x64x2_0_0_0 : ∀ a, (![0, 0, 0] : Fin 3 → Nat) a + S16x64x2.size a ≤ S16x64x2.size a
  h_S16x64x2 : 0 < S16x64x2.numel
  shapeCasts_S16x64x2_S16x64x2 : S16x64x2.ShapeCasts S16x64x2
  shapeCasts_S16x64x2_S1024x2 : S16x64x2.ShapeCasts S1024x2
  shapeCasts_S1024x512_S16x64x512 : S1024x512.ShapeCasts S16x64x512
  inb_S512_S512_0 : ∀ a, (![0] : Fin 1 → Nat) a + S512.size a ≤ S512.size a
  h_S512 : 0 < S512.numel
  shapeCasts_S64x512_S1x64x512 : S64x512.ShapeCasts S1x64x512
  shapeCasts_S16x512_S16x1x512 : S16x512.ShapeCasts S16x1x512
  broadcasts_S1x64x512_S16x64x512 : S1x64x512.Broadcasts S16x64x512
  broadcasts_S16x1x512_S16x64x512 : S16x1x512.Broadcasts S16x64x512
  shapeCasts_S512_S1x1x512 : S512.ShapeCasts S1x1x512
  broadcasts_S1x1x512_S16x64x512 : S1x1x512.Broadcasts S16x64x512
  shapeCasts_S16x64x512_S1024x512 : S16x64x512.ShapeCasts S1024x512
  inb_S512x512_S512x512_0_0 : ∀ a, (![0, 0] : Fin 2 → Nat) a + S512x512.size a ≤ S512x512.size a
  h_S512x512 : 0 < S512x512.numel
  shapeCasts_S512_S1x512 : S512.ShapeCasts S1x512
  broadcasts_S1x512_S1024x512 : S1x512.Broadcasts S1024x512
  reduces_S1024x512_S512 : S1024x512.Reduces [0] S512
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  shapeCasts_S32x1x256_S32x256 : S32x1x256.ShapeCasts S32x256
  dot_S64x256_S256x512_S64x512_1_0_0_1_n_n_wf : DotDims.WF S64x256 S256x512 S64x512 [1] [0] [0] [1] [] []
  dot_S16x256_S256x512_S16x512_1_0_0_1_n_n_wf : DotDims.WF S16x256 S256x512 S16x512 [1] [0] [0] [1] [] []
  dot_S1024x2_S2x512_S1024x512_1_0_0_1_n_n_wf : DotDims.WF S1024x2 S2x512 S1024x512 [1] [0] [0] [1] [] []
  dot_S1024x512_S512x512_S1024x512_1_0_0_1_n_n_wf : DotDims.WF S1024x512 S512x512 S1024x512 [1] [0] [0] [1] [] []
  dot_S1x512_S512x512_S1x512_1_0_0_1_n_n_wf : DotDims.WF S1x512 S512x512 S1x512 [1] [0] [0] [1] [] []
  dot_S1x512_S512x256_S1x256_1_0_0_1_n_n_wf : DotDims.WF S1x512 S512x256 S1x256 [1] [0] [0] [1] [] []
  hrank0 : 0 < grid0.rank
  k0_mult1_dvd : ∀ i : grid0.Coords, 16 ∣ (k0_mult1 i).toNat
  k0_off1_inb : ∀ i : grid0.Coords, ∀ a, (k0_off1 i) a + S16x256.size a ≤ S64x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S32x256x64.size a
  hwx0_0 : ∀ i : grid0.Coords, EltTy.bits .f32 = 32 ∨ (Rect.block (s := S32x256x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x64x2.size a ≤ S64x64x2.size a
  hwx0_1 : ∀ i : grid0.Coords, EltTy.bits .f32 = 32 ∨ (Rect.block (s := S64x64x2) S16x64x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x512.size a ≤ S2x512.size a
  hwx0_4 : ∀ i : grid0.Coords, EltTy.bits .f32 = 32 ∨ (Rect.block (s := S2x512) S2x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .f32 = 32 ∨ (Rect.block (s := S512x512) S512x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .f32 = 32 ∨ (Rect.block (s := S512x512) S512x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S512.size a
  hwx0_11 : ∀ i : grid0.Coords, EltTy.bits .f32 = 32 ∨ (Rect.block (s := S512) S512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x256.size a ≤ S512x256.size a
  hwx0_12 : ∀ i : grid0.Coords, EltTy.bits .f32 = 32 ∨ (Rect.block (s := S512x256) S512x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256.size a ≤ S256.size a
  hwx0_13 : ∀ i : grid0.Coords, EltTy.bits .f32 = 32 ∨ (Rect.block (s := S256) S256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x1x256.size a ≤ S32x1x256.size a
  hwx0_14 : ∀ i : grid0.Coords, EltTy.bits .f32 = 32 ∨ (Rect.block (s := S32x1x256) S1x1x256.size (cc0_transform_14 i) (hinb0_14 i)).WholeWords (EltTy.packing .f32)

variable [Facts₀]

def dot_S64x256_S256x512_S64x512_1_0_0_1_n_n : DotDims S64x256 S256x512 S64x512 where
  lhsContracting := [1]
  rhsContracting := [0]
  lhsNonContracting := [0]
  rhsNonContracting := [1]
  lhsBatch := []
  rhsBatch := []
  wf := dot_S64x256_S256x512_S64x512_1_0_0_1_n_n_wf
def dot_S16x256_S256x512_S16x512_1_0_0_1_n_n : DotDims S16x256 S256x512 S16x512 where
  lhsContracting := [1]
  rhsContracting := [0]
  lhsNonContracting := [0]
  rhsNonContracting := [1]
  lhsBatch := []
  rhsBatch := []
  wf := dot_S16x256_S256x512_S16x512_1_0_0_1_n_n_wf
def dot_S1024x2_S2x512_S1024x512_1_0_0_1_n_n : DotDims S1024x2 S2x512 S1024x512 where
  lhsContracting := [1]
  rhsContracting := [0]
  lhsNonContracting := [0]
  rhsNonContracting := [1]
  lhsBatch := []
  rhsBatch := []
  wf := dot_S1024x2_S2x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1x512_S512x512_S1x512_1_0_0_1_n_n : DotDims S1x512 S512x512 S1x512 where
  lhsContracting := [1]
  rhsContracting := [0]
  lhsNonContracting := [0]
  rhsNonContracting := [1]
  lhsBatch := []
  rhsBatch := []
  wf := dot_S1x512_S512x512_S1x512_1_0_0_1_n_n_wf
def dot_S1x512_S512x256_S1x256_1_0_0_1_n_n : DotDims S1x512 S512x256 S1x256 where
  lhsContracting := [1]
  rhsContracting := [0]
  lhsNonContracting := [0]
  rhsNonContracting := [1]
  lhsBatch := []
  rhsBatch := []
  wf := dot_S1x512_S512x256_S1x256_1_0_0_1_n_n_wf

abbrev win0_0 : Pipeline.Window sig grid0 :=
  Pipeline.Window.ofSpec (Memref.whole main_v22) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S16x64x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S2x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg7) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg8) S512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg9) S512x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg10) S256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v26) S1x1x256.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev idle0 : Fin 15 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun i => !(k0_cond2 i == 1#1) | ⟨_ + 15, h⟩ => absurd h (Nat.not_lt.2 (Nat.le_add_left _ _))

class Facts : Prop extends Facts₀ where

variable [Facts]
-- ==== ReferenceIdeal.lean ====
abbrev S32x256x8x8 : Shape := ⟨4, ![32, 256, 8, 8]⟩
abbrev S514x512 : Shape := ⟨2, ![514, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S32x256x64 : Shape := ⟨3, ![32, 256, 64]⟩
abbrev S32x64x256 : Shape := ⟨3, ![32, 64, 256]⟩
abbrev S32x1x64x256 : Shape := ⟨4, ![32, 1, 64, 256]⟩
abbrev S32x64x64x256 : Shape := ⟨4, ![32, 64, 64, 256]⟩
abbrev S32x64x1x256 : Shape := ⟨4, ![32, 64, 1, 256]⟩
abbrev S64 : Shape := ⟨1, ![64]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S64x64x1 : Shape := ⟨3, ![64, 64, 1]⟩
abbrev S64x64x2 : Shape := ⟨3, ![64, 64, 2]⟩
abbrev S1x64x64x2 : Shape := ⟨4, ![1, 64, 64, 2]⟩
abbrev S32x64x64x2 : Shape := ⟨4, ![32, 64, 64, 2]⟩
abbrev S32x64x64x514 : Shape := ⟨4, ![32, 64, 64, 514]⟩
abbrev S32x64x64x512 : Shape := ⟨4, ![32, 64, 64, 512]⟩
abbrev S1x1x1x512 : Shape := ⟨4, ![1, 1, 1, 512]⟩
abbrev S32x512 : Shape := ⟨2, ![32, 512]⟩
abbrev S1x512 : Shape := ⟨2, ![1, 512]⟩
abbrev S32x256 : Shape := ⟨2, ![32, 256]⟩
abbrev S1x256 : Shape := ⟨2, ![1, 256]⟩

abbrev nBuf : Space → Nat
  | .hbm => 116
  | .vmem => 0
  | .smem => 0
  | _ => 0

abbrev bufTy : (tb : Table) → Fin (tcTables nBuf tb) → BufTy
  | .hbm, ⟨0, _⟩ => ⟨S32x256x8x8, .f32⟩
  | .hbm, ⟨1, _⟩ => ⟨S514x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x256, .f32⟩
  | .hbm, ⟨10, _⟩ => ⟨S256, .f32⟩
  | .hbm, ⟨11, _⟩ => ⟨S32x256x64, .f32⟩
  | .hbm, ⟨12, _⟩ => ⟨S32x64x256, .f32⟩
  | .hbm, ⟨13, _⟩ => ⟨S32x1x64x256, .f32⟩
  | .hbm, ⟨14, _⟩ => ⟨S32x64x64x256, .f32⟩
  | .hbm, ⟨15, _⟩ => ⟨S32x64x1x256, .f32⟩
  | .hbm, ⟨16, _⟩ => ⟨S32x64x64x256, .f32⟩
  | .hbm, ⟨17, _⟩ => ⟨S64, .i32⟩
  | .hbm, ⟨18, _⟩ => ⟨S_, .i32⟩
  | .hbm, ⟨19, _⟩ => ⟨S_, .i32⟩
  | .hbm, ⟨20, _⟩ => ⟨S64, .i32⟩
  | .hbm, ⟨21, _⟩ => ⟨S64, .i32⟩
  | .hbm, ⟨22, _⟩ => ⟨S64, .i32⟩
  | .hbm, ⟨23, _⟩ => ⟨S_, .i32⟩
  | .hbm, ⟨24, _⟩ => ⟨S64, .i32⟩
  | .hbm, ⟨25, _⟩ => ⟨S64, .i1⟩
  | .hbm, ⟨26, _⟩ => ⟨S64, .i32⟩
  | .hbm, ⟨27, _⟩ => ⟨S64, .i32⟩
  | .hbm, ⟨28, _⟩ => ⟨S_, .i32⟩
  | .hbm, ⟨29, _⟩ => ⟨S64, .i32⟩
  | .hbm, ⟨30, _⟩ => ⟨S64, .i1⟩
  | .hbm, ⟨31, _⟩ => ⟨S64, .i1⟩
  | .hbm, ⟨32, _⟩ => ⟨S_, .i32⟩
  | .hbm, ⟨33, _⟩ => ⟨S64, .i32⟩
  | .hbm, ⟨34, _⟩ => ⟨S64, .i32⟩
  | .hbm, ⟨35, _⟩ => ⟨S64, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S64, .i32⟩
  | .hbm, ⟨43, _⟩ => ⟨S64, .i32⟩
  | .hbm, ⟨44, _⟩ => ⟨S_, .i32⟩
  | .hbm, ⟨45, _⟩ => ⟨S64, .i32⟩
  | .hbm, ⟨46, _⟩ => ⟨S64, .i1⟩
  | .hbm, ⟨47, _⟩ => ⟨S_, .i32⟩
  | .hbm, ⟨48, _⟩ => ⟨S64, .i32⟩
  | .hbm, ⟨49, _⟩ => ⟨S64, .i1⟩
  | .hbm, ⟨50, _⟩ => ⟨S_, .i32⟩
  | .hbm, ⟨51, _⟩ => ⟨S_, .i1⟩
  | .hbm, ⟨52, _⟩ => ⟨S64, .i1⟩
  | .hbm, ⟨53, _⟩ => ⟨S64, .i1⟩
  | .hbm, ⟨54, _⟩ => ⟨S64, .i1⟩
  | .hbm, ⟨55, _⟩ => ⟨S64, .i32⟩
  | .hbm, ⟨56, _⟩ => ⟨S64, .i32⟩
  | .hbm, ⟨57, _⟩ => ⟨S64, .i32⟩
  | .hbm, ⟨58, _⟩ => ⟨S64x1, .i32⟩
  | .hbm, ⟨59, _⟩ => ⟨S1x64, .i32⟩
  | .hbm, ⟨60, _⟩ => ⟨S64x64, .i32⟩
  | .hbm, ⟨61, _⟩ => ⟨S64x64, .i32⟩
  | .hbm, ⟨62, _⟩ => ⟨S64x64, .i32⟩
  | .hbm, ⟨63, _⟩ => ⟨S64x64, .f32⟩
  | .hbm, ⟨64, _⟩ => ⟨S64x1, .i32⟩
  | .hbm, ⟨65, _⟩ => ⟨S1x64, .i32⟩
  | .hbm, ⟨66, _⟩ => ⟨S64x64, .i32⟩
  | .hbm, ⟨67, _⟩ => ⟨S64x64, .i32⟩
  | .hbm, ⟨68, _⟩ => ⟨S64x64, .i32⟩
  | .hbm, ⟨69, _⟩ => ⟨S64x64, .f32⟩
  | .hbm, ⟨70, _⟩ => ⟨S64x64x1, .f32⟩
  | .hbm, ⟨71, _⟩ => ⟨S64x64x1, .f32⟩
  | .hbm, ⟨72, _⟩ => ⟨S64x64x2, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S64x64x2, .f32⟩
  | .hbm, ⟨78, _⟩ => ⟨S64x64x2, .f32⟩
  | .hbm, ⟨79, _⟩ => ⟨S1x64x64x2, .f32⟩
  | .hbm, ⟨80, _⟩ => ⟨S32x64x64x2, .f32⟩
  | .hbm, ⟨81, _⟩ => ⟨S32x64x64x514, .f32⟩
  | .hbm, ⟨82, _⟩ => ⟨S32x64x64x512, .f32⟩
  | .hbm, ⟨83, _⟩ => ⟨S1x1x1x512, .f32⟩
  | .hbm, ⟨84, _⟩ => ⟨S32x64x64x512, .f32⟩
  | .hbm, ⟨85, _⟩ => ⟨S32x64x64x512, .f32⟩
  | .hbm, ⟨86, _⟩ => ⟨S_, .f32⟩
  | .hbm, ⟨87, _⟩ => ⟨S32x64x64x512, .f32⟩
  | .hbm, ⟨88, _⟩ => ⟨S32x64x64x512, .f32⟩
  | .hbm, ⟨89, _⟩ => ⟨S32x64x64x512, .f32⟩
  | .hbm, ⟨90, _⟩ => ⟨S1x1x1x512, .f32⟩
  | .hbm, ⟨91, _⟩ => ⟨S32x64x64x512, .f32⟩
  | .hbm, ⟨92, _⟩ => ⟨S32x64x64x512, .f32⟩
  | .hbm, ⟨93, _⟩ => ⟨S_, .f32⟩
  | .hbm, ⟨94, _⟩ => ⟨S32x64x64x512, .f32⟩
  | .hbm, ⟨95, _⟩ => ⟨S32x64x64x512, .f32⟩
  | .hbm, ⟨96, _⟩ => ⟨S32x64x64x512, .f32⟩
  | .hbm, ⟨97, _⟩ => ⟨S1x1x1x512, .f32⟩
  | .hbm, ⟨98, _⟩ => ⟨S32x64x64x512, .f32⟩
  | .hbm, ⟨99, _⟩ => ⟨S32x64x64x512, .f32⟩
  | .hbm, ⟨100, _⟩ => ⟨S_, .f32⟩
  | .hbm, ⟨101, _⟩ => ⟨S32x64x64x512, .f32⟩
  | .hbm, ⟨102, _⟩ => ⟨S32x64x64x512, .f32⟩
  | .hbm, ⟨103, _⟩ => ⟨S_, .f32⟩
  | .hbm, ⟨104, _⟩ => ⟨S32x512, .f32⟩
  | .hbm, ⟨105, _⟩ => ⟨S32x512, .f32⟩
  | .hbm, ⟨106, _⟩ => ⟨S1x512, .f32⟩
  | .hbm, ⟨107, _⟩ => ⟨S32x512, .f32⟩
  | .hbm, ⟨108, _⟩ => ⟨S32x512, .f32⟩
  | .hbm, ⟨109, _⟩ => ⟨S_, .f32⟩
  | .hbm, ⟨110, _⟩ => ⟨S32x512, .f32⟩
  | .hbm, ⟨111, _⟩ => ⟨S32x512, .f32⟩
  | .hbm, ⟨112, _⟩ => ⟨S32x256, .f32⟩
  | .hbm, ⟨113, _⟩ => ⟨S1x256, .f32⟩
  | .hbm, ⟨114, _⟩ => ⟨S32x256, .f32⟩
  | .hbm, ⟨115, _⟩ => ⟨S32x256, .f32⟩
  | _, _ => ⟨S32x256x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v7 : Ref sig .tc := ⟨.hbm, 35, rfl⟩
abbrev main_c_0 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_cst : Ref sig .tc := ⟨.hbm, 73, rfl⟩
abbrev main_v24 : Ref sig .tc := ⟨.hbm, 74, rfl⟩
abbrev main_cst_1 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_call2_cst : Ref sig .tc := ⟨.hbm, 86, rfl⟩
abbrev main_call2_v0 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_call3_cst : Ref sig .tc := ⟨.hbm, 93, rfl⟩
abbrev main_call3_v0 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_call4_cst : Ref sig .tc := ⟨.hbm, 100, rfl⟩
abbrev main_call4_v0 : Ref sig .tc := ⟨.hbm, 101, rfl⟩
abbrev main_v45 : Ref sig .tc := ⟨.hbm, 102, rfl⟩
abbrev main_cst_2 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_call5_cst : Ref sig .tc := ⟨.hbm, 109, rfl⟩
abbrev main_call5_v0 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩

abbrev nD : Nat := 1
abbrev τ : Topo := Topo.v7x

variable {F : FTy → Type} [FloatOps F]

class Facts₀ : Prop where
  shapeCasts_S32x256x8x8_S32x256x64 : S32x256x8x8.ShapeCasts S32x256x64
  transposes_S32x256x64_S32x64x256_0_2_1 : S32x256x64.Transposes [0, 2, 1] S32x64x256
  bcast_S32x64x256_S32x1x64x256_0_2_3 : S32x64x256.BroadcastsInDim S32x1x64x256 (![0, 2, 3] : Fin 3 → Fin S32x1x64x256.rank)
  bcast_S32x1x64x256_S32x64x64x256_0_1_2_3 : S32x1x64x256.BroadcastsInDim S32x64x64x256 (![0, 1, 2, 3] : Fin 4 → Fin S32x64x64x256.rank)
  bcast_S32x64x256_S32x64x1x256_0_1_3 : S32x64x256.BroadcastsInDim S32x64x1x256 (![0, 1, 3] : Fin 3 → Fin S32x64x1x256.rank)
  bcast_S32x64x1x256_S32x64x64x256_0_1_2_3 : S32x64x1x256.BroadcastsInDim S32x64x64x256 (![0, 1, 2, 3] : Fin 4 → Fin S32x64x64x256.rank)
  bcast_S_S64 : S_.BroadcastsInDim S64 (![] : Fin 0 → Fin S64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S64x64_S64x64x1_0_1 : S64x64.BroadcastsInDim S64x64x1 (![0, 1] : Fin 2 → Fin S64x64x1.rank)
  concatenates_S64x64x1_S64x64x1_S64x64x2_d2 : Shape.Concatenates [S64x64x1, S64x64x1] S64x64x2 2
  reducesTo_S64x64x2_S_d0_1_2 : S64x64x2.ReducesTo [0, 1, 2] S_
  h_S_ : 0 < S_.numel
  bcast_S_S64x64x2 : S_.BroadcastsInDim S64x64x2 (![] : Fin 0 → Fin S64x64x2.rank)
  bcast_S64x64x2_S1x64x64x2_1_2_3 : S64x64x2.BroadcastsInDim S1x64x64x2 (![1, 2, 3] : Fin 3 → Fin S1x64x64x2.rank)
  bcast_S1x64x64x2_S32x64x64x2_0_1_2_3 : S1x64x64x2.BroadcastsInDim S32x64x64x2 (![0, 1, 2, 3] : Fin 4 → Fin S32x64x64x2.rank)
  concatenates_S32x64x64x256_S32x64x64x256_S32x64x64x2_S32x64x64x514_d3 : Shape.Concatenates [S32x64x64x256, S32x64x64x256, S32x64x64x2] S32x64x64x514 3
  bcast_S512_S1x1x1x512_3 : S512.BroadcastsInDim S1x1x1x512 (![3] : Fin 1 → Fin S1x1x1x512.rank)
  bcast_S1x1x1x512_S32x64x64x512_0_1_2_3 : S1x1x1x512.BroadcastsInDim S32x64x64x512 (![0, 1, 2, 3] : Fin 4 → Fin S32x64x64x512.rank)
  bcast_S_S32x64x64x512 : S_.BroadcastsInDim S32x64x64x512 (![] : Fin 0 → Fin S32x64x64x512.rank)
  reducesTo_S32x64x64x512_S32x512_d1_2 : S32x64x64x512.ReducesTo [1, 2] S32x512
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  bcast_S_S32x512 : S_.BroadcastsInDim S32x512 (![] : Fin 0 → Fin S32x512.rank)
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  dot_S32x64x64x514_S514x512_S32x64x64x512_3_0_012_1_n_n_wf : DotDims.WF S32x64x64x514 S514x512 S32x64x64x512 [3] [0] [0, 1, 2] [1] [] []
  dot_S32x64x64x512_S512x512_S32x64x64x512_3_0_012_1_n_n_wf : DotDims.WF S32x64x64x512 S512x512 S32x64x64x512 [3] [0] [0, 1, 2] [1] [] []
  dot_S32x512_S512x512_S32x512_1_0_0_1_n_n_wf : DotDims.WF S32x512 S512x512 S32x512 [1] [0] [0] [1] [] []
  dot_S32x512_S512x256_S32x256_1_0_0_1_n_n_wf : DotDims.WF S32x512 S512x256 S32x256 [1] [0] [0] [1] [] []

variable [Facts₀]

def dot_S32x64x64x514_S514x512_S32x64x64x512_3_0_012_1_n_n : DotDims S32x64x64x514 S514x512 S32x64x64x512 where
  lhsContracting := [3]
  rhsContracting := [0]
  lhsNonContracting := [0, 1, 2]
  rhsNonContracting := [1]
  lhsBatch := []
  rhsBatch := []
  wf := dot_S32x64x64x514_S514x512_S32x64x64x512_3_0_012_1_n_n_wf
def dot_S32x64x64x512_S512x512_S32x64x64x512_3_0_012_1_n_n : DotDims S32x64x64x512 S512x512 S32x64x64x512 where
  lhsContracting := [3]
  rhsContracting := [0]
  lhsNonContracting := [0, 1, 2]
  rhsNonContracting := [1]
  lhsBatch := []
  rhsBatch := []
  wf := dot_S32x64x64x512_S512x512_S32x64x64x512_3_0_012_1_n_n_wf
def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S32x512_S512x256_S32x256_1_0_0_1_n_n : DotDims S32x512 S512x256 S32x256 where
  lhsContracting := [1]
  rhsContracting := [0]
  lhsNonContracting := [0]
  rhsNonContracting := [1]
  lhsBatch := []
  rhsBatch := []
  wf := dot_S32x512_S512x256_S32x256_1_0_0_1_n_n_wf

class Facts : Prop extends Facts₀ where

variable [Facts]
-- ==== Proof.KDefs.lean ====
/-
  What one grid point computes, as pure functions of the blocks its loads read (any float instance).

  At point (b, pt) the body transposes batch entry b's [256, 64] feature block to [64, 256] (`k0_pay3`), multiplies all 64
  rows into the inner share (`k0_pay4`) and the 16 rows of tile pt into the outer share (`k0_pay5`), the tile's
  relative positions into theirs (`k0_pay6`), and runs g's layers on the 16 × 64 pairs, adding the tile's column sums to
  the accumulator it finds (`k0_pay7`). After the last tile f's two layers read the accumulator (`k0_pay1`).
-/
import proofs.«160269_j53584011985126_1_alg».proof.Proof.Gen.KernelIdeal.Skeleton
import Idealize.ShloMosaic.Lib.ValueIdx

noncomputable section

namespace Cert.KernelIdeal.KV

open Idealize.ShloMosaic Idealize.ShloMosaic.ValueIdx Cert.KernelIdeal Cert.KernelIdeal.Gen

variable {F : FTy → Type} [FloatOps F]

/-- The accumulator after a point: the accumulator before it plus the column sums of g over the tile's 16 × 64
    pairs, from the tile's 16 transposed rows `rows`, the feature block `x0`, the tile of the table `x1`, the three
    row ranges of the first weight matrix `x2 x3 x4` and g's remaining parameters. -/
def accStepOf (rows : Vec F S16x256 .bf16) (x0 : Vec F S1x256x64 .f32) (x1 : Vec F S16x64x2 .f32)
    (x2 : Vec F S256x512 .f32) (x3 : Vec F S256x512 .f32) (x4 : Vec F S2x512 .f32) (x5 : Vec F S512 .f32)
    (x6 : Vec F S512x512 .f32) (x7 : Vec F S512 .f32) (x8 : Vec F S512x512 .f32) (x9 : Vec F S512 .f32)
    (acc : Vec F S1x512 .f32) : Vec F S1x512 .f32 :=
  k0_pay7 (k0_pay4 (k0_pay3 x0) x2) (k0_pay5 rows x3) (k0_pay6 x4 x1) x5 x6 x7 x8 x9 acc

/-- Rows `16·pt … 16·pt + 15` of a [64, 256] block, `pt` the point's second grid coordinate: the outer objects of
    the point's tile. -/
def tileRows (i : grid0.Coords) (xt : Vec F S64x256 .bf16) : Vec F S16x256 .bf16 :=
  fun y => xt (ix2 ⟨16 * (i 1).val + (y 0).val, by
      have h1 : (i 1).val < 4 := (i 1).isLt
      have h2 : (y 0).val < 16 := (y 0).isLt
      omega⟩ ⟨(y 1).val, (y 1).isLt⟩)

/-- The accumulator after the point at coordinates `i`: the tile's rows are those of the transposed feature block. -/
def accStep (i : grid0.Coords) (x0 : Vec F S1x256x64 .f32) (x1 : Vec F S16x64x2 .f32)
    (x2 : Vec F S256x512 .f32) (x3 : Vec F S256x512 .f32) (x4 : Vec F S2x512 .f32) (x5 : Vec F S512 .f32)
    (x6 : Vec F S512x512 .f32) (x7 : Vec F S512 .f32) (x8 : Vec F S512x512 .f32) (x9 : Vec F S512 .f32)
    (acc : Vec F S1x512 .f32) : Vec F S1x512 .f32 :=
  accStepOf (tileRows i (k0_pay3 x0)) x0 x1 x2 x3 x4 x5 x6 x7 x8 x9 acc

/-- The zero block a batch entry's first point resets the accumulator to. -/
def accZero : Vec F S1x512 .f32 := k0_pay2

/-- f's two layers on the finished accumulator: the output block. -/
def fOut (acc : Vec F S1x512 .f32) (x10 : Vec F S512x512 .f32) (x11 : Vec F S512 .f32) (x12 : Vec F S512x256 .f32)
    (x13 : Vec F S256 .f32) : Vec F S1x1x256 .f32 :=
  k0_pay1 acc x10 x11 x12 x13

end Cert.KernelIdeal.KV

end
-- ==== Proof.KPieces.lean ====
/-
  What each control case of the body leaves behind, read off the stores its run found, for any float instance.

  The first point of a batch entry (case A) stores the zero block into the accumulator, reads it back and stores the
  updated one; the middle points (case B) read the accumulator the point before left and store the updated one; the last
  point (case C) does the same and then stores f of the new accumulator into the output block. In every case the rows of
  the tile are read back from the scratch the transposed feature block was just stored into.
-/
import proofs.«160269_j53584011985126_1_alg».proof.Proof.Gen.KernelIdeal.Frame
import proofs.«160269_j53584011985126_1_alg».proof.Proof.KDefs
import Idealize.ShloMosaic.Lib.Pipeline.Value
import Idealize.ShloMosaic.Lib.Tactic

noncomputable section

namespace Cert.KernelIdeal.KV

open Idealize.ShloMosaic Idealize.ShloMosaic.TcCoe Idealize.ShloMosaic.ValueIdx Idealize.SL.Sem
open Cert.KernelIdeal Cert.KernelIdeal.Gen

variable {F : FTy → Type} [FloatOps F]

/-- The zero offsets of a rank-1, rank-2 and rank-3 block, as the constant function. -/
private theorem hz1 : (![0] : Fin 1 → Nat) = fun _ => 0 := funext fun a => by fin_cases a <;> rfl
private theorem hz2 : (![0, 0] : Fin 2 → Nat) = fun _ => 0 := funext fun a => by fin_cases a <;> rfl
private theorem hz3 : (![0, 0, 0] : Fin 3 → Nat) = fun _ => 0 := funext fun a => by fin_cases a <;> rfl

/-- Reading rows `16·pt … 16·pt + 15` back out of a scratch that one covering store has just filled gives those rows of
    the stored block. -/
theorem readAt_tile {sg : RefSig} {κ : Kind} {sp : Space} (v : View sg κ sp S64x256 .bf16) (i : grid0.Coords)
    (inb0 : ∀ a, (![0, 0] : Fin 2 → Nat) a + S64x256.size a ≤ S64x256.size a) (w : Vec F S64x256 .bf16) :
    v.readAt (Elt F) (Rect.unit (s := S64x256) (k0_off1 i) S16x256.size (k0_off1_inb i)).toLoadRect
        (v.writes (Elt F) v.junk [(⟨Rect.unit ![0, 0] S64x256.size inb0, w⟩ : View.Piece (Elt F) S64x256 .bf16)])
      = tileRows i w := by
  rw [View.readAt_writes_junk_eq_canon, View.canon_unit_zero hz2]
  have h0 : k0_off1 i 0 = 16 * (i 1).val := congrFun (k0_off1_eq i) 0
  have h1 : k0_off1 i 1 = 0 := congrFun (k0_off1_eq i) 1
  funext j
  unfold tileRows
  congr 1
  funext a
  apply Fin.ext
  match a with
  | ⟨0, _⟩ =>
    show (k0_off1 i) 0 + 1 * (j 0).val = 16 * (i 1).val + (j 0).val
    omega
  | ⟨1, _⟩ =>
    show (k0_off1 i) 1 + 1 * (j 1).val = (j 1).val
    omega

/-- Case A (a batch entry's first tile): the accumulator ends at one step from the zero block. -/
theorem sout_A (c : Dev nD) (i : grid0.Coords) (arg2 : Memref sig .tc .vmem S1x256x64 .f32) (harg2 : arg2.IsWhole) (arg3 : Memref sig .tc .vmem S16x64x2 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S512x512 .f32) (harg10 : arg10.IsWhole) (arg11 : Memref sig .tc .vmem S512 .f32) (harg11 : arg11.IsWhole) (arg12 : Memref sig .tc .vmem S512x512 .f32) (harg12 : arg12.IsWhole) (arg13 : Memref sig .tc .vmem S512 .f32) (harg13 : arg13.IsWhole) (arg14 : Memref sig .tc .vmem S512x256 .f32) (harg14 : arg14.IsWhole) (arg15 : Memref sig .tc .vmem S256 .f32) (harg15 : arg15.IsWhole) (arg16 : Memref sig .tc .vmem S1x1x256 .f32) (harg16 : arg16.IsWhole) (arg17 : Memref sig .tc .vmem S64x256 .bf16) (harg17 : arg17.IsWhole) (arg18 : Memref sig .tc .vmem S1x512 .f32) (harg18 : arg18.IsWhole) (hc0 : cond0_0 i) (hc1 : ¬cond0_1 i)
    (x0 : Vec F S1x256x64 .f32) (x1 : Vec F S16x64x2 .f32) (x2 : Vec F S256x512 .f32) (x3 : Vec F S256x512 .f32) (x4 : Vec F S2x512 .f32) (x5 : Vec F S512 .f32) (x6 : Vec F S512x512 .f32) (x7 : Vec F S512 .f32) (x8 : Vec F S512x512 .f32) (x9 : Vec F S512 .f32) (x10 : Vec F S512x512 .f32) (x11 : Vec F S512 .f32) (x12 : Vec F S512x256 .f32) (x13 : Vec F S256 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13
      = accStep i x0 x1 x2 x3 x4 x5 x6 x7 x8 x9 accZero := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13)]
  unfold kernelRun0_A
  dsimp only
  sl_unfold_run_names
  rw [View.canon_cons_unit_zero (S := S1x512) hz2, readAt_tile]
  simp only [View.readAt_eq_ld, harg2.read_unread, harg3.read_unread, harg4.read_unread, harg5.read_unread,
    harg6.read_unread, harg7.read_unread, harg8.read_unread, harg9.read_unread, harg10.read_unread, harg11.read_unread,
    harg12.read_unread, harg13.read_unread, harg14.read_unread, harg15.read_unread, harg18.read_unread,
    View.readCov_unit_zero (S := S64x256) _ hz2, View.readCov_unit_zero (S := S1x512) _ hz2,
    View.ld_unit_zero (S := S1x256x64) hz3, View.ld_unit_zero (S := S16x64x2) hz3, View.ld_unit_zero (S := S256x512) hz2,
    View.ld_unit_zero (S := S2x512) hz2, View.ld_unit_zero (S := S512) hz1, View.ld_unit_zero (S := S512x512) hz2,
    View.ld_unit_zero (S := S512x256) hz2, View.ld_unit_zero (S := S256) hz1, View.ld_unit_zero (S := S1x512) hz2]
  rfl

/-- Case B (a middle tile): one step from what the point before left. -/
theorem sout_B (c : Dev nD) (i : grid0.Coords) (arg2 : Memref sig .tc .vmem S1x256x64 .f32) (harg2 : arg2.IsWhole) (arg3 : Memref sig .tc .vmem S16x64x2 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S512x512 .f32) (harg10 : arg10.IsWhole) (arg11 : Memref sig .tc .vmem S512 .f32) (harg11 : arg11.IsWhole) (arg12 : Memref sig .tc .vmem S512x512 .f32) (harg12 : arg12.IsWhole) (arg13 : Memref sig .tc .vmem S512 .f32) (harg13 : arg13.IsWhole) (arg14 : Memref sig .tc .vmem S512x256 .f32) (harg14 : arg14.IsWhole) (arg15 : Memref sig .tc .vmem S256 .f32) (harg15 : arg15.IsWhole) (arg16 : Memref sig .tc .vmem S1x1x256 .f32) (harg16 : arg16.IsWhole) (arg17 : Memref sig .tc .vmem S64x256 .bf16) (harg17 : arg17.IsWhole) (arg18 : Memref sig .tc .vmem S1x512 .f32) (harg18 : arg18.IsWhole) (hc0 : ¬cond0_0 i) (hc1 : ¬cond0_1 i)
    (x0 : Vec F S1x256x64 .f32) (x1 : Vec F S16x64x2 .f32) (x2 : Vec F S256x512 .f32) (x3 : Vec F S256x512 .f32) (x4 : Vec F S2x512 .f32) (x5 : Vec F S512 .f32) (x6 : Vec F S512x512 .f32) (x7 : Vec F S512 .f32) (x8 : Vec F S512x512 .f32) (x9 : Vec F S512 .f32) (x10 : Vec F S512x512 .f32) (x11 : Vec F S512 .f32) (x12 : Vec F S512x256 .f32) (x13 : Vec F S256 .f32) (xs1 : Vec F S1x512 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 xs1
      = accStep i x0 x1 x2 x3 x4 x5 x6 x7 x8 x9 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 xs1)]
  unfold kernelRun0_B
  dsimp only
  sl_unfold_run_names
  rw [View.canon_unit_zero hz2, readAt_tile]
  simp only [View.readAt_eq_ld, harg2.read_unread, harg3.read_unread, harg4.read_unread, harg5.read_unread,
    harg6.read_unread, harg7.read_unread, harg8.read_unread, harg9.read_unread, harg10.read_unread, harg11.read_unread,
    harg12.read_unread, harg13.read_unread, harg14.read_unread, harg15.read_unread, harg18.read_unread,
    View.readCov_unit_zero (S := S64x256) _ hz2, View.readCov_unit_zero (S := S1x512) _ hz2,
    View.ld_unit_zero (S := S1x256x64) hz3, View.ld_unit_zero (S := S16x64x2) hz3, View.ld_unit_zero (S := S256x512) hz2,
    View.ld_unit_zero (S := S2x512) hz2, View.ld_unit_zero (S := S512) hz1, View.ld_unit_zero (S := S512x512) hz2,
    View.ld_unit_zero (S := S512x256) hz2, View.ld_unit_zero (S := S256) hz1, View.ld_unit_zero (S := S1x512) hz2]
  rfl

/-- Case C (the last tile): the accumulator likewise, -/
theorem sout_C (c : Dev nD) (i : grid0.Coords) (arg2 : Memref sig .tc .vmem S1x256x64 .f32) (harg2 : arg2.IsWhole) (arg3 : Memref sig .tc .vmem S16x64x2 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S512x512 .f32) (harg10 : arg10.IsWhole) (arg11 : Memref sig .tc .vmem S512 .f32) (harg11 : arg11.IsWhole) (arg12 : Memref sig .tc .vmem S512x512 .f32) (harg12 : arg12.IsWhole) (arg13 : Memref sig .tc .vmem S512 .f32) (harg13 : arg13.IsWhole) (arg14 : Memref sig .tc .vmem S512x256 .f32) (harg14 : arg14.IsWhole) (arg15 : Memref sig .tc .vmem S256 .f32) (harg15 : arg15.IsWhole) (arg16 : Memref sig .tc .vmem S1x1x256 .f32) (harg16 : arg16.IsWhole) (arg17 : Memref sig .tc .vmem S64x256 .bf16) (harg17 : arg17.IsWhole) (arg18 : Memref sig .tc .vmem S1x512 .f32) (harg18 : arg18.IsWhole) (hc0 : ¬cond0_0 i) (hc1 : cond0_1 i)
    (x0 : Vec F S1x256x64 .f32) (x1 : Vec F S16x64x2 .f32) (x2 : Vec F S256x512 .f32) (x3 : Vec F S256x512 .f32) (x4 : Vec F S2x512 .f32) (x5 : Vec F S512 .f32) (x6 : Vec F S512x512 .f32) (x7 : Vec F S512 .f32) (x8 : Vec F S512x512 .f32) (x9 : Vec F S512 .f32) (x10 : Vec F S512x512 .f32) (x11 : Vec F S512 .f32) (x12 : Vec F S512x256 .f32) (x13 : Vec F S256 .f32) (xs1 : Vec F S1x512 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 xs1
      = accStep i x0 x1 x2 x3 x4 x5 x6 x7 x8 x9 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 xs1)]
  unfold kernelRun0_C
  dsimp only
  sl_unfold_run_names
  rw [View.canon_unit_zero hz2, readAt_tile]
  simp only [View.readAt_eq_ld, harg2.read_unread, harg3.read_unread, harg4.read_unread, harg5.read_unread,
    harg6.read_unread, harg7.read_unread, harg8.read_unread, harg9.read_unread, harg10.read_unread, harg11.read_unread,
    harg12.read_unread, harg13.read_unread, harg14.read_unread, harg15.read_unread, harg18.read_unread,
    View.readCov_unit_zero (S := S64x256) _ hz2, View.readCov_unit_zero (S := S1x512) _ hz2,
    View.ld_unit_zero (S := S1x256x64) hz3, View.ld_unit_zero (S := S16x64x2) hz3, View.ld_unit_zero (S := S256x512) hz2,
    View.ld_unit_zero (S := S2x512) hz2, View.ld_unit_zero (S := S512) hz1, View.ld_unit_zero (S := S512x512) hz2,
    View.ld_unit_zero (S := S512x256) hz2, View.ld_unit_zero (S := S256) hz1, View.ld_unit_zero (S := S1x512) hz2]
  rfl

/-- and the output block is f of that accumulator. -/
theorem out_C (c : Dev nD) (i : grid0.Coords) (arg2 : Memref sig .tc .vmem S1x256x64 .f32) (harg2 : arg2.IsWhole) (arg3 : Memref sig .tc .vmem S16x64x2 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S512x512 .f32) (harg10 : arg10.IsWhole) (arg11 : Memref sig .tc .vmem S512 .f32) (harg11 : arg11.IsWhole) (arg12 : Memref sig .tc .vmem S512x512 .f32) (harg12 : arg12.IsWhole) (arg13 : Memref sig .tc .vmem S512 .f32) (harg13 : arg13.IsWhole) (arg14 : Memref sig .tc .vmem S512x256 .f32) (harg14 : arg14.IsWhole) (arg15 : Memref sig .tc .vmem S256 .f32) (harg15 : arg15.IsWhole) (arg16 : Memref sig .tc .vmem S1x1x256 .f32) (harg16 : arg16.IsWhole) (arg17 : Memref sig .tc .vmem S64x256 .bf16) (harg17 : arg17.IsWhole) (arg18 : Memref sig .tc .vmem S1x512 .f32) (harg18 : arg18.IsWhole) (hc0 : ¬cond0_0 i) (hc1 : cond0_1 i)
    (x0 : Vec F S1x256x64 .f32) (x1 : Vec F S16x64x2 .f32) (x2 : Vec F S256x512 .f32) (x3 : Vec F S256x512 .f32) (x4 : Vec F S2x512 .f32) (x5 : Vec F S512 .f32) (x6 : Vec F S512x512 .f32) (x7 : Vec F S512 .f32) (x8 : Vec F S512x512 .f32) (x9 : Vec F S512 .f32) (x10 : Vec F S512x512 .f32) (x11 : Vec F S512 .f32) (x12 : Vec F S512x256 .f32) (x13 : Vec F S256 .f32) (xs1 : Vec F S1x512 .f32) :
    out0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 xs1
      = fOut (accStep i x0 x1 x2 x3 x4 x5 x6 x7 x8 x9 xs1) x10 x11 x12 x13 := by
  unfold out0_C_14
  rw [View.read_writes_eq_canon _ _ _ (cover0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 xs1)]
  unfold kernelRun0_C
  dsimp only
  sl_unfold_run_names
  rw [View.canon_unit_zero hz3, readAt_tile]
  simp only [View.readAt_eq_ld, harg2.read_unread, harg3.read_unread, harg4.read_unread, harg5.read_unread,
    harg6.read_unread, harg7.read_unread, harg8.read_unread, harg9.read_unread, harg10.read_unread, harg11.read_unread,
    harg12.read_unread, harg13.read_unread, harg14.read_unread, harg15.read_unread, harg18.read_unread,
    View.readCov_unit_zero (S := S64x256) _ hz2, View.readCov_unit_zero (S := S1x512) _ hz2,
    View.ld_unit_zero (S := S1x256x64) hz3, View.ld_unit_zero (S := S16x64x2) hz3, View.ld_unit_zero (S := S256x512) hz2,
    View.ld_unit_zero (S := S2x512) hz2, View.ld_unit_zero (S := S512) hz1, View.ld_unit_zero (S := S512x512) hz2,
    View.ld_unit_zero (S := S512x256) hz2, View.ld_unit_zero (S := S256) hz1, View.ld_unit_zero (S := S1x512) hz2]
  rfl

end Cert.KernelIdeal.KV

end
-- ==== Proof.Spec.lean ====
/-
  The relation network as ONE function of the argument arrays, index by index, over the extended reals.

  For a batch entry `b`, objects `p, q : Fin 64` (object `n` is pixel `(n / 8, n % 8)` of the 8 × 8 map, its feature
  vector the 256 channels there) and the table `rel p q` of relative positions:
    g layer 0   a0 b p q h = relu (Σ_c x[b,q,c]·W0[c,h] + Σ_c x[b,p,c]·W0[256+c,h] + Σ_r rel[p,q,r]·W0[512+r,h] + b0[h])
    g layer 1   a1 b p q k = relu (Σ_h a0 b p q h · W1[h,k] + b1[k])
    g layer 2   a2 b p q k = relu (Σ_h a1 b p q h · W2[h,k] + b2[k])
    the sum     e  b k     = Σ_p Σ_q a2 b p q k                       (all 4096 ordered pairs)
    f layer 0   hf b j     = relu (Σ_k e b k · V0[k,j] + c0[j])
    f layer 1   out b o    = Σ_j hf b j · V1[j,o] + c1[o]
  `relu t = max t 0`, the zero written as the f32 zero word both programs print. No law beyond the commutative
  monoid of `+` joins the two programs to this form: the 514-term contraction of the concatenated pair is the three
  sums above, and the sum over pairs is taken tile by tile by the kernel, whole by the reference.
-/
import Idealize.ShloMosaic.PureOps.Ideal
import Idealize.ShloMosaic.Lib.ValueIdx

noncomputable section

namespace Cert.Spec

open Idealize.ShloMosaic Idealize.ShloMosaic.ValueIdx

/-- The shapes of the arguments, of the relative-position table and of the result. -/
abbrev SX : Shape := ⟨4, ![32, 256, 8, 8]⟩
abbrev SW0 : Shape := ⟨2, ![514, 512]⟩
abbrev SB : Shape := ⟨1, ![512]⟩
abbrev SW : Shape := ⟨2, ![512, 512]⟩
abbrev SV1 : Shape := ⟨2, ![512, 256]⟩
abbrev SC1 : Shape := ⟨1, ![256]⟩
abbrev SRel : Shape := ⟨3, ![64, 64, 2]⟩
abbrev SOut : Shape := ⟨2, ![32, 256]⟩

/-- The f32 zero word, read at the extended reals: what a `relu` compares with. -/
abbrev z32 : EReal := Ideal.ofBits .f32 0x00000000#32

/-- The rectifier. -/
def relu (t : EReal) : EReal := max t z32

/-- Object `n` of batch entry `b`, channel `c`: pixel `(n / 8, n % 8)` of the map. -/
def feat (X : SX.Idx → EReal) (b : Fin 32) (n : Fin 64) (c : Fin 256) : EReal :=
  X (ix4 b c ⟨n.val / 8, by omega⟩ ⟨n.val % 8, by omega⟩)

/-- Rows `0 … 255`, `256 … 511` and `512, 513` of the first weight matrix. -/
def w0a (W0 : SW0.Idx → EReal) (c : Fin 256) (h : Fin 512) : EReal := W0 (ix2 ⟨c.val, by omega⟩ h)
def w0b (W0 : SW0.Idx → EReal) (c : Fin 256) (h : Fin 512) : EReal := W0 (ix2 ⟨256 + c.val, by omega⟩ h)
def w0r (W0 : SW0.Idx → EReal) (r : Fin 2) (h : Fin 512) : EReal := W0 (ix2 ⟨512 + r.val, by omega⟩ h)

section
variable (X : SX.Idx → EReal) (W0 : SW0.Idx → EReal) (B0 : SB.Idx → EReal) (W1 : SW.Idx → EReal) (B1 : SB.Idx → EReal)
  (W2 : SW.Idx → EReal) (B2 : SB.Idx → EReal) (V0 : SW.Idx → EReal) (C0 : SB.Idx → EReal) (V1 : SV1.Idx → EReal)
  (C1 : SC1.Idx → EReal) (rel : SRel.Idx → EReal)

/-- The inner object's, the outer object's and the relative position's shares of g's first layer. -/
def partQ (b : Fin 32) (q : Fin 64) (h : Fin 512) : EReal := ∑ c : Fin 256, feat X b q c * w0a W0 c h
def partP (b : Fin 32) (p : Fin 64) (h : Fin 512) : EReal := ∑ c : Fin 256, feat X b p c * w0b W0 c h
def partR (p q : Fin 64) (h : Fin 512) : EReal := ∑ r : Fin 2, rel (ix3 p q r) * w0r W0 r h

/-- g's three layers at a pair `(p, q)`. -/
def a0 (b : Fin 32) (p q : Fin 64) (h : Fin 512) : EReal :=
  relu (partQ X W0 b q h + partP X W0 b p h + partR W0 rel p q h + B0 (ix1 h))
def a1 (b : Fin 32) (p q : Fin 64) (k : Fin 512) : EReal :=
  relu ((∑ h : Fin 512, a0 X W0 B0 rel b p q h * W1 (ix2 h k)) + B1 (ix1 k))
def a2 (b : Fin 32) (p q : Fin 64) (k : Fin 512) : EReal :=
  relu ((∑ h : Fin 512, a1 X W0 B0 W1 B1 rel b p q h * W2 (ix2 h k)) + B2 (ix1 k))

/-- The relations summed over every ordered pair. -/
def emb (b : Fin 32) (k : Fin 512) : EReal := ∑ p : Fin 64, ∑ q : Fin 64, a2 X W0 B0 W1 B1 W2 B2 rel b p q k

/-- f's two layers. -/
def hid (b : Fin 32) (j : Fin 512) : EReal :=
  relu ((∑ k : Fin 512, emb X W0 B0 W1 B1 W2 B2 rel b k * V0 (ix2 k j)) + C0 (ix1 j))
def outAt (b : Fin 32) (o : Fin 256) : EReal :=
  (∑ j : Fin 512, hid X W0 B0 W1 B1 W2 B2 V0 C0 rel b j * V1 (ix2 j o)) + C1 (ix1 o)

/-- The result array. -/
def G : SOut.Idx → EReal := fun i => outAt X W0 B0 W1 B1 W2 B2 V0 C0 V1 C1 rel (i 0) (i 1)

theorem G_apply (b : Fin 32) (o : Fin 256) :
    G X W0 B0 W1 B1 W2 B2 V0 C0 V1 C1 rel (ix2 b o) = outAt X W0 B0 W1 B1 W2 B2 V0 C0 V1 C1 rel b o := rfl

end

end Cert.Spec

end
-- ==== Proof.KMath.lean ====
/-
  One point's arithmetic at the extended reals, index by index, against the specification.

  With the feature block, the tile of the table and the three row ranges of the first weight matrix read as the
  specification reads them, one step adds to the accumulator's entry k the sum over the tile's 16 outer objects and all
  64 inner objects of g's third activation; f's two layers on an accumulator are the two contractions with a rectifier
  between them.
-/
import proofs.«160269_j53584011985126_1_alg».proof.Proof.KDefs
import proofs.«160269_j53584011985126_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KV

open Idealize.ShloMosaic Idealize.ShloMosaic.ValueIdx
open Cert.KernelIdeal Cert.KernelIdeal.Gen

/-! ## A plain matrix product read at an index -/

section Product
variable (M K N : ℕ)

/-- The dimension numbers of an `[M, K]` by `[K, N]` product, with any proof of their conditions. -/
abbrev mm (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left factor's row is the result's row. -/
theorem mm_lhs_0 (i : (⟨2, ![M, N]⟩ : Shape).Idx) (c : (mm M K N wf).contr.Idx) :
    ((mm M K N wf).lhsIdx i c 0).val = (i 0).val := by
  unfold DotDims.lhsIdx
  rw [dif_neg (show ¬(0 : Fin (⟨2, ![M, K]⟩ : Shape).rank) ∈ (mm M K N wf).lhsBatch from List.not_mem_nil),
    dif_pos (show (0 : Fin (⟨2, ![M, K]⟩ : Shape).rank) ∈ (mm M K N wf).lhsNonContracting from List.mem_singleton.mpr rfl)]
  rfl

/-- The left factor's column is the contracted coordinate. -/
theorem mm_lhs_1 (i : (⟨2, ![M, N]⟩ : Shape).Idx) (c : (mm M K N wf).contr.Idx) :
    ((mm M K N wf).lhsIdx i c 1).val = (c ⟨0, Nat.one_pos⟩).val :=
  (mm M K N wf).lhsIdx_val_of_single rfl i c

/-- The right factor's row is the contracted coordinate. -/
theorem mm_rhs_0 (i : (⟨2, ![M, N]⟩ : Shape).Idx) (c : (mm M K N wf).contr.Idx) :
    ((mm M K N wf).rhsIdx i c 0).val = (c ⟨0, Nat.one_pos⟩).val :=
  (mm M K N wf).rhsIdx_val_of_single rfl i c

/-- The right factor's column is the result's column. -/
theorem mm_rhs_1 (i : (⟨2, ![M, N]⟩ : Shape).Idx) (c : (mm M K N wf).contr.Idx) :
    ((mm M K N wf).rhsIdx i c 1).val = (i 1).val := by
  unfold DotDims.rhsIdx
  rw [dif_neg (show ¬(1 : Fin (⟨2, ![K, N]⟩ : Shape).rank) ∈ (mm M K N wf).rhsBatch from List.not_mem_nil),
    dif_pos (show (1 : Fin (⟨2, ![K, N]⟩ : Shape).rank) ∈ (mm M K N wf).rhsNonContracting from List.mem_singleton.mpr rfl)]
  rfl

/-- The product accumulated into zero, at `(p, q)`: the sum over the contracted coordinate of row `p` of the left
    factor times column `q` of the right one. -/
theorem mm_zero_apply {φ₁ φ₂ : FTy} (l : FVec Ideal ⟨2, ![M, K]⟩ φ₁) (r : FVec Ideal ⟨2, ![K, N]⟩ φ₂)
    (p : Fin M) (q : Fin N) :
    FloatOps.matmul (mm M K N wf) none l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 (mm M K N wf) K rfl rfl).symm]
  refine Finset.sum_congr rfl fun k _ => ?_
  have hk := contrEquiv1_symm_val (mm M K N wf) K rfl rfl k
  have el : (mm M K N wf).lhsIdx (ix2 p q) ((contrEquiv1 (mm M K N wf) K rfl rfl).symm k) = ix2 p k :=
    funext fun a => Fin.ext (by
      match a with
      | ⟨0, _⟩ => exact mm_lhs_0 M K N wf _ _
      | ⟨1, _⟩ => exact (mm_lhs_1 M K N wf _ _).trans hk)
  have er : (mm M K N wf).rhsIdx (ix2 p q) ((contrEquiv1 (mm M K N wf) K rfl rfl).symm k) = ix2 k q :=
    funext fun a => Fin.ext (by
      match a with
      | ⟨0, _⟩ => exact (mm_rhs_0 M K N wf _ _).trans hk
      | ⟨1, _⟩ => exact mm_rhs_1 M K N wf _ _)
  rw [el, er]

end Product

/-! ## Layout operations read at an index -/

section Layout
variable {α : Type}

/-- Row `64 p + q` of the 1024 rows: inner object `q` under outer object `p` of the tile. -/
abbrev row (p : Fin 16) (q : Fin 64) : Fin 1024 := ⟨64 * p.val + q.val, by omega⟩

/-- The 16 matrices stacked into one tall matrix: entry `(64 p + q, r)` is matrix `p`'s entry `(q, r)`. -/
theorem stack_apply {c : ℕ} (v : (⟨3, ![16, 64, c]⟩ : Shape).Idx → α)
    (h : (⟨3, ![16, 64, c]⟩ : Shape).ShapeCasts ⟨2, ![1024, c]⟩) (p : Fin 16) (q : Fin 64) (r : Fin c) :
    shapeCast ⟨2, ![1024, c]⟩ v h (ix2 (row p q) r) = v (ix3 p q r) :=
  shapeCast_apply v h _ _ (by
    rw [Shape.rowMajor_val_two, Shape.rowMajor_val_three]
    show (p.val * 64 + q.val) * c + r.val = (64 * p.val + q.val) * c + r.val
    rw [Nat.mul_comm p.val 64])

/-- The tall matrix cut into 16 matrices: entry `(p, q, r)` is the tall matrix's entry `(64 p + q, r)`. -/
theorem unstack_apply {c : ℕ} (v : (⟨2, ![1024, c]⟩ : Shape).Idx → α)
    (h : (⟨2, ![1024, c]⟩ : Shape).ShapeCasts ⟨3, ![16, 64, c]⟩) (p : Fin 16) (q : Fin 64) (r : Fin c) :
    shapeCast ⟨3, ![16, 64, c]⟩ v h (ix3 p q r) = v (ix2 (row p q) r) :=
  shapeCast_apply v h _ _ (by
    rw [Shape.rowMajor_val_two, Shape.rowMajor_val_three]
    show (64 * p.val + q.val) * c + r.val = (p.val * 64 + q.val) * c + r.val
    rw [Nat.mul_comm p.val 64])

/-- `[a, c]` cast to `[a, 1, c]` reads, at `(p, u, r)`, the operand at `(p, r)`. -/
theorem midUnit_apply {a c : ℕ} (v : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ v h (ix3 p u r) = v (ix2 p r) :=
  shapeCast_apply v h _ _ (by
    have hu : u.val = 0 := by omega
    rw [Shape.rowMajor_val_two, Shape.rowMajor_val_three]
    show p.val * c + r.val = (p.val * 1 + u.val) * c + r.val
    rw [hu, Nat.mul_one, Nat.add_zero])

/-- `[c]` cast to `[1, 1, c]` reads, at `(u, u', r)`, the operand at `r`. -/
theorem twoUnits_apply {c : ℕ} (v : (⟨1, ![c]⟩ : Shape).Idx → α)
    (h : (⟨1, ![c]⟩ : Shape).ShapeCasts ⟨3, ![1, 1, c]⟩) (u u' : Fin 1) (r : Fin c) :
    shapeCast ⟨3, ![1, 1, c]⟩ v h (ix3 u u' r) = v (ix1 r) :=
  shapeCast_apply v h _ _ (by
    have hu : u.val = 0 := by omega
    have hu' : u'.val = 0 := by omega
    rw [Shape.rowMajor_val_one, Shape.rowMajor_val_three]
    show r.val = (u.val * 1 + u'.val) * c + r.val
    rw [hu, hu', Nat.zero_mul, Nat.zero_add])

/-- `[1, b, c]` broadcast to `[a, b, c]` reads, at `(p, q, r)`, the entry `(0, q, r)`. -/
theorem bcastAxis0_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- `[a, 1, c]` broadcast to `[a, b, c]` reads, at `(p, q, r)`, the entry `(p, 0, r)`. -/
theorem bcastAxis1_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- `[1, 1, c]` broadcast to `[a, b, c]` reads, at `(p, q, r)`, the entry `(0, 0, r)`. -/
theorem bcastAxes01_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

end Layout

/-! ## A sum down the columns, and the 1024 rows as 16 × 64 -/

section Columns
variable {n c : ℕ} {φ : FTy}

/-- Over entry `k` of the reduced vector, the source index with row `r` put back is `(r, k)`. -/
theorem lift_col (h : (⟨2, ![n, c]⟩ : Shape).Reduces [0] ⟨1, ![c]⟩) (k : Fin c) (r : Fin n) :
    h.lift (ix1 k) r = ix2 r k :=
  funext fun d => Fin.ext (by match d with | ⟨0, _⟩ => rfl | ⟨1, _⟩ => rfl)

/-- A sum along the first axis, at column `k`: the sum of the column's entries. -/
theorem colSum_apply (src : FVec Ideal ⟨2, ![n, c]⟩ φ) (acc : BitVec φ.bits)
    (h : (⟨2, ![n, c]⟩ : Shape).Reduces [0] ⟨1, ![c]⟩) (hφ : FKind.Formats φ) (hacc : acc = FKind.add.neutral φ hφ) (k : Fin c) :
    multiReduction (F := Ideal) .add [0] ⟨1, ![c]⟩ src acc h hφ hacc (ix1 k) = ∑ r : Fin n, src (ix2 r k) :=
  (Ideal.multiReduction_add_single src acc h hφ hacc (ix1 k)).trans
    (Finset.sum_congr rfl fun r _ => congrArg src (lift_col h k r))

/-- A sum over the 1024 rows is the sum over the 16 outer and the 64 inner objects. -/
theorem sum_rows {M : Type*} [AddCommMonoid M] (f : Fin 1024 → M) :
    ∑ r, f r = ∑ p : Fin 16, ∑ q : Fin 64, f (row p q) := by
  rw [← Equiv.sum_comp (finProdFinEquiv : Fin 16 × Fin 64 ≃ Fin (16 * 64)) f, Fintype.sum_prod_type]
  refine Finset.sum_congr rfl fun p _ => Finset.sum_congr rfl fun q _ => congrArg f (Fin.ext ?_)
  show q.val + 64 * p.val = 64 * p.val + q.val
  omega

end Columns

/-- Narrowing to bf16 is the identity on extended reals. -/
theorem truncbf_apply {s : Shape} (a : FVec Ideal s .f32) (h : FTy.bf16.bits < FTy.f32.bits) (i : s.Idx) :
    (truncf .bf16 a h : FVec Ideal s .bf16) i = a i := rfl

/-! ## The payloads read at an index -/

section Payloads

/-- The transposed feature block: object `n`, channel `cc`. -/
theorem pay3_apply (x0 : Vec Ideal S1x256x64 .f32) (n : Fin 64) (cc : Fin 256) :
    k0_pay3 (F := Ideal) x0 (ix2 n cc) = x0 (ix3 0 cc n) := by
  unfold k0_pay3
  refine (congrFun (shapeCast_self _ _) _).trans ?_
  refine (truncbf_apply _ _ _).trans ?_
  refine (transpose_ix2_apply _ _ n cc).trans ?_
  exact shapeCast_1ab_ab_apply _ _ cc n

/-- The tile's rows are rows `16 pt + pl` of the block. -/
theorem tileRows_apply (i : grid0.Coords) (pt : Fin 4) (hpt : (i 1).val = pt.val) (xt : Vec Ideal S64x256 .bf16)
    (pl : Fin 16) (cc : Fin 256) :
    tileRows (F := Ideal) i xt (ix2 pl cc) = xt (ix2 ⟨16 * pt.val + pl.val, by omega⟩ cc) := by
  unfold tileRows
  refine congrArg xt (funext fun a => ?_)
  match a with
  | ⟨0, _⟩ => exact Fin.ext (by show 16 * (i 1).val + pl.val = 16 * pt.val + pl.val; rw [hpt])
  | ⟨1, _⟩ => rfl

/-- The inner share: all 64 rows against the first row range of the weight matrix. -/
theorem pay4_apply (xt : Vec Ideal S64x256 .bf16) (x2 : Vec Ideal S256x512 .f32) (q : Fin 64) (h : Fin 512) :
    k0_pay4 (F := Ideal) xt x2 (ix2 q h) = ∑ cc : Fin 256, xt (ix2 q cc) * x2 (ix2 cc h) := by
  unfold k0_pay4
  refine (mm_zero_apply 64 256 512 _ _ _ q h).trans ?_
  refine Finset.sum_congr rfl fun cc _ => ?_
  refine congrArg (xt (ix2 q cc) * ·) ?_
  exact (truncbf_apply _ _ _).trans (congrFun (shapeCast_self _ _) _)

/-- The outer share: the tile's 16 rows against the second row range. -/
theorem pay5_apply (rows : Vec Ideal S16x256 .bf16) (x3 : Vec Ideal S256x512 .f32) (pl : Fin 16) (h : Fin 512) :
    k0_pay5 (F := Ideal) rows x3 (ix2 pl h) = ∑ cc : Fin 256, rows (ix2 pl cc) * x3 (ix2 cc h) := by
  unfold k0_pay5
  refine (mm_zero_apply 16 256 512 _ _ _ pl h).trans ?_
  refine Finset.sum_congr rfl fun cc _ => ?_
  refine congrArg (rows (ix2 pl cc) * ·) ?_
  exact (truncbf_apply _ _ _).trans (congrFun (shapeCast_self _ _) _)

/-- The relative positions' share: the tile of the table against the last two rows. -/
theorem pay6_apply (x4 : Vec Ideal S2x512 .f32) (x1 : Vec Ideal S16x64x2 .f32) (pl : Fin 16) (q : Fin 64) (h : Fin 512) :
    k0_pay6 (F := Ideal) x4 x1 (ix3 pl q h) = ∑ r : Fin 2, x1 (ix3 pl q r) * x4 (ix2 r h) := by
  unfold k0_pay6
  refine (unstack_apply _ _ pl q h).trans ?_
  refine (mm_zero_apply 1024 2 512 _ _ _ (row pl q) h).trans ?_
  refine Finset.sum_congr rfl fun r _ => ?_
  refine congrArg₂ (· * ·) ?_ ?_
  · refine (stack_apply _ _ pl q r).trans ?_
    exact (truncbf_apply _ _ _).trans (congrFun (shapeCast_self _ _) _)
  · exact (truncbf_apply _ _ _).trans (congrFun (shapeCast_self _ _) _)

end Payloads

/-! ## g's layers on the tile's pairs -/

section Layers

/-- g's first layer at a pair, from the three shares and the bias. -/
def lay0 (v24 : FVec Ideal S64x512 .f32) (v25 : FVec Ideal S16x512 .f32) (v31 : FVec Ideal S16x64x512 .f32)
    (B : Vec Ideal S512 .f32) (pl : Fin 16) (q : Fin 64) (h : Fin 512) : EReal :=
  Cert.Spec.relu (v24 (ix2 q h) + v25 (ix2 pl h) + v31 (ix3 pl q h) + B (ix1 h))

/-- A dense layer with bias and rectifier on one row of activations. -/
def dense (a : Fin 512 → EReal) (W : Vec Ideal S512x512 .f32) (B : Vec Ideal S512 .f32) (k : Fin 512) : EReal :=
  Cert.Spec.relu ((∑ h : Fin 512, a h * W (ix2 h k)) + B (ix1 k))

/-- A dense layer on the 1024 rows, read at `(r, k)`: the product with the weights, the bias row broadcast down the
    rows, the rectifier against the zero word. -/
theorem denseRow_apply (wf : DotDims.WF ⟨2, ![1024, 512]⟩ ⟨2, ![512, 512]⟩ ⟨2, ![1024, 512]⟩ [1] [0] [0] [1] [] [])
    (A : FVec Ideal S1024x512 .f32) (W : Vec Ideal S512x512 .f32) (B : Vec Ideal S512 .f32)
    (hb1 : FTy.bf16.bits < FTy.f32.bits) (hb2 : FTy.bf16.bits < FTy.f32.bits)
    (hc : S512.ShapeCasts S1x512) (hbr : S1x512.Broadcasts S1024x512) (r : Fin 1024) (k : Fin 512) :
    maximumf (addf (FloatOps.matmul (mm 1024 512 512 wf) none (truncf .bf16 A hb1) (truncf .bf16 W hb2)
          (constant (F := Ideal) S1024x512 .f32 0x00000000#32))
        (broadcastTo S1024x512 (shapeCast S1x512 B hc) hbr))
      (broadcast S1024x512 (Scalar.ofBits (F := Ideal) .f32 0x00000000#32)) (ix2 r k)
      = dense (fun h => A (ix2 r h)) W B k := by
  refine (maximumf_apply _ _ _).trans ?_
  refine congrArg₂ max ?_ rfl
  refine (addf_apply _ _ _).trans ?_
  refine congrArg₂ (· + ·) ?_ ?_
  · exact mm_zero_apply 1024 512 512 wf _ _ r k
  · exact (broadcastTo_1b_ab_apply _ _ r k).trans (shapeCast_a_1a_apply _ _ 0 k)

/-- The accumulator after the tile: entry `k` gains the sum over the 16 × 64 pairs of the third activation. -/
theorem pay7_apply (v24 : FVec Ideal S64x512 .f32) (v25 : FVec Ideal S16x512 .f32) (v31 : FVec Ideal S16x64x512 .f32)
    (x5 : Vec Ideal S512 .f32) (x6 : Vec Ideal S512x512 .f32) (x7 : Vec Ideal S512 .f32) (x8 : Vec Ideal S512x512 .f32)
    (x9 : Vec Ideal S512 .f32) (acc : Vec Ideal S1x512 .f32) (k : Fin 512) :
    k0_pay7 (F := Ideal) v24 v25 v31 x5 x6 x7 x8 x9 acc (ix2 0 k)
      = acc (ix2 0 k) + ∑ pl : Fin 16, ∑ q : Fin 64, dense (dense (lay0 v24 v25 v31 x5 pl q) x6 x7) x8 x9 k := by
  unfold k0_pay7
  refine (congrFun (shapeCast_self _ _) _).trans ?_
  refine (addf_apply _ _ _).trans ?_
  refine congrArg (acc (ix2 0 k) + ·) ?_
  refine (shapeCast_a_1a_apply _ _ 0 k).trans ?_
  refine (colSum_apply _ _ _ _ _ k).trans ?_
  refine (sum_rows _).trans ?_
  refine Finset.sum_congr rfl fun pl _ => Finset.sum_congr rfl fun q _ => ?_
  refine (denseRow_apply _ _ x8 x9 _ _ _ _ (row pl q) k).trans ?_
  refine congrArg (fun a => dense a x8 x9 k) (funext fun h => ?_)
  refine (denseRow_apply _ _ x6 x7 _ _ _ _ (row pl q) h).trans ?_
  refine congrArg (fun a => dense a x6 x7 h) (funext fun h' => ?_)
  refine (stack_apply _ _ pl q h').trans ?_
  refine (maximumf_apply _ _ _).trans ?_
  refine congrArg₂ max ?_ rfl
  refine (addf_apply _ _ _).trans ?_
  refine congrArg₂ (· + ·) ?_ ?_
  · refine (addf_apply _ _ _).trans ?_
    refine congrArg₂ (· + ·) ?_ rfl
    refine (addf_apply _ _ _).trans ?_
    refine congrArg₂ (· + ·) ?_ ?_
    · exact (bcastAxis0_apply _ _ pl q h').trans (shapeCast_ab_1ab_apply _ _ 0 q h')
    · exact (bcastAxis1_apply _ _ pl q h').trans (midUnit_apply _ _ pl 0 h')
  · exact (bcastAxes01_apply _ _ pl q h').trans (twoUnits_apply _ _ 0 0 h')

end Layers

/-! ## The three readings -/

/-- The reset block is zero everywhere. -/
theorem accZero_apply (k : Fin 512) : accZero (F := Ideal) (ix2 0 k) = 0 := by
  unfold accZero k0_pay2
  refine (congrFun (shapeCast_self _ _) _).trans ?_
  exact Ideal.ofBits_zero_f32

/-- One step at entry k. `b` is the batch entry and `pt` the tile the blocks were read at. -/
theorem accStep_apply (i : grid0.Coords) (b : Fin 32) (pt : Fin 4) (hpt : (i 1).val = pt.val)
    (X : Cert.Spec.SX.Idx → EReal) (W0 : Cert.Spec.SW0.Idx → EReal) (rel : Cert.Spec.SRel.Idx → EReal)
    (x0 : Vec Ideal S1x256x64 .f32) (x1 : Vec Ideal S16x64x2 .f32) (x2 : Vec Ideal S256x512 .f32)
    (x3 : Vec Ideal S256x512 .f32) (x4 : Vec Ideal S2x512 .f32) (x5 : Vec Ideal S512 .f32) (x6 : Vec Ideal S512x512 .f32)
    (x7 : Vec Ideal S512 .f32) (x8 : Vec Ideal S512x512 .f32) (x9 : Vec Ideal S512 .f32) (acc : Vec Ideal S1x512 .f32)
    (h0 : ∀ (cc : Fin 256) (n : Fin 64), x0 (ix3 0 cc n) = Cert.Spec.feat X b n cc)
    (h1 : ∀ (pl : Fin 16) (q : Fin 64) (r : Fin 2),
      x1 (ix3 pl q r) = rel (ix3 ⟨16 * pt.val + pl.val, by omega⟩ q r))
    (h2 : ∀ (cc : Fin 256) (h : Fin 512), x2 (ix2 cc h) = Cert.Spec.w0a W0 cc h)
    (h3 : ∀ (cc : Fin 256) (h : Fin 512), x3 (ix2 cc h) = Cert.Spec.w0b W0 cc h)
    (h4 : ∀ (r : Fin 2) (h : Fin 512), x4 (ix2 r h) = Cert.Spec.w0r W0 r h)
    (k : Fin 512) :
    accStep (F := Ideal) i x0 x1 x2 x3 x4 x5 x6 x7 x8 x9 acc (ix2 0 k)
      = acc (ix2 0 k) + ∑ pl : Fin 16, ∑ q : Fin 64,
          Cert.Spec.a2 X W0 x5 x6 x7 x8 x9 rel b ⟨16 * pt.val + pl.val, by omega⟩ q k := by
  unfold accStep accStepOf
  refine (pay7_apply _ _ _ x5 x6 x7 x8 x9 acc k).trans ?_
  refine congrArg (acc (ix2 0 k) + ·) ?_
  refine Finset.sum_congr rfl fun pl _ => Finset.sum_congr rfl fun q _ => ?_
  have e0 : ∀ h : Fin 512,
      lay0 (k0_pay4 (k0_pay3 x0) x2) (k0_pay5 (tileRows i (k0_pay3 x0)) x3) (k0_pay6 x4 x1) x5 pl q h
        = Cert.Spec.a0 X W0 x5 rel b ⟨16 * pt.val + pl.val, by omega⟩ q h := fun h => by
    unfold lay0 Cert.Spec.a0
    refine congrArg Cert.Spec.relu ?_
    refine congrArg₂ (· + ·) (congrArg₂ (· + ·) (congrArg₂ (· + ·) ?_ ?_) ?_) rfl
    · refine (pay4_apply _ _ q h).trans ?_
      unfold Cert.Spec.partQ
      refine Finset.sum_congr rfl fun cc _ => ?_
      rw [pay3_apply, h0, h2]
    · refine (pay5_apply _ _ pl h).trans ?_
      unfold Cert.Spec.partP
      refine Finset.sum_congr rfl fun cc _ => ?_
      rw [tileRows_apply i pt hpt, pay3_apply, h0, h3]
    · refine (pay6_apply _ _ pl q h).trans ?_
      unfold Cert.Spec.partR
      refine Finset.sum_congr rfl fun r _ => ?_
      rw [h1, h4]
  exact congrArg (fun a => dense (dense a x6 x7) x8 x9 k) (funext e0)

/-- f's two layers at output entry o. -/
theorem fOut_apply (acc : Vec Ideal S1x512 .f32) (x10 : Vec Ideal S512x512 .f32) (x11 : Vec Ideal S512 .f32)
    (x12 : Vec Ideal S512x256 .f32) (x13 : Vec Ideal S256 .f32) (o : Fin 256) :
    fOut (F := Ideal) acc x10 x11 x12 x13 (ix3 0 0 o)
      = (∑ j : Fin 512, Cert.Spec.relu ((∑ k : Fin 512, acc (ix2 0 k) * x10 (ix2 k j)) + x11 (ix1 j)) * x12 (ix2 j o))
          + x13 (ix1 o) := by
  unfold fOut k0_pay1
  refine (shapeCast_ab_1ab_apply _ _ 0 0 o).trans ?_
  refine (addf_apply _ _ _).trans ?_
  refine congrArg₂ (· + ·) ?_ (shapeCast_a_1a_apply _ _ 0 o)
  refine (mm_zero_apply 1 512 256 _ _ _ 0 o).trans ?_
  refine Finset.sum_congr rfl fun j _ => ?_
  refine congrArg₂ (· * ·) ?_ (truncbf_apply _ _ _)
  refine (truncbf_apply _ _ _).trans ?_
  refine (maximumf_apply _ _ _).trans ?_
  refine congrArg₂ max ?_ rfl
  refine (addf_apply _ _ _).trans ?_
  refine congrArg₂ (· + ·) ?_ (shapeCast_a_1a_apply _ _ 0 j)
  refine (mm_zero_apply 1 512 512 _ _ _ 0 j).trans ?_
  exact Finset.sum_congr rfl fun k _ => congrArg₂ (· * ·) (truncbf_apply _ _ _) (truncbf_apply _ _ _)

end Cert.KernelIdeal.KV

end
-- ==== Proof.RelTable.lean ====
/-
  The table of relative positions both programs build on the host before anything else, as one closed term: for
  objects `p, q` of the 8 × 8 map, `(row p − row q, col p − col q)` as floats, minus the mean of all 8192 entries.

  `row n = n / 8` and `col n = n % 8` arrive as jnp's floor division and remainder of the object numbers by the
  scalar 8, which on the host are: the truncating quotient, lowered by one where the signs differ and the remainder
  is not zero; and the truncating remainder by `8` (by `1` were the divisor zero), raised by the divisor where its sign
  differs from the divisor's and it is not zero. Nothing here evaluates them: the term is carried whole, and the two
  programs' host lines are this term over their own proofs of the same shape facts.
-/
import Idealize.ShloMosaic.PureOps

noncomputable section

namespace Cert.RelTable

open Idealize.ShloMosaic

abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S64x64x1 : Shape := ⟨3, ![64, 64, 1]⟩
abbrev S64x64x2 : Shape := ⟨3, ![64, 64, 2]⟩

theorem bc_S_S64 : S_.BroadcastsInDim S64 (![] : Fin 0 → Fin S64.rank) := by decide
theorem bc_S64_S64x1 : S64.BroadcastsInDim S64x1 (![0] : Fin 1 → Fin S64x1.rank) := by decide
theorem bc_S64_S1x64 : S64.BroadcastsInDim S1x64 (![1] : Fin 1 → Fin S1x64.rank) := by decide
theorem bc_S64x1_S64x64 : S64x1.BroadcastsInDim S64x64 (![0, 1] : Fin 2 → Fin S64x64.rank) := by decide
theorem bc_S1x64_S64x64 : S1x64.BroadcastsInDim S64x64 (![0, 1] : Fin 2 → Fin S64x64.rank) := by decide
theorem bc_S64x64_S64x64x1 : S64x64.BroadcastsInDim S64x64x1 (![0, 1] : Fin 2 → Fin S64x64x1.rank) := by decide
theorem cat_S64x64x2 : Shape.Concatenates [S64x64x1, S64x64x1] S64x64x2 2 := by decide
theorem red_S64x64x2_S_ : S64x64x2.ReducesTo [0, 1, 2] S_ := by decide
theorem pos_S_ : 0 < S_.numel := by decide
theorem bc_S_S64x64x2 : S_.BroadcastsInDim S64x64x2 (![] : Fin 0 → Fin S64x64x2.rank) := by decide

/-- The object numbers `0 … 63`. -/
def objs : IVec S64 32 := iotaInDim S64 32 0

/-- The divisor `8`, as the callee converts it to its own type. -/
def eight : IVec S_ 32 := id (constantI S_ 32 8#32)

/-- `n ↦ n / 8` by jnp's floor division: the truncating quotient, one less where the operands' signs differ and the
    remainder is not zero. -/
def rowOf : IVec S64 32 :=
  select
    (andi
      (cmpi .ne (signi objs) (broadcastInDim S64 ![] bc_S_S64 (signi eight)))
      (cmpi .ne (Host.remsi objs (broadcastInDim S64 ![] bc_S_S64 eight))
        (broadcastInDim S64 ![] bc_S_S64 (constantI S_ 32 0#32))))
    (subi (Host.divsi objs (broadcastInDim S64 ![] bc_S_S64 eight))
      (broadcastInDim S64 ![] bc_S_S64 (constantI S_ 32 1#32)))
    (Host.divsi objs (broadcastInDim S64 ![] bc_S_S64 eight))

/-- The divisor the remainder is taken by: `1` were it zero, else itself. -/
def safeEight : IVec S_ 32 :=
  select (cmpi .eq eight (constantI S_ 32 0#32)) (constantI S_ 32 1#32) eight

/-- The truncating remainder of the object numbers by it. -/
def truncRem : IVec S64 32 := Host.remsi objs (broadcastInDim S64 ![] bc_S_S64 safeEight)

/-- `n ↦ n % 8` by jnp's remainder: the truncating one, plus the divisor where it is not zero and its sign is not the
    divisor's. -/
def colOf : IVec S64 32 :=
  select
    (andi
      (cmpi .ne
        (cmpi .slt truncRem (broadcastInDim S64 ![] bc_S_S64 (constantI S_ 32 0#32)))
        (broadcastInDim S64 ![] bc_S_S64 (cmpi .slt safeEight (constantI S_ 32 0#32))))
      (cmpi .ne truncRem (broadcastInDim S64 ![] bc_S_S64 (constantI S_ 32 0#32))))
    (addi truncRem (broadcastInDim S64 ![] bc_S_S64 safeEight))
    truncRem

variable {F : FTy → Type} [FloatOps F]

/-- `v p − v q` over all pairs, as floats, with a trailing unit axis. -/
def diffs (v : IVec S64 32) : FVec F S64x64x1 .f32 :=
  broadcastInDim S64x64x1 ![0, 1] bc_S64x64_S64x64x1
    (sitofp .f32
      (subi
        (broadcastInDim S64x64 ![0, 1] bc_S64x1_S64x64 (broadcastInDim S64x1 ![0] bc_S64_S64x1 v))
        (broadcastInDim S64x64 ![0, 1] bc_S1x64_S64x64 (broadcastInDim S1x64 ![1] bc_S64_S1x64 v))))

/-- Row differences and column differences side by side. -/
def raw : FVec F S64x64x2 .f32 :=
  concatenate S64x64x2 2 [⟨S64x64x1, diffs rowOf⟩, ⟨S64x64x1, diffs colOf⟩] cat_S64x64x2

/-- The table: the differences minus their mean over all 8192 entries. -/
def table : FVec F S64x64x2 .f32 :=
  subf raw
    (broadcastInDim S64x64x2 ![] bc_S_S64x64x2
      (Host.divf (Host.reduceAdd raw (constant S_ .f32 0x00000000#32) red_S64x64x2_S_ pos_S_)
        (constant S_ .f32 0x46000000#32)))

end Cert.RelTable

end
-- ==== Proof.KBlocks.lean ====
/-
  What each window's block holds at a grid point, read off the argument arrays (at the extended reals).

  Point t is batch entry t / 4 and tile t % 4. Window 0's block is batch entry t / 4 of the feature map with its two
  pixel axes flattened; window 1's is rows 16·(t % 4) … of the table of relative positions, which the host lines before
  the call build; windows 2, 3 and 4 hold rows 0 … 255, 256 … 511 and 512, 513 of the first weight matrix at every point;
  windows 5 … 13 hold the remaining parameters whole.
-/
import proofs.«160269_j53584011985126_1_alg».proof.Proof.Gen.KernelIdeal.Frame
import proofs.«160269_j53584011985126_1_alg».proof.Proof.Spec
import proofs.«160269_j53584011985126_1_alg».proof.Proof.RelTable
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

namespace Cert.KernelIdeal.KV

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The input windows' blocks at point t, at their literal types. -/
abbrev blk0 (c : Dev nD) (t : Fin cfg0.N) : Vec Ideal S1x256x64 .f32 := iblk m c 0 t
abbrev blk1 (c : Dev nD) (t : Fin cfg0.N) : Vec Ideal S16x64x2 .f32 := iblk m c 1 t
abbrev blk2 (c : Dev nD) (t : Fin cfg0.N) : Vec Ideal S256x512 .f32 := iblk m c 2 t
abbrev blk3 (c : Dev nD) (t : Fin cfg0.N) : Vec Ideal S256x512 .f32 := iblk m c 3 t
abbrev blk4 (c : Dev nD) (t : Fin cfg0.N) : Vec Ideal S2x512 .f32 := iblk m c 4 t
abbrev blk5 (c : Dev nD) (t : Fin cfg0.N) : Vec Ideal S512 .f32 := iblk m c 5 t
abbrev blk6 (c : Dev nD) (t : Fin cfg0.N) : Vec Ideal S512x512 .f32 := iblk m c 6 t
abbrev blk7 (c : Dev nD) (t : Fin cfg0.N) : Vec Ideal S512 .f32 := iblk m c 7 t
abbrev blk8 (c : Dev nD) (t : Fin cfg0.N) : Vec Ideal S512x512 .f32 := iblk m c 8 t
abbrev blk9 (c : Dev nD) (t : Fin cfg0.N) : Vec Ideal S512 .f32 := iblk m c 9 t
abbrev blk10 (c : Dev nD) (t : Fin cfg0.N) : Vec Ideal S512x512 .f32 := iblk m c 10 t
abbrev blk11 (c : Dev nD) (t : Fin cfg0.N) : Vec Ideal S512 .f32 := iblk m c 11 t
abbrev blk12 (c : Dev nD) (t : Fin cfg0.N) : Vec Ideal S512x256 .f32 := iblk m c 12 t
abbrev blk13 (c : Dev nD) (t : Fin cfg0.N) : Vec Ideal S256 .f32 := iblk m c 13 t

/-- A point's number is at most 127. -/
theorem lt128 (t : Fin cfg0.N) : t.val < 128 := lt_of_lt_of_eq t.isLt N_0

/-- Point t's coordinates: batch entry t / 4, tile t % 4. -/
theorem coords_b (t : Fin cfg0.N) : (grid0.coords t 0).val = t.val / 4 := by
  exact (by decide +kernel : ∀ t : Fin grid0.N, (grid0.coords t 0).val = t.val / 4) t
theorem coords_pt (t : Fin cfg0.N) : (grid0.coords t 1).val = t.val % 4 := by
  exact (by decide +kernel : ∀ t : Fin grid0.N, (grid0.coords t 1).val = t.val % 4) t

namespace Blocks

/-! ## Window 0: the feature map, pixel axes flattened -/

/-- Window 0's array is the feature map with its two pixel axes flattened into one. -/
theorem v22_eq (c : Dev nD) :
    (V m c main_v22 : S32x256x64.Idx → EReal)
      = shapeCast S32x256x64 (m ((c.tc : Thread nD τ).loc main_arg0)) shapeCasts_S32x256x8x8_S32x256x64 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results_simp
  rfl

/-- Window 0's block index at point t is (t / 4, 0, 0). -/
theorem idx0 : ∀ t : Fin cfg0.N, win0_0.index t (0 : Fin 3) = t.val / 4 ∧ win0_0.index t (1 : Fin 3) = 0
    ∧ win0_0.index t (2 : Fin 3) = 0 :=
  (by decide +kernel : ∀ t : Fin grid0.N, win0_0.index t (0 : Fin 3) = t.val / 4 ∧ win0_0.index t (1 : Fin 3) = 0
    ∧ win0_0.index t (2 : Fin 3) = 0)

/-- Entry n of the flattened pixel axis is pixel (n / 8, n % 8): both sit at the same row-major position. -/
theorem reshape_read (X : S32x256x8x8.Idx → EReal) (b : Fin 32) (cc : Fin 256) (n : Fin 64) (i : S32x256x64.Idx)
    (h0 : (i 0).val = b.val) (h1 : (i 1).val = cc.val) (h2 : (i 2).val = n.val) :
    shapeCast S32x256x64 X shapeCasts_S32x256x8x8_S32x256x64 i = Cert.Spec.feat X b n cc := by
  unfold Cert.Spec.feat
  refine shapeCast_apply _ _ _ _ ?_
  rw [Shape.rowMajor_val_four, Shape.rowMajor_val_three]
  show ((b.val * 256 + cc.val) * 8 + n.val / 8) * 8 + n.val % 8 = ((i 0).val * 256 + (i 1).val) * 64 + (i 2).val
  rw [h0, h1, h2]; omega

end Blocks
open Blocks

/-- Window 0: channel cc of object n of batch entry t / 4. -/
theorem blk0_apply (c : Dev nD) (t : Fin cfg0.N) (cc : Fin 256) (n : Fin 64) :
    blk0 m c t (ix3 0 cc n)
      = Cert.Spec.feat (m ((c.tc : Thread nD τ).loc main_arg0)) ⟨t.val / 4, by have := lt128 t; omega⟩ n cc := by
  show V m c main_v22 (((cfg0.win 0).blk t).view.emb (ix3 0 cc n)) = _
  refine (congrFun (v22_eq m c) _).trans ?_
  refine reshape_read _ _ _ _ _ ?_ ?_ ?_
  · show win0_0.index t 0 * 1 + 1 * 0 = t.val / 4
    rw [(idx0 t).1]; omega
  · show win0_0.index t 1 * 256 + 1 * cc.val = cc.val
    rw [(idx0 t).2.1]; omega
  · show win0_0.index t 2 * 64 + 1 * n.val = n.val
    rw [(idx0 t).2.2]; omega

namespace Blocks

/-! ## Window 1: the table of relative positions -/

/-- Running two stretches of host lines one after the other is running their concatenation. -/
theorem after_append (l₁ l₂ : List (HloOp τ sig (Elt Ideal))) (A : Valuation τ sig (Elt Ideal)) :
    StableHlo.after (l₁ ++ l₂) A = StableHlo.after l₂ (StableHlo.after l₁ A) := by
  induction l₁ generalizing A with
  | nil => rfl
  | cons op l ih => exact ih _

/-- The buffers after the host lines that compute the rows and the columns of the object numbers. -/
def front (c : Dev nD) : Valuation τ sig (Elt Ideal) :=
  StableHlo.after (hostOps0 ++ hostOps0_1 ++ hostOps0_2 ++ hostOps0_3) (fun b => m (c, b))

/-- The floor division's lines leave the rows n / 8 of the object numbers. -/
theorem front_v1 (c : Dev nD) : (front m c (Proc.devRef .tc main_v1) : IVec S64 32) = Cert.RelTable.rowOf := by
  unfold front
  simp only [Gen.hostOps0, Gen.hostOps0_1, Gen.hostOps0_2, Gen.hostOps0_3, List.cons_append, List.nil_append]
  after_results_simp
  rfl

/-- The remainder's lines leave the columns n % 8 of the object numbers. -/
theorem front_v2 (c : Dev nD) : (front m c (Proc.devRef .tc main_v2) : IVec S64 32) = Cert.RelTable.colOf := by
  unfold front
  simp only [Gen.hostOps0, Gen.hostOps0_1, Gen.hostOps0_2, Gen.hostOps0_3, List.cons_append, List.nil_append]
  after_results_simp
  rfl

/-- The table over any rows and columns of the object numbers. -/
def rawOf (r k : IVec Cert.RelTable.S64 32) : FVec Ideal Cert.RelTable.S64x64x2 .f32 :=
  concatenate Cert.RelTable.S64x64x2 2 [⟨Cert.RelTable.S64x64x1, Cert.RelTable.diffs r⟩,
    ⟨Cert.RelTable.S64x64x1, Cert.RelTable.diffs k⟩] Cert.RelTable.cat_S64x64x2
def tableOf (r k : IVec Cert.RelTable.S64 32) : FVec Ideal Cert.RelTable.S64x64x2 .f32 :=
  subf (rawOf r k)
    (broadcastInDim Cert.RelTable.S64x64x2 ![] Cert.RelTable.bc_S_S64x64x2
      (Host.divf (Host.reduceAdd (rawOf r k) (constant (F := Ideal) Cert.RelTable.S_ .f32 0x00000000#32)
          Cert.RelTable.red_S64x64x2_S_ Cert.RelTable.pos_S_)
        (constant (F := Ideal) Cert.RelTable.S_ .f32 0x46000000#32)))
theorem tableOf_eq : tableOf Cert.RelTable.rowOf Cert.RelTable.colOf = Cert.RelTable.table (F := Ideal) := rfl

/-- The last stretch of host lines builds the table from the rows and the columns: the differences over all pairs as
    floats, side by side, minus their mean. -/
theorem tail_v21 (A : Valuation τ sig (Elt Ideal)) :
    (StableHlo.after hostOps0_4 A (Proc.devRef .tc main_v21) : S64x64x2.Idx → EReal)
      = tableOf (A (Proc.devRef .tc main_v1)) (A (Proc.devRef .tc main_v2)) := by
  simp only [Gen.hostOps0_4]
  after_results_simp
  repeat (first
    | rw [StableHlo.unary_result] | rw [StableHlo.binary_result]
    | (rw [StableHlo.unary_result_ne]; rotate_left; decide)
    | (rw [StableHlo.binary_result_ne]; rotate_left; decide))
  rfl

/-- Window 1's array is the table of relative positions. -/
theorem v21_eq (c : Dev nD) :
    (V m c main_v21 : S64x64x2.Idx → EReal) = Cert.RelTable.table (F := Ideal) := by
  show StableHlo.after (List.flatten [hostOps0, hostOps0_1, hostOps0_2, hostOps0_3, hostOps0_4]) (fun b => m (c, b))
    (Proc.devRef .tc main_v21) = _
  rw [show List.flatten [hostOps0 (F := Ideal), hostOps0_1, hostOps0_2, hostOps0_3, hostOps0_4]
      = (hostOps0 ++ hostOps0_1 ++ hostOps0_2 ++ hostOps0_3) ++ hostOps0_4 from by
    simp only [List.flatten_cons, List.flatten_nil, List.append_nil, List.append_assoc]]
  rw [after_append]
  refine (tail_v21 _).trans ?_
  show tableOf (front m c (Proc.devRef .tc main_v1)) (front m c (Proc.devRef .tc main_v2)) = _
  rw [front_v1, front_v2]
  exact tableOf_eq

/-- Window 1's block index at point t is (t % 4, 0, 0). -/
theorem idx1 : ∀ t : Fin cfg0.N, win0_1.index t (0 : Fin 3) = t.val % 4 ∧ win0_1.index t (1 : Fin 3) = 0
    ∧ win0_1.index t (2 : Fin 3) = 0 :=
  (by decide +kernel : ∀ t : Fin grid0.N, win0_1.index t (0 : Fin 3) = t.val % 4 ∧ win0_1.index t (1 : Fin 3) = 0
    ∧ win0_1.index t (2 : Fin 3) = 0)

end Blocks
open Blocks

/-- Window 1: the table's rows 16·(t % 4) + pl. -/
theorem blk1_apply (c : Dev nD) (t : Fin cfg0.N) (pl : Fin 16) (q : Fin 64) (r : Fin 2) :
    blk1 m c t (ix3 pl q r)
      = Cert.RelTable.table (F := Ideal) (ix3 ⟨16 * (t.val % 4) + pl.val, by omega⟩ q r) := by
  show V m c main_v21 (((cfg0.win 1).blk t).view.emb (ix3 pl q r)) = _
  refine (congrFun (v21_eq m c) _).trans ?_
  refine congrArg (Cert.RelTable.table (F := Ideal)) (funext fun a => Fin.ext ?_)
  match a with
  | ⟨0, _⟩ =>
    show win0_1.index t 0 * 16 + 1 * pl.val = 16 * (t.val % 4) + pl.val
    rw [(idx1 t).1]; omega
  | ⟨1, _⟩ =>
    show win0_1.index t 1 * 64 + 1 * q.val = q.val
    rw [(idx1 t).2.1]; omega
  | ⟨2, _⟩ =>
    show win0_1.index t 2 * 2 + 1 * r.val = r.val
    rw [(idx1 t).2.2]; omega

namespace Blocks

/-! ## Windows 2, 3, 4: the three row ranges of the first weight matrix -/

/-- Their arrays are the host's slices of the matrix: rows 0 … 255, rows 256 … 511, rows 512 and 513. -/
theorem v23_eq (c : Dev nD) :
    (V m c main_v23 : S256x512.Idx → EReal)
      = extractStridedSlice S256x512 ![0, 0] (m ((c.tc : Thread nD τ).loc main_arg1)) slices_S514x512_S256x512_0_0 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results_simp
theorem v24_eq (c : Dev nD) :
    (V m c main_v24 : S256x512.Idx → EReal)
      = extractStridedSlice S256x512 ![256, 0] (m ((c.tc : Thread nD τ).loc main_arg1))
          slices_S514x512_S256x512_256_0 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results_simp
theorem v25_eq (c : Dev nD) :
    (V m c main_v25 : S2x512.Idx → EReal)
      = extractStridedSlice S2x512 ![512, 0] (m ((c.tc : Thread nD τ).loc main_arg1)) slices_S514x512_S2x512_512_0 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results_simp

/-- A slice read at an index is the matrix at the index shifted by the slice's first row. -/
theorem slice_read_a (W : S514x512.Idx → EReal) (cc : Fin 256) (h : Fin 512) (i : S256x512.Idx)
    (h0 : (i 0).val = cc.val) (h1 : (i 1).val = h.val) :
    extractStridedSlice S256x512 ![0, 0] W slices_S514x512_S256x512_0_0 i = Cert.Spec.w0a W cc h := by
  unfold Cert.Spec.w0a
  refine extractStridedSlice_apply _ _ _ _ _ fun a => ?_
  match a with
  | ⟨0, _⟩ => show cc.val = 0 + (i 0).val; omega
  | ⟨1, _⟩ => show h.val = 0 + (i 1).val; omega
theorem slice_read_b (W : S514x512.Idx → EReal) (cc : Fin 256) (h : Fin 512) (i : S256x512.Idx)
    (h0 : (i 0).val = cc.val) (h1 : (i 1).val = h.val) :
    extractStridedSlice S256x512 ![256, 0] W slices_S514x512_S256x512_256_0 i = Cert.Spec.w0b W cc h := by
  unfold Cert.Spec.w0b
  refine extractStridedSlice_apply _ _ _ _ _ fun a => ?_
  match a with
  | ⟨0, _⟩ => show 256 + cc.val = 256 + (i 0).val; omega
  | ⟨1, _⟩ => show h.val = 0 + (i 1).val; omega
theorem slice_read_r (W : S514x512.Idx → EReal) (r : Fin 2) (h : Fin 512) (i : S2x512.Idx)
    (h0 : (i 0).val = r.val) (h1 : (i 1).val = h.val) :
    extractStridedSlice S2x512 ![512, 0] W slices_S514x512_S2x512_512_0 i = Cert.Spec.w0r W r h := by
  unfold Cert.Spec.w0r
  refine extractStridedSlice_apply _ _ _ _ _ fun a => ?_
  match a with
  | ⟨0, _⟩ => show 512 + r.val = 512 + (i 0).val; omega
  | ⟨1, _⟩ => show h.val = 0 + (i 1).val; omega

end Blocks
open Blocks

/-- Windows 2, 3, 4: the three row ranges of the first weight matrix. -/
theorem blk2_apply (c : Dev nD) (t : Fin cfg0.N) (cc : Fin 256) (h : Fin 512) :
    blk2 m c t (ix2 cc h) = Cert.Spec.w0a (m ((c.tc : Thread nD τ).loc main_arg1)) cc h := by
  show V m c main_v23 (((cfg0.win 2).blk t).view.emb (ix2 cc h)) = _
  refine (congrFun (v23_eq m c) _).trans ?_
  refine slice_read_a _ _ _ _ ?_ ?_
  · show 0 * 256 + 1 * cc.val = cc.val; omega
  · show 0 * 512 + 1 * h.val = h.val; omega
theorem blk3_apply (c : Dev nD) (t : Fin cfg0.N) (cc : Fin 256) (h : Fin 512) :
    blk3 m c t (ix2 cc h) = Cert.Spec.w0b (m ((c.tc : Thread nD τ).loc main_arg1)) cc h := by
  show V m c main_v24 (((cfg0.win 3).blk t).view.emb (ix2 cc h)) = _
  refine (congrFun (v24_eq m c) _).trans ?_
  refine slice_read_b _ _ _ _ ?_ ?_
  · show 0 * 256 + 1 * cc.val = cc.val; omega
  · show 0 * 512 + 1 * h.val = h.val; omega
theorem blk4_apply (c : Dev nD) (t : Fin cfg0.N) (r : Fin 2) (h : Fin 512) :
    blk4 m c t (ix2 r h) = Cert.Spec.w0r (m ((c.tc : Thread nD τ).loc main_arg1)) r h := by
  show V m c main_v25 (((cfg0.win 4).blk t).view.emb (ix2 r h)) = _
  refine (congrFun (v25_eq m c) _).trans ?_
  refine slice_read_r _ _ _ _ ?_ ?_
  · show 0 * 2 + 1 * r.val = r.val; omega
  · show 0 * 512 + 1 * h.val = h.val; omega

/-! ## Windows 5 … 13: whole arrays no host line writes (block index 0 on every axis, the block the array's size) -/

/-- Windows 5 … 13: the remaining parameters, whole. -/
theorem blk5_eq (c : Dev nD) (t : Fin cfg0.N) : blk5 m c t = m ((c.tc : Thread nD τ).loc main_arg2) := by
  funext y
  show V m c main_arg2 (((cfg0.win 5).blk t).view.emb y) = m (c.tc.loc main_arg2) y
  rw [V_main_arg2]
  congr 1
  funext a
  apply Fin.ext
  match a with
  | ⟨0, _⟩ => show 0 * 512 + 1 * (y 0).val = (y 0).val; omega
theorem blk6_eq (c : Dev nD) (t : Fin cfg0.N) : blk6 m c t = m ((c.tc : Thread nD τ).loc main_arg3) := by
  funext y
  show V m c main_arg3 (((cfg0.win 6).blk t).view.emb y) = m (c.tc.loc main_arg3) y
  rw [V_main_arg3]
  congr 1
  funext a
  apply Fin.ext
  match a with
  | ⟨0, _⟩ => show 0 * 512 + 1 * (y 0).val = (y 0).val; omega
  | ⟨1, _⟩ => show 0 * 512 + 1 * (y 1).val = (y 1).val; omega
theorem blk7_eq (c : Dev nD) (t : Fin cfg0.N) : blk7 m c t = m ((c.tc : Thread nD τ).loc main_arg4) := by
  funext y
  show V m c main_arg4 (((cfg0.win 7).blk t).view.emb y) = m (c.tc.loc main_arg4) y
  rw [V_main_arg4]
  congr 1
  funext a
  apply Fin.ext
  match a with
  | ⟨0, _⟩ => show 0 * 512 + 1 * (y 0).val = (y 0).val; omega
theorem blk8_eq (c : Dev nD) (t : Fin cfg0.N) : blk8 m c t = m ((c.tc : Thread nD τ).loc main_arg5) := by
  funext y
  show V m c main_arg5 (((cfg0.win 8).blk t).view.emb y) = m (c.tc.loc main_arg5) y
  rw [V_main_arg5]
  congr 1
  funext a
  apply Fin.ext
  match a with
  | ⟨0, _⟩ => show 0 * 512 + 1 * (y 0).val = (y 0).val; omega
  | ⟨1, _⟩ => show 0 * 512 + 1 * (y 1).val = (y 1).val; omega
theorem blk9_eq (c : Dev nD) (t : Fin cfg0.N) : blk9 m c t = m ((c.tc : Thread nD τ).loc main_arg6) := by
  funext y
  show V m c main_arg6 (((cfg0.win 9).blk t).view.emb y) = m (c.tc.loc main_arg6) y
  rw [V_main_arg6]
  congr 1
  funext a
  apply Fin.ext
  match a with
  | ⟨0, _⟩ => show 0 * 512 + 1 * (y 0).val = (y 0).val; omega
theorem blk10_eq (c : Dev nD) (t : Fin cfg0.N) : blk10 m c t = m ((c.tc : Thread nD τ).loc main_arg7) := by
  funext y
  show V m c main_arg7 (((cfg0.win 10).blk t).view.emb y) = m (c.tc.loc main_arg7) y
  rw [V_main_arg7]
  congr 1
  funext a
  apply Fin.ext
  match a with
  | ⟨0, _⟩ => show 0 * 512 + 1 * (y 0).val = (y 0).val; omega
  | ⟨1, _⟩ => show 0 * 512 + 1 * (y 1).val = (y 1).val; omega
theorem blk11_eq (c : Dev nD) (t : Fin cfg0.N) : blk11 m c t = m ((c.tc : Thread nD τ).loc main_arg8) := by
  funext y
  show V m c main_arg8 (((cfg0.win 11).blk t).view.emb y) = m (c.tc.loc main_arg8) y
  rw [V_main_arg8]
  congr 1
  funext a
  apply Fin.ext
  match a with
  | ⟨0, _⟩ => show 0 * 512 + 1 * (y 0).val = (y 0).val; omega
theorem blk12_eq (c : Dev nD) (t : Fin cfg0.N) : blk12 m c t = m ((c.tc : Thread nD τ).loc main_arg9) := by
  funext y
  show V m c main_arg9 (((cfg0.win 12).blk t).view.emb y) = m (c.tc.loc main_arg9) y
  rw [V_main_arg9]
  congr 1
  funext a
  apply Fin.ext
  match a with
  | ⟨0, _⟩ => show 0 * 512 + 1 * (y 0).val = (y 0).val; omega
  | ⟨1, _⟩ => show 0 * 256 + 1 * (y 1).val = (y 1).val; omega
theorem blk13_eq (c : Dev nD) (t : Fin cfg0.N) : blk13 m c t = m ((c.tc : Thread nD τ).loc main_arg10) := by
  funext y
  show V m c main_arg10 (((cfg0.win 13).blk t).view.emb y) = m (c.tc.loc main_arg10) y
  rw [V_main_arg10]
  congr 1
  funext a
  apply Fin.ext
  match a with
  | ⟨0, _⟩ => show 0 * 256 + 1 * (y 0).val = (y 0).val; omega

end Cert.KernelIdeal.KV

end
-- ==== Proof.LibBlockSum.lean ====
/-
  A finite sum over `4 · n` consecutive indices, cut into four consecutive blocks of `n` and added up block by block from
  zero, in order: the shape a reduction takes when it is carried out in four passes into an accumulator that starts
  cleared. Only commutativity and associativity of the addition are used, so the statement holds in any commutative
  monoid, the extended reals among them.
-/
import Mathlib.Algebra.BigOperators.Fin
import Mathlib.Algebra.BigOperators.Intervals

namespace Cert.LibBlockSum

variable {M : Type} [AddCommMonoid M]

/-- A block of `n` consecutive terms of a sequence, summed over `Fin n` or over `range n`. -/
theorem sum_fin_block (g : ℕ → M) (o n : ℕ) : ∑ j : Fin n, g (o + j.val) = ∑ j ∈ Finset.range n, g (o + j) :=
  Fin.sum_univ_eq_sum_range (fun j => g (o + j)) n

/-- The first `4 · n` terms of a sequence are its first four blocks of `n`, added in order to zero. -/
theorem sum_range_blocks4 (g : ℕ → M) (n : ℕ) :
    ∑ k ∈ Finset.range (4 * n), g k
      = (((0 + ∑ j ∈ Finset.range n, g (0 * n + j)) + ∑ j ∈ Finset.range n, g (1 * n + j))
          + ∑ j ∈ Finset.range n, g (2 * n + j)) + ∑ j ∈ Finset.range n, g (3 * n + j) := by
  rw [show 4 * n = n + n + n + n by omega, Finset.sum_range_add, Finset.sum_range_add, Finset.sum_range_add, zero_add]
  simp only [Nat.zero_mul, Nat.zero_add, Nat.one_mul]
  rw [show 2 * n = n + n by omega, show 3 * n = n + n + n by omega]

/-- A sum over `Fin (4 · n)` is the four block sums over `Fin n`, added in order to zero. -/
theorem sum_fin_blocks4 (n : ℕ) (f : Fin (4 * n) → M) :
    ∑ k, f k
      = (((0 + ∑ j : Fin n, f ⟨0 * n + j.val, by have := j.isLt; omega⟩) + ∑ j : Fin n, f ⟨1 * n + j.val, by have := j.isLt; omega⟩)
          + ∑ j : Fin n, f ⟨2 * n + j.val, by have := j.isLt; omega⟩) + ∑ j : Fin n, f ⟨3 * n + j.val, by have := j.isLt; omega⟩ := by
  let g : ℕ → M := fun k => if h : k < 4 * n then f ⟨k, h⟩ else 0
  have hg : ∀ (k : ℕ) (h : k < 4 * n), f ⟨k, h⟩ = g k := fun k h => by
    show f ⟨k, h⟩ = if h' : k < 4 * n then f ⟨k, h'⟩ else 0
    rw [dif_pos h]
  have hb : ∀ (o : ℕ) (ho : o + n ≤ 4 * n), ∑ j : Fin n, f ⟨o + j.val, by have := j.isLt; omega⟩ = ∑ j ∈ Finset.range n, g (o + j) := fun o ho => by
    rw [← sum_fin_block g o n]
    exact Finset.sum_congr rfl fun j _ => hg _ _
  rw [show ∑ k, f k = ∑ k : Fin (4 * n), g k.val from Finset.sum_congr rfl fun k _ => hg k.val k.isLt,
    Fin.sum_univ_eq_sum_range g (4 * n), sum_range_blocks4 g n, hb (0 * n) (by omega), hb (1 * n) (by omega), hb (2 * n) (by omega), hb (3 * n) (by omega)]

end Cert.LibBlockSum
-- ==== Proof.KRun.lean ====
/-
  The kernel's run at the extended reals: its result array is the relation network of its arguments.

  Point n of the grid is tile n % 4 of batch entry n / 4. After it the carried accumulator holds, at entry k, the tile
  sums 0 … n % 4 of that batch entry added in order onto zero, a tile sum being the sum over the tile's 16 outer objects
  and all 64 inner ones of g's third activation. After a batch entry's last tile that is the sum over all 4096 pairs (four
  consecutive blocks of 16 outer objects make up the 64), and the output block written back there is f of it: row b of the
  result. The write-backs at the points 4b + 3 cover the call's [32, 1, 256] output, which the host line after the call
  reshapes to [32, 256].
-/
import proofs.«160269_j53584011985126_1_alg».proof.Proof.KPieces
import proofs.«160269_j53584011985126_1_alg».proof.Proof.KMath
import proofs.«160269_j53584011985126_1_alg».proof.Proof.KBlocks
import proofs.«160269_j53584011985126_1_alg».proof.Proof.LibBlockSum
import Idealize.ShloMosaic.Lib.Pipeline.Value
import Idealize.ShloMosaic.Lib.StableHlo.Run

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The arguments at their literal types, and the table of relative positions. -/
abbrev aX (c : Dev nD) : Cert.Spec.SX.Idx → EReal := m ((c.tc : Thread nD τ).loc main_arg0)
abbrev aW0 (c : Dev nD) : Cert.Spec.SW0.Idx → EReal := m ((c.tc : Thread nD τ).loc main_arg1)
abbrev aB0 (c : Dev nD) : Cert.Spec.SB.Idx → EReal := m ((c.tc : Thread nD τ).loc main_arg2)
abbrev aW1 (c : Dev nD) : Cert.Spec.SW.Idx → EReal := m ((c.tc : Thread nD τ).loc main_arg3)
abbrev aB1 (c : Dev nD) : Cert.Spec.SB.Idx → EReal := m ((c.tc : Thread nD τ).loc main_arg4)
abbrev aW2 (c : Dev nD) : Cert.Spec.SW.Idx → EReal := m ((c.tc : Thread nD τ).loc main_arg5)
abbrev aB2 (c : Dev nD) : Cert.Spec.SB.Idx → EReal := m ((c.tc : Thread nD τ).loc main_arg6)
abbrev aV0 (c : Dev nD) : Cert.Spec.SW.Idx → EReal := m ((c.tc : Thread nD τ).loc main_arg7)
abbrev aC0 (c : Dev nD) : Cert.Spec.SB.Idx → EReal := m ((c.tc : Thread nD τ).loc main_arg8)
abbrev aV1 (c : Dev nD) : Cert.Spec.SV1.Idx → EReal := m ((c.tc : Thread nD τ).loc main_arg9)
abbrev aC1 (c : Dev nD) : Cert.Spec.SC1.Idx → EReal := m ((c.tc : Thread nD τ).loc main_arg10)
abbrev relT : Cert.Spec.SRel.Idx → EReal := Cert.RelTable.table (F := Ideal)

/-- g's third activation at a pair, of the arguments. -/
abbrev A2 (c : Dev nD) (b : Fin 32) (p q : Fin 64) (k : Fin 512) : EReal :=
  Cert.Spec.a2 (aX m c) (aW0 m c) (aB0 m c) (aW1 m c) (aB1 m c) (aW2 m c) (aB2 m c) relT b p q k

/-- Tile j's sum: over its 16 outer objects and all 64 inner ones. -/
def tileSum (c : Dev nD) (b : Fin 32) (j : Fin 4) (k : Fin 512) : EReal :=
  ∑ pl : Fin 16, ∑ q : Fin 64, A2 m c b ⟨16 * j.val + pl.val, by omega⟩ q k

/-- A point of batch entry b', tile j, is a point of the grid. -/
theorem lt_N (b' j : ℕ) (hb : b' < 32) (hj : j < 4) : 4 * b' + j < cfg0.N := by
  have : cfg0.N = 128 := N_0
  omega

/-! ## What the accumulator and the output block hold after a point, by case -/

theorem scratch_A (c : Dev nD) (t : Fin cfg0.N) (h0 : t.val % 4 = 0) (h1 : ¬t.val % 4 = 3) :
    (outsAt0 m c t.val t.isLt).2 = accStep (grid0.coords t) (blk0 m c t) (blk1 m c t) (blk2 m c t) (blk3 m c t) (blk4 m c t) (blk5 m c t) (blk6 m c t) (blk7 m c t) (blk8 m c t) (blk9 m c t) accZero := by
  rw [outsAt0_A m c t h0 h1]
  dsimp only
  exact sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (fun h => h1 ((hcond0_1 t).mp h)) (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t)

theorem scratch_B (c : Dev nD) (t : Fin cfg0.N) (h0 : ¬t.val % 4 = 0) (h1 : ¬t.val % 4 = 3) :
    (outsAt0 m c t.val t.isLt).2 = accStep (grid0.coords t) (blk0 m c t) (blk1 m c t) (blk2 m c t) (blk3 m c t) (blk4 m c t) (blk5 m c t) (blk6 m c t) (blk7 m c t) (blk8 m c t) (blk9 m c t)
      (outsAt0 m c (t.val - 1) (Nat.lt_of_le_of_lt (Nat.sub_le _ _) t.isLt)).2 := by
  rw [outsAt0_B m c t h0 h1]
  dsimp only
  exact sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) _

theorem scratch_C (c : Dev nD) (t : Fin cfg0.N) (h0 : ¬t.val % 4 = 0) (h1 : t.val % 4 = 3) :
    (outsAt0 m c t.val t.isLt).2 = accStep (grid0.coords t) (blk0 m c t) (blk1 m c t) (blk2 m c t) (blk3 m c t) (blk4 m c t) (blk5 m c t) (blk6 m c t) (blk7 m c t) (blk8 m c t) (blk9 m c t)
      (outsAt0 m c (t.val - 1) (Nat.lt_of_le_of_lt (Nat.sub_le _ _) t.isLt)).2 := by
  rw [outsAt0_C m c t h0 h1]
  dsimp only
  exact sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) _

/-- At a batch entry's last tile the output block is f of the accumulator the point leaves. -/
theorem out_C_eq (c : Dev nD) (t : Fin cfg0.N) (h0 : ¬t.val % 4 = 0) (h1 : t.val % 4 = 3) :
    (outsAt0 m c t.val t.isLt).1
      = fOut (outsAt0 m c t.val t.isLt).2 (blk10 m c t) (blk11 m c t) (blk12 m c t) (blk13 m c t) := by
  rw [outsAt0_C m c t h0 h1]
  dsimp only
  rw [sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) _]
  exact out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) _

/-! ## The accumulator, entry by entry -/

/-- One step from any accumulator at point t adds tile t % 4's sum of batch entry t / 4. -/
theorem step_val (c : Dev nD) (t : Fin cfg0.N) (acc : Vec Ideal S1x512 .f32) (k : Fin 512) :
    accStep (F := Ideal) (grid0.coords t) (blk0 m c t) (blk1 m c t) (blk2 m c t) (blk3 m c t) (blk4 m c t) (blk5 m c t) (blk6 m c t) (blk7 m c t) (blk8 m c t) (blk9 m c t) acc (ix2 0 k)
      = acc (ix2 0 k) + tileSum m c ⟨t.val / 4, by have := lt128 t; omega⟩ ⟨t.val % 4, Nat.mod_lt _ (by decide)⟩ k := by
  rw [accStep_apply (grid0.coords t) ⟨t.val / 4, by have := lt128 t; omega⟩ ⟨t.val % 4, Nat.mod_lt _ (by decide)⟩
    (coords_pt t) (aX m c) (aW0 m c) relT (blk0 m c t) (blk1 m c t) (blk2 m c t) (blk3 m c t) (blk4 m c t) (blk5 m c t) (blk6 m c t) (blk7 m c t) (blk8 m c t) (blk9 m c t) acc
    (blk0_apply m c t) (blk1_apply m c t) (blk2_apply m c t) (blk3_apply m c t) (blk4_apply m c t) k]
  rw [blk5_eq m c t, blk6_eq m c t, blk7_eq m c t, blk8_eq m c t, blk9_eq m c t]
  rfl

/-- The recurrence: a batch entry's first tile starts from zero, a later one from what the point before left. -/
theorem scratch_rec (c : Dev nD) (n : ℕ) (hn : n < cfg0.N) (k : Fin 512) :
    (outsAt0 m c n hn).2 (ix2 0 k)
      = (if n % 4 = 0 then (0 : EReal) else (outsAt0 m c (n - 1) (Nat.lt_of_le_of_lt (Nat.sub_le _ _) hn)).2 (ix2 0 k))
        + tileSum m c ⟨n / 4, by have := lt_of_lt_of_eq hn N_0; omega⟩ ⟨n % 4, Nat.mod_lt _ (by decide)⟩ k := by
  by_cases h0 : n % 4 = 0
  · have h1 : ¬n % 4 = 3 := by omega
    rw [if_pos h0, scratch_A m c ⟨n, hn⟩ h0 h1, step_val m c ⟨n, hn⟩, accZero_apply]
  · rw [if_neg h0]
    by_cases h1 : n % 4 = 3
    · rw [scratch_C m c ⟨n, hn⟩ h0 h1, step_val m c ⟨n, hn⟩]
    · rw [scratch_B m c ⟨n, hn⟩ h0 h1, step_val m c ⟨n, hn⟩]

/-- Tile j of batch entry b', whichever way the two numbers are spelled. -/
theorem tile_norm (c : Dev nD) (b' j : ℕ) (hb : b' < 32) (hj : j < 4) (k : Fin 512) (h1 : (4 * b' + j) / 4 < 32) (h2 : (4 * b' + j) % 4 < 4) :
    tileSum m c ⟨(4 * b' + j) / 4, h1⟩ ⟨(4 * b' + j) % 4, h2⟩ k = tileSum m c ⟨b', hb⟩ ⟨j, hj⟩ k := by
  have e1 : (4 * b' + j) / 4 = b' := by omega
  have e2 : (4 * b' + j) % 4 = j := by omega
  simp only [e1, e2]

/-- The four tile sums, added in order onto zero, are the sum over all 64 outer objects. -/
theorem blocks_eq (c : Dev nD) (b : Fin 32) (k : Fin 512) :
    (((0 + tileSum m c b ⟨0, by decide⟩ k) + tileSum m c b ⟨1, by decide⟩ k) + tileSum m c b ⟨2, by decide⟩ k)
        + tileSum m c b ⟨3, by decide⟩ k
      = Cert.Spec.emb (aX m c) (aW0 m c) (aB0 m c) (aW1 m c) (aB1 m c) (aW2 m c) (aB2 m c) relT b k := by
  unfold Cert.Spec.emb
  exact (Cert.LibBlockSum.sum_fin_blocks4 16 (fun p : Fin (4 * 16) => ∑ q : Fin 64, A2 m c b p q k)).symm

/-- After a batch entry's last tile the accumulator is the sum over all pairs. -/
theorem scratch_last (c : Dev nD) (b' : ℕ) (hb : b' < 32) (k : Fin 512) :
    (outsAt0 m c (4 * b' + 3) (lt_N b' 3 hb (by decide))).2 (ix2 0 k)
      = Cert.Spec.emb (aX m c) (aW0 m c) (aB0 m c) (aW1 m c) (aB1 m c) (aW2 m c) (aB2 m c) relT ⟨b', hb⟩ k := by
  rw [scratch_rec m c (4 * b' + 3) _ k, if_neg (by omega)]
  show (outsAt0 m c (4 * b' + 2) (lt_N b' 2 hb (by decide))).2 (ix2 0 k) + _ = _
  rw [scratch_rec m c (4 * b' + 2) _ k, if_neg (by omega)]
  show ((outsAt0 m c (4 * b' + 1) (lt_N b' 1 hb (by decide))).2 (ix2 0 k) + _) + _ = _
  rw [scratch_rec m c (4 * b' + 1) _ k, if_neg (by omega)]
  show (((outsAt0 m c (4 * b' + 0) (lt_N b' 0 hb (by decide))).2 (ix2 0 k) + _) + _) + _ = _
  rw [scratch_rec m c (4 * b' + 0) _ k, if_pos (by omega)]
  rw [tile_norm m c b' 0 hb (by decide) k, tile_norm m c b' 1 hb (by decide) k, tile_norm m c b' 2 hb (by decide) k,
    tile_norm m c b' 3 hb (by decide) k]
  exact blocks_eq m c ⟨b', hb⟩ k

/-- The same at a point t ≡ 3 (mod 4). -/
theorem scratch_fin (c : Dev nD) (t : Fin cfg0.N) (h3 : t.val % 4 = 3) (k : Fin 512) :
    (outsAt0 m c t.val t.isLt).2 (ix2 0 k)
      = Cert.Spec.emb (aX m c) (aW0 m c) (aB0 m c) (aW1 m c) (aB1 m c) (aW2 m c) (aB2 m c) relT ⟨t.val / 4, by have := lt128 t; omega⟩ k := by
  have hN := lt128 t
  have e : 4 * (t.val / 4) + 3 = t.val := by omega
  have g : ∀ (n : ℕ) (hn : n < cfg0.N), n = t.val →
      (outsAt0 m c n hn).2 (ix2 0 k) = (outsAt0 m c t.val t.isLt).2 (ix2 0 k) := by
    intro n hn e'; subst e'; rfl
  rw [← g _ (lt_N (t.val / 4) 3 (by omega) (by decide)) e]
  exact scratch_last m c (t.val / 4) (by omega) k

/-- So the output block written back there is row t / 4 of the result. -/
theorem out_val (c : Dev nD) (t : Fin cfg0.N) (h3 : t.val % 4 = 3) (o : Fin 256) :
    (outsAt0 m c t.val t.isLt).1 (ix3 0 0 o)
      = Cert.Spec.outAt (aX m c) (aW0 m c) (aB0 m c) (aW1 m c) (aB1 m c) (aW2 m c) (aB2 m c) (aV0 m c) (aC0 m c) (aV1 m c) (aC1 m c) relT
          ⟨t.val / 4, by have := lt128 t; omega⟩ o := by
  have h0 : ¬t.val % 4 = 0 := by omega
  rw [out_C_eq m c t h0 h3, fOut_apply]
  unfold Cert.Spec.outAt Cert.Spec.hid
  rw [blk10_eq m c t, blk11_eq m c t, blk12_eq m c t, blk13_eq m c t]
  simp only [scratch_fin m c t h3]

/-! ## The call's output array, and the result -/

/-- The call's [32, 1, 256] output: row b of the result at (b, 0, ·). -/
def outArr (c : Dev nD) : S32x1x256.Idx → EReal := fun i =>
  Cert.Spec.outAt (aX m c) (aW0 m c) (aB0 m c) (aW1 m c) (aB1 m c) (aW2 m c) (aB2 m c) (aV0 m c) (aC0 m c) (aV1 m c) (aC1 m c) relT ⟨(i 0).val, (i 0).isLt⟩ ⟨(i 2).val, (i 2).isLt⟩

/-- The output window's block index at point t: (t / 4, 0, 0). -/
theorem idx14 : ∀ t : Fin cfg0.N, win0_14.index t (0 : Fin 3) = t.val / 4 ∧ win0_14.index t (1 : Fin 3) = 0
    ∧ win0_14.index t (2 : Fin 3) = 0 :=
  (by decide +kernel : ∀ t : Fin grid0.N, _)

/-- What a flushing point writes back is its block of that array. -/
theorem flushed_eq (c : Dev nD) (t : Fin cfg0.N) (hf : (cfg0.win 14).flush t = true) :
    (dats m 0 c).flushed 14 t = ((cfg0.win 14).blk t).view.read (Elt Ideal) (outArr m c) := by
  have h3 : t.val % 4 = 3 := (flush0_14 t).mp hf
  have hN := lt128 t
  obtain ⟨e0, e1, e2⟩ := idx14 t
  show (cfg0.win 14).cut (grid0.coords t) ((dats m 0 c).after 14 t) = _
  rw [after0_14]
  funext y
  have hy0 : (y 0).val < 1 := (y 0).isLt
  have hy1 : (y 1).val < 1 := (y 1).isLt
  have hy2 : (y 2).val < 256 := (y 2).isLt
  obtain ⟨o, rfl⟩ : ∃ o : Fin 256, y = ix3 0 0 o := ⟨⟨(y 2).val, hy2⟩, by
    funext a
    match a with
    | ⟨0, _⟩ => exact Fin.ext (by show (y 0).val = 0; omega)
    | ⟨1, _⟩ => exact Fin.ext (by show (y 1).val = 0; omega)
    | ⟨2, _⟩ => rfl⟩
  show (outsAt0 m c t.val t.isLt).1 (ix3 0 0 o) = outArr m c (((cfg0.win 14).blk t).view.emb (ix3 0 0 o))
  rw [out_val m c t h3 o]
  unfold outArr
  have c0 : ((((cfg0.win 14).blk t).view.emb (ix3 0 0 o)) 0).val = t.val / 4 := by
    show win0_14.index t (0 : Fin 3) * 1 + 1 * 0 = t.val / 4
    omega
  have c2 : ((((cfg0.win 14).blk t).view.emb (ix3 0 0 o)) 2).val = o.val := by
    show win0_14.index t (2 : Fin 3) * 256 + 1 * o.val = o.val
    omega
  simp only [c0, c2, Fin.eta]

/-- The write-backs at the points 4b + 3 cover the array, so it ends holding all of it. -/
theorem final14 (c : Dev nD) : (dats m 0 c).arrAt 14 cfg0.N = outArr m c :=
  (dats m 0 c).arrAt_eq_of_cover 14 (outArr m c) (flushed_eq m c) fun i => by
    have hi0 : (i 0).val < 32 := (i 0).isLt
    have hi1 : (i 1).val < 1 := (i 1).isLt
    have hi2 : (i 2).val < 256 := (i 2).isLt
    have hlt : 4 * (i 0).val + 3 < cfg0.N := by have : cfg0.N = 128 := N_0; omega
    obtain ⟨e0, e1, e2⟩ := idx14 ⟨4 * (i 0).val + 3, hlt⟩
    have e0' : win0_14.index ⟨4 * (i 0).val + 3, hlt⟩ (0 : Fin 3) = (4 * (i 0).val + 3) / 4 := e0
    refine ⟨⟨4 * (i 0).val + 3, hlt⟩, (flush0_14 _).mpr (by show (4 * (i 0).val + 3) % 4 = 3; omega), ?_⟩
    show i ∈ ((View.whole main_v26).slice (win0_14.rect ⟨4 * (i 0).val + 3, hlt⟩)).set
    rw [View.set_slice_whole, Rect.mem_set_unit]
    intro a
    match a with
    | ⟨0, _⟩ =>
      show win0_14.index ⟨4 * (i 0).val + 3, hlt⟩ (0 : Fin 3) * 1 ≤ (i 0).val
        ∧ (i 0).val < win0_14.index ⟨4 * (i 0).val + 3, hlt⟩ (0 : Fin 3) * 1 + 1
      omega
    | ⟨1, _⟩ =>
      show win0_14.index ⟨4 * (i 0).val + 3, hlt⟩ (1 : Fin 3) * 1 ≤ (i 1).val
        ∧ (i 1).val < win0_14.index ⟨4 * (i 0).val + 3, hlt⟩ (1 : Fin 3) * 1 + 1
      omega
    | ⟨2, _⟩ =>
      show win0_14.index ⟨4 * (i 0).val + 3, hlt⟩ (2 : Fin 3) * 256 ≤ (i 2).val
        ∧ (i 2).val < win0_14.index ⟨4 * (i 0).val + 3, hlt⟩ (2 : Fin 3) * 256 + 256
      omega

/-- The host line after the call drops the unit axis: the result is the relation network. -/
theorem result_eq (c : Dev nD) :
    Pipeline.afterTail₀ cfgs (dats m) 0 (V0 m) [hostOps1] c main_v27 = Cert.Spec.G (aX m c) (aW0 m c) (aB0 m c) (aW1 m c) (aB1 m c) (aW2 m c) (aB2 m c) (aV0 m c) (aC0 m c) (aV1 m c) (aC1 m c) relT := by
  unfold Pipeline.afterTail₀
  show StableHlo.after hostOps1 _ (Proc.devRef .tc main_v27) = _
  after_results
  rw [show Pipeline.withArrays (cfgs 0).spec c (V0 m c) (fun w => (dats m 0 c).arrAt w (cfgs 0).N) (Proc.tc.devRef main_v26)
      = outArr m c from (Pipeline.withArrays_arr spec0 launch0.win.arr_inj c _ _ 14).trans (final14 m c)]
  funext i
  obtain ⟨b, o, rfl⟩ : ∃ (b : Fin 32) (o : Fin 256), i = ix2 b o := ⟨i 0, i 1, eq_ix2 i⟩
  show shapeCast S32x256 (outArr m c) shapeCasts_S32x1x256_S32x256 (ix2 b o) = _
  rw [shapeCast_apply (outArr m c) shapeCasts_S32x1x256_S32x256 (ix2 b o) (ix3 b 0 o) (by
    rw [Shape.rowMajor_val_three, Shape.rowMajor_val_two]
    show (b.val * 1 + 0) * 256 + o.val = b.val * 256 + o.val
    omega)]
  rfl

/-- The run, read: the result at the relation network of the arguments, the arguments unchanged. -/
theorem run : θ_run defs (onTc (τ := τ) (main (F := Ideal))) ⟨m, fun _ => 0, ρ⟩ fun r => ∀ c : Dev nD,
      r.2.mem ((c.tc : Thread nD τ).loc main_v27)
        = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (Cert.RelTable.table (F := Ideal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨((h c).2 main_v27 (Pipeline.mem_restRefs_of main_v27 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 5).trans (((dats m 0 c).arrAt_in 5 rfl _).trans ((A_eq m c 5).trans (V_main_arg2 m c))),
      ((h c).1 6).trans (((dats m 0 c).arrAt_in 6 rfl _).trans ((A_eq m c 6).trans (V_main_arg3 m c))),
      ((h c).1 7).trans (((dats m 0 c).arrAt_in 7 rfl _).trans ((A_eq m c 7).trans (V_main_arg4 m c))),
      ((h c).1 8).trans (((dats m 0 c).arrAt_in 8 rfl _).trans ((A_eq m c 8).trans (V_main_arg5 m c))),
      ((h c).1 9).trans (((dats m 0 c).arrAt_in 9 rfl _).trans ((A_eq m c 9).trans (V_main_arg6 m c))),
      ((h c).1 10).trans (((dats m 0 c).arrAt_in 10 rfl _).trans ((A_eq m c 10).trans (V_main_arg7 m c))),
      ((h c).1 11).trans (((dats m 0 c).arrAt_in 11 rfl _).trans ((A_eq m c 11).trans (V_main_arg8 m c))),
      ((h c).1 12).trans (((dats m 0 c).arrAt_in 12 rfl _).trans ((A_eq m c 12).trans (V_main_arg9 m c))),
      ((h c).1 13).trans (((dats m 0 c).arrAt_in 13 rfl _).trans ((A_eq m c 13).trans (V_main_arg10 m c)))⟩)
    (run_main m ρ)

end Cert.KernelIdeal.KV

end
-- ==== Proof.RefTerm.lean ====
/-
  The reference's @main as ONE pure term of its arguments and of the relative-position table, stage by stage in the
  program's order: the feature map flattened and transposed to [B, N, C]; the inner object's features repeated along
  the outer axis and the outer object's along the inner one; the table repeated along the batch; the three side by side
  as the [B, N, N, 514] pair tensor; three dense layers with a rectifier each; the sum over both object axes; f's two
  layers. Every line is the host operation the program prints, over the program's own shape facts.
-/
import proofs.«160269_j53584011985126_1_alg».proof.Proof.Gen.ReferenceIdeal

noncomputable section

namespace Cert.ReferenceIdeal.RefTerm

open Idealize.ShloMosaic Cert.ReferenceIdeal Cert.ReferenceIdeal.Gen

variable {F : FTy → Type} [FloatOps F]

/-- The feature map as [B, N, C]: the two pixel axes flattened, then channels last. -/
def feats (x : FVec F S32x256x8x8 .f32) : FVec F S32x64x256 .f32 :=
  transpose S32x64x256 [0, 2, 1] (shapeCast S32x256x64 x shapeCasts_S32x256x8x8_S32x256x64)
    transposes_S32x256x64_S32x64x256_0_2_1

/-- At pair (p, q): object q's features (repeated along the outer object axis). -/
def inner (x : FVec F S32x256x8x8 .f32) : FVec F S32x64x64x256 .f32 :=
  broadcastInDim S32x64x64x256 ![0, 1, 2, 3] bcast_S32x1x64x256_S32x64x64x256_0_1_2_3
    (broadcastInDim S32x1x64x256 ![0, 2, 3] bcast_S32x64x256_S32x1x64x256_0_2_3 (feats x))

/-- At pair (p, q): object p's features (repeated along the inner object axis). -/
def outer (x : FVec F S32x256x8x8 .f32) : FVec F S32x64x64x256 .f32 :=
  broadcastInDim S32x64x64x256 ![0, 1, 2, 3] bcast_S32x64x1x256_S32x64x64x256_0_1_2_3
    (broadcastInDim S32x64x1x256 ![0, 1, 3] bcast_S32x64x256_S32x64x1x256_0_1_3 (feats x))

/-- The table of relative positions repeated along the batch. -/
def relB (rel : FVec F S64x64x2 .f32) : FVec F S32x64x64x2 .f32 :=
  broadcastInDim S32x64x64x2 ![0, 1, 2, 3] bcast_S1x64x64x2_S32x64x64x2_0_1_2_3
    (broadcastInDim S1x64x64x2 ![1, 2, 3] bcast_S64x64x2_S1x64x64x2_1_2_3 rel)

/-- The pair tensor: inner features, outer features, relative position, along the last axis (514 entries). -/
def pairs (rel : FVec F S64x64x2 .f32) (x : FVec F S32x256x8x8 .f32) : FVec F S32x64x64x514 .f32 :=
  concatenate S32x64x64x514 3 [⟨S32x64x64x256, inner x⟩, ⟨S32x64x64x256, outer x⟩, ⟨S32x64x64x2, relB rel⟩]
    concatenates_S32x64x64x256_S32x64x64x256_S32x64x64x2_S32x64x64x514_d3

/-- The rectifier on a [B, N, N, 512] activation. -/
def relu4 (t : FVec F S32x64x64x512 .f32) : FVec F S32x64x64x512 .f32 :=
  maximumf t (broadcastInDim S32x64x64x512 ![] bcast_S_S32x64x64x512 (constant S_ .f32 0x00000000#32))

/-- A bias vector repeated over batch and both object axes. -/
def bias4 (b : FVec F S512 .f32) : FVec F S32x64x64x512 .f32 :=
  broadcastInDim S32x64x64x512 ![0, 1, 2, 3] bcast_S1x1x1x512_S32x64x64x512_0_1_2_3
    (broadcastInDim S1x1x1x512 ![3] bcast_S512_S1x1x1x512_3 b)

/-- g's first layer on the pair tensor. -/
def g0 (rel : FVec F S64x64x2 .f32) (x : FVec F S32x256x8x8 .f32) (W0 : FVec F S514x512 .f32) (b0 : FVec F S512 .f32) :
    FVec F S32x64x64x512 .f32 :=
  relu4 (addf (Host.dotGeneral dot_S32x64x64x514_S514x512_S32x64x64x512_3_0_012_1_n_n none (pairs rel x) W0) (bias4 b0))

/-- g's second and third layers. -/
def gk (h : FVec F S32x64x64x512 .f32) (W : FVec F S512x512 .f32) (b : FVec F S512 .f32) : FVec F S32x64x64x512 .f32 :=
  relu4 (addf (Host.dotGeneral dot_S32x64x64x512_S512x512_S32x64x64x512_3_0_012_1_n_n none h W) (bias4 b))

/-- The relations summed over both object axes. -/
def summed (h : FVec F S32x64x64x512 .f32) : FVec F S32x512 .f32 :=
  Host.reduceAdd h (constant S_ .f32 0x00000000#32) reducesTo_S32x64x64x512_S32x512_d1_2 h_S_

/-- f's first layer. -/
def f0 (e : FVec F S32x512 .f32) (V0 : FVec F S512x512 .f32) (c0 : FVec F S512 .f32) : FVec F S32x512 .f32 :=
  maximumf
    (addf (Host.dotGeneral dot_S32x512_S512x512_S32x512_1_0_0_1_n_n none e V0)
      (broadcastInDim S32x512 ![0, 1] bcast_S1x512_S32x512_0_1 (broadcastInDim S1x512 ![1] bcast_S512_S1x512_1 c0)))
    (broadcastInDim S32x512 ![] bcast_S_S32x512 (constant S_ .f32 0x00000000#32))

/-- f's second layer: the result. -/
def f1 (hf : FVec F S32x512 .f32) (V1 : FVec F S512x256 .f32) (c1 : FVec F S256 .f32) : FVec F S32x256 .f32 :=
  addf (Host.dotGeneral dot_S32x512_S512x256_S32x256_1_0_0_1_n_n none hf V1)
    (broadcastInDim S32x256 ![0, 1] bcast_S1x256_S32x256_0_1 (broadcastInDim S1x256 ![1] bcast_S256_S1x256_1 c1))

/-- The whole reference. -/
def refOut (rel : FVec F S64x64x2 .f32) (x : FVec F S32x256x8x8 .f32) (W0 : FVec F S514x512 .f32) (b0 : FVec F S512 .f32)
    (W1 : FVec F S512x512 .f32) (b1 : FVec F S512 .f32) (W2 : FVec F S512x512 .f32) (b2 : FVec F S512 .f32)
    (V0 : FVec F S512x512 .f32) (c0 : FVec F S512 .f32) (V1 : FVec F S512x256 .f32) (c1 : FVec F S256 .f32) :
    FVec F S32x256 .f32 :=
  f1 (f0 (summed (gk (gk (g0 rel x W0 b0) W1 b1) W2 b2)) V0 c0) V1 c1

end Cert.ReferenceIdeal.RefTerm

end
-- ==== Proof.RefRun.lean ====
/-
  The reference's run: @main is a straight line of host operations once the functions it calls are written out at
  their calls, so every weakly fair execution ends with the result at the operations' composed term of the arguments
  and the arguments unchanged. The lines that build the table of relative positions compose to the shared table.
-/
import proofs.«160269_j53584011985126_1_alg».proof.Proof.RefTerm
import proofs.«160269_j53584011985126_1_alg».proof.Proof.RelTable
import Idealize.ShloMosaic.Lib.StableHlo.Run

noncomputable section

namespace Cert.ReferenceIdeal.RefRun

open Idealize.ShloMosaic Idealize.ShloMosaic.TcCoe Idealize.SL.Sem Idealize.ShloMosaic.StableHlo
open Cert.ReferenceIdeal Cert.ReferenceIdeal.Gen

variable {F : FTy → Type} [FloatOps F]

/-- Running two lines one after the other is running their concatenation. -/
theorem after_app {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- A three-operand operation's result, each operand's contents at its own reference. -/
theorem nary3_result' {Val : EltTy → Type} {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

/-- What a buffer holds after a line of operations written out: each operation's result at its own result buffer is its
    function's value of its operands' contents, at any other buffer what was there (the two told apart as references). -/
macro "results_simp" : tactic =>
  `(tactic| (simp (disch := decide) only [after_cons, after_nil,
      nullary_result', unary_result', binary_result', ternary_result', reshape_result', nary3_result',
      nullary_result_ne', unary_result_ne', binary_result_ne', ternary_result_ne', reshape_result_ne', nary_result_ne']))

/-- @main as one straight line: its own operations in order, each called function's operations written out at the call
    over that call's buffers (floor division and remainder of the object numbers by 8, each with its inner selection;
    the rectifier three times on the pair activations and once on f's hidden layer). -/
abbrev ops : List (HloOp τ sig (Elt F)) :=
  [ reshape main_arg0 main_v0 rfl shapeCasts_S32x256x8x8_S32x256x64,
    unary main_v0 main_v1 ((transpose S32x64x256 [0, 2, 1] · transposes_S32x256x64_S32x64x256_0_2_1) : (⟨S32x256x64, .f32⟩ : BufTy).Contents (Elt F) → (⟨S32x64x256, .f32⟩ : BufTy).Contents (Elt F)),
    unary main_v1 main_v2 (broadcastInDim S32x1x64x256 ![0, 2, 3] bcast_S32x64x256_S32x1x64x256_0_2_3 : (⟨S32x64x256, .f32⟩ : BufTy).Contents (Elt F) → (⟨S32x1x64x256, .f32⟩ : BufTy).Contents (Elt F)),
    unary main_v2 main_v3 (broadcastInDim S32x64x64x256 ![0, 1, 2, 3] bcast_S32x1x64x256_S32x64x64x256_0_1_2_3 : (⟨S32x1x64x256, .f32⟩ : BufTy).Contents (Elt F) → (⟨S32x64x64x256, .f32⟩ : BufTy).Contents (Elt F)),
    unary main_v1 main_v4 (broadcastInDim S32x64x1x256 ![0, 1, 3] bcast_S32x64x256_S32x64x1x256_0_1_3 : (⟨S32x64x256, .f32⟩ : BufTy).Contents (Elt F) → (⟨S32x64x1x256, .f32⟩ : BufTy).Contents (Elt F)),
    unary main_v4 main_v5 (broadcastInDim S32x64x64x256 ![0, 1, 2, 3] bcast_S32x64x1x256_S32x64x64x256_0_1_2_3 : (⟨S32x64x1x256, .f32⟩ : BufTy).Contents (Elt F) → (⟨S32x64x64x256, .f32⟩ : BufTy).Contents (Elt F)),
    nullary main_v6 (iotaInDim S64 32 0),
    nullary main_c (constantI S_ 32 8#32),
    TRef.unary (TRef.of main_c : TRef sig ⟨S_, .i32⟩) main_call0.v0 id,
    TRef.unary main_call0.v0 main_call0.v1 (broadcastInDim S64 ![] bcast_S_S64),
    TRef.binary (TRef.of main_v6 : TRef sig ⟨S64, .i32⟩) main_call0.v1 main_call0.v2 Host.divsi,
    TRef.unary (TRef.of main_v6 : TRef sig ⟨S64, .i32⟩) main_call0.v3 signi,
    TRef.unary main_call0.v0 main_call0.v4 signi,
    TRef.unary main_call0.v4 main_call0.v5 (broadcastInDim S64 ![] bcast_S_S64),
    TRef.binary main_call0.v3 main_call0.v5 main_call0.v6 (cmpi .ne),
    TRef.unary main_call0.v0 main_call0.v7 (broadcastInDim S64 ![] bcast_S_S64),
    TRef.binary (TRef.of main_v6 : TRef sig ⟨S64, .i32⟩) main_call0.v7 main_call0.v8 Host.remsi,
    TRef.nullary main_call0.c (constantI S_ 32 0#32),
    TRef.unary main_call0.c main_call0.v9 (broadcastInDim S64 ![] bcast_S_S64),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S64 ![] bcast_S_S64),
    TRef.binary main_call0.v2 main_call0.v12 main_call0.v13 subi,
    TRef.ternary main_call0.v11 main_call0.v13 main_call0.v2 main_call0.call0.v0 select,
    nullary main_c_0 (constantI S_ 32 8#32),
    TRef.unary (TRef.of main_c_0 : TRef sig ⟨S_, .i32⟩) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S64 ![] bcast_S_S64),
    TRef.binary (TRef.of main_v6 : TRef sig ⟨S64, .i32⟩) main_call1.v3 main_call1.v4 Host.remsi,
    TRef.nullary main_call1.c_1 (constantI S_ 32 0#32),
    TRef.unary main_call1.c_1 main_call1.v5 (broadcastInDim S64 ![] bcast_S_S64),
    TRef.binary main_call1.v4 main_call1.v5 main_call1.v6 (cmpi .ne),
    TRef.nullary main_call1.c_2 (constantI S_ 32 0#32),
    TRef.unary main_call1.c_2 main_call1.v7 (broadcastInDim S64 ![] bcast_S_S64),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S64 ![] bcast_S_S64),
    TRef.binary main_call1.v8 main_call1.v10 main_call1.v11 (cmpi .ne),
    TRef.binary main_call1.v11 main_call1.v6 main_call1.v12 andi,
    TRef.unary main_call1.call0.v0 main_call1.v13 (broadcastInDim S64 ![] bcast_S_S64),
    TRef.binary main_call1.v4 main_call1.v13 main_call1.v14 addi,
    TRef.ternary main_call1.v12 main_call1.v14 main_call1.v4 main_call1.v15 select,
    unary main_v7 main_v9 (broadcastInDim S64x1 ![0] bcast_S64_S64x1_0 : (⟨S64, .i32⟩ : BufTy).Contents (Elt F) → (⟨S64x1, .i32⟩ : BufTy).Contents (Elt F)),
    unary main_v7 main_v10 (broadcastInDim S1x64 ![1] bcast_S64_S1x64_1 : (⟨S64, .i32⟩ : BufTy).Contents (Elt F) → (⟨S1x64, .i32⟩ : BufTy).Contents (Elt F)),
    unary main_v9 main_v11 (broadcastInDim S64x64 ![0, 1] bcast_S64x1_S64x64_0_1 : (⟨S64x1, .i32⟩ : BufTy).Contents (Elt F) → (⟨S64x64, .i32⟩ : BufTy).Contents (Elt F)),
    unary main_v10 main_v12 (broadcastInDim S64x64 ![0, 1] bcast_S1x64_S64x64_0_1 : (⟨S1x64, .i32⟩ : BufTy).Contents (Elt F) → (⟨S64x64, .i32⟩ : BufTy).Contents (Elt F)),
    binary main_v11 main_v12 main_v13 (subi : (⟨S64x64, .i32⟩ : BufTy).Contents (Elt F) → (⟨S64x64, .i32⟩ : BufTy).Contents (Elt F) → (⟨S64x64, .i32⟩ : BufTy).Contents (Elt F)),
    unary main_v13 main_v14 (sitofp .f32 : (⟨S64x64, .i32⟩ : BufTy).Contents (Elt F) → (⟨S64x64, .f32⟩ : BufTy).Contents (Elt F)),
    unary main_v8 main_v15 (broadcastInDim S64x1 ![0] bcast_S64_S64x1_0 : (⟨S64, .i32⟩ : BufTy).Contents (Elt F) → (⟨S64x1, .i32⟩ : BufTy).Contents (Elt F)),
    unary main_v8 main_v16 (broadcastInDim S1x64 ![1] bcast_S64_S1x64_1 : (⟨S64, .i32⟩ : BufTy).Contents (Elt F) → (⟨S1x64, .i32⟩ : BufTy).Contents (Elt F)),
    unary main_v15 main_v17 (broadcastInDim S64x64 ![0, 1] bcast_S64x1_S64x64_0_1 : (⟨S64x1, .i32⟩ : BufTy).Contents (Elt F) → (⟨S64x64, .i32⟩ : BufTy).Contents (Elt F)),
    unary main_v16 main_v18 (broadcastInDim S64x64 ![0, 1] bcast_S1x64_S64x64_0_1 : (⟨S1x64, .i32⟩ : BufTy).Contents (Elt F) → (⟨S64x64, .i32⟩ : BufTy).Contents (Elt F)),
    binary main_v17 main_v18 main_v19 (subi : (⟨S64x64, .i32⟩ : BufTy).Contents (Elt F) → (⟨S64x64, .i32⟩ : BufTy).Contents (Elt F) → (⟨S64x64, .i32⟩ : BufTy).Contents (Elt F)),
    unary main_v19 main_v20 (sitofp .f32 : (⟨S64x64, .i32⟩ : BufTy).Contents (Elt F) → (⟨S64x64, .f32⟩ : BufTy).Contents (Elt F)),
    unary main_v14 main_v21 (broadcastInDim S64x64x1 ![0, 1] bcast_S64x64_S64x64x1_0_1 : (⟨S64x64, .f32⟩ : BufTy).Contents (Elt F) → (⟨S64x64x1, .f32⟩ : BufTy).Contents (Elt F)),
    unary main_v20 main_v22 (broadcastInDim S64x64x1 ![0, 1] bcast_S64x64_S64x64x1_0_1 : (⟨S64x64, .f32⟩ : BufTy).Contents (Elt F) → (⟨S64x64x1, .f32⟩ : BufTy).Contents (Elt F)),
    binary main_v21 main_v22 main_v23 ((fun a b => concatenate S64x64x2 2 [⟨S64x64x1, a⟩, ⟨S64x64x1, b⟩] concatenates_S64x64x1_S64x64x1_S64x64x2_d2) : (⟨S64x64x1, .f32⟩ : BufTy).Contents (Elt F) → (⟨S64x64x1, .f32⟩ : BufTy).Contents (Elt F) → (⟨S64x64x2, .f32⟩ : BufTy).Contents (Elt F)),
    nullary main_cst (constant S_ .f32 0x00000000#32),
    binary main_v23 main_cst main_v24 ((fun x v => Host.reduceAdd x v reducesTo_S64x64x2_S_d0_1_2 h_S_) : (⟨S64x64x2, .f32⟩ : BufTy).Contents (Elt F) → (⟨S_, .f32⟩ : BufTy).Contents (Elt F) → (⟨S_, .f32⟩ : BufTy).Contents (Elt F)),
    nullary main_cst_1 (constant S_ .f32 0x46000000#32),
    binary main_v24 main_cst_1 main_v25 (Host.divf : (⟨S_, .f32⟩ : BufTy).Contents (Elt F) → (⟨S_, .f32⟩ : BufTy).Contents (Elt F) → (⟨S_, .f32⟩ : BufTy).Contents (Elt F)),
    unary main_v25 main_v26 (broadcastInDim S64x64x2 ![] bcast_S_S64x64x2 : (⟨S_, .f32⟩ : BufTy).Contents (Elt F) → (⟨S64x64x2, .f32⟩ : BufTy).Contents (Elt F)),
    binary main_v23 main_v26 main_v27 (subf : (⟨S64x64x2, .f32⟩ : BufTy).Contents (Elt F) → (⟨S64x64x2, .f32⟩ : BufTy).Contents (Elt F) → (⟨S64x64x2, .f32⟩ : BufTy).Contents (Elt F)),
    unary main_v27 main_v28 (broadcastInDim S1x64x64x2 ![1, 2, 3] bcast_S64x64x2_S1x64x64x2_1_2_3 : (⟨S64x64x2, .f32⟩ : BufTy).Contents (Elt F) → (⟨S1x64x64x2, .f32⟩ : BufTy).Contents (Elt F)),
    unary main_v28 main_v29 (broadcastInDim S32x64x64x2 ![0, 1, 2, 3] bcast_S1x64x64x2_S32x64x64x2_0_1_2_3 : (⟨S1x64x64x2, .f32⟩ : BufTy).Contents (Elt F) → (⟨S32x64x64x2, .f32⟩ : BufTy).Contents (Elt F)),
    nary ![main_v3, main_v5, main_v29] main_v30 (fun u => concatenate S32x64x64x514 3 [⟨S32x64x64x256, u 0⟩, ⟨S32x64x64x256, u 1⟩, ⟨S32x64x64x2, u 2⟩] concatenates_S32x64x64x256_S32x64x64x256_S32x64x64x2_S32x64x64x514_d3),
    binary main_v30 main_arg1 main_v31 ((fun l r => Host.dotGeneral dot_S32x64x64x514_S514x512_S32x64x64x512_3_0_012_1_n_n none l r) : (⟨S32x64x64x514, .f32⟩ : BufTy).Contents (Elt F) → (⟨S514x512, .f32⟩ : BufTy).Contents (Elt F) → (⟨S32x64x64x512, .f32⟩ : BufTy).Contents (Elt F)),
    unary main_arg2 main_v32 (broadcastInDim S1x1x1x512 ![3] bcast_S512_S1x1x1x512_3 : (⟨S512, .f32⟩ : BufTy).Contents (Elt F) → (⟨S1x1x1x512, .f32⟩ : BufTy).Contents (Elt F)),
    unary main_v32 main_v33 (broadcastInDim S32x64x64x512 ![0, 1, 2, 3] bcast_S1x1x1x512_S32x64x64x512_0_1_2_3 : (⟨S1x1x1x512, .f32⟩ : BufTy).Contents (Elt F) → (⟨S32x64x64x512, .f32⟩ : BufTy).Contents (Elt F)),
    binary main_v31 main_v33 main_v34 (addf : (⟨S32x64x64x512, .f32⟩ : BufTy).Contents (Elt F) → (⟨S32x64x64x512, .f32⟩ : BufTy).Contents (Elt F) → (⟨S32x64x64x512, .f32⟩ : BufTy).Contents (Elt F)),
    TRef.nullary main_call2.cst (constant S_ .f32 0x00000000#32),
    TRef.unary main_call2.cst main_call2.v0 (broadcastInDim S32x64x64x512 ![] bcast_S_S32x64x64x512),
    TRef.binary (TRef.of main_v34 : TRef sig ⟨S32x64x64x512, .f32⟩) main_call2.v0 main_call2.v1 maximumf,
    binary main_v35 main_arg3 main_v36 ((fun l r => Host.dotGeneral dot_S32x64x64x512_S512x512_S32x64x64x512_3_0_012_1_n_n none l r) : (⟨S32x64x64x512, .f32⟩ : BufTy).Contents (Elt F) → (⟨S512x512, .f32⟩ : BufTy).Contents (Elt F) → (⟨S32x64x64x512, .f32⟩ : BufTy).Contents (Elt F)),
    unary main_arg4 main_v37 (broadcastInDim S1x1x1x512 ![3] bcast_S512_S1x1x1x512_3 : (⟨S512, .f32⟩ : BufTy).Contents (Elt F) → (⟨S1x1x1x512, .f32⟩ : BufTy).Contents (Elt F)),
    unary main_v37 main_v38 (broadcastInDim S32x64x64x512 ![0, 1, 2, 3] bcast_S1x1x1x512_S32x64x64x512_0_1_2_3 : (⟨S1x1x1x512, .f32⟩ : BufTy).Contents (Elt F) → (⟨S32x64x64x512, .f32⟩ : BufTy).Contents (Elt F)),
    binary main_v36 main_v38 main_v39 (addf : (⟨S32x64x64x512, .f32⟩ : BufTy).Contents (Elt F) → (⟨S32x64x64x512, .f32⟩ : BufTy).Contents (Elt F) → (⟨S32x64x64x512, .f32⟩ : BufTy).Contents (Elt F)),
    TRef.nullary main_call3.cst (constant S_ .f32 0x00000000#32),
    TRef.unary main_call3.cst main_call3.v0 (broadcastInDim S32x64x64x512 ![] bcast_S_S32x64x64x512),
    TRef.binary (TRef.of main_v39 : TRef sig ⟨S32x64x64x512, .f32⟩) main_call3.v0 main_call3.v1 maximumf,
    binary main_v40 main_arg5 main_v41 ((fun l r => Host.dotGeneral dot_S32x64x64x512_S512x512_S32x64x64x512_3_0_012_1_n_n none l r) : (⟨S32x64x64x512, .f32⟩ : BufTy).Contents (Elt F) → (⟨S512x512, .f32⟩ : BufTy).Contents (Elt F) → (⟨S32x64x64x512, .f32⟩ : BufTy).Contents (Elt F)),
    unary main_arg6 main_v42 (broadcastInDim S1x1x1x512 ![3] bcast_S512_S1x1x1x512_3 : (⟨S512, .f32⟩ : BufTy).Contents (Elt F) → (⟨S1x1x1x512, .f32⟩ : BufTy).Contents (Elt F)),
    unary main_v42 main_v43 (broadcastInDim S32x64x64x512 ![0, 1, 2, 3] bcast_S1x1x1x512_S32x64x64x512_0_1_2_3 : (⟨S1x1x1x512, .f32⟩ : BufTy).Contents (Elt F) → (⟨S32x64x64x512, .f32⟩ : BufTy).Contents (Elt F)),
    binary main_v41 main_v43 main_v44 (addf : (⟨S32x64x64x512, .f32⟩ : BufTy).Contents (Elt F) → (⟨S32x64x64x512, .f32⟩ : BufTy).Contents (Elt F) → (⟨S32x64x64x512, .f32⟩ : BufTy).Contents (Elt F)),
    TRef.nullary main_call4.cst (constant S_ .f32 0x00000000#32),
    TRef.unary main_call4.cst main_call4.v0 (broadcastInDim S32x64x64x512 ![] bcast_S_S32x64x64x512),
    TRef.binary (TRef.of main_v44 : TRef sig ⟨S32x64x64x512, .f32⟩) main_call4.v0 main_call4.v1 maximumf,
    nullary main_cst_2 (constant S_ .f32 0x00000000#32),
    binary main_v45 main_cst_2 main_v46 ((fun x v => Host.reduceAdd x v reducesTo_S32x64x64x512_S32x512_d1_2 h_S_) : (⟨S32x64x64x512, .f32⟩ : BufTy).Contents (Elt F) → (⟨S_, .f32⟩ : BufTy).Contents (Elt F) → (⟨S32x512, .f32⟩ : BufTy).Contents (Elt F)),
    binary main_v46 main_arg7 main_v47 ((fun l r => Host.dotGeneral dot_S32x512_S512x512_S32x512_1_0_0_1_n_n none l r) : (⟨S32x512, .f32⟩ : BufTy).Contents (Elt F) → (⟨S512x512, .f32⟩ : BufTy).Contents (Elt F) → (⟨S32x512, .f32⟩ : BufTy).Contents (Elt F)),
    unary main_arg8 main_v48 (broadcastInDim S1x512 ![1] bcast_S512_S1x512_1 : (⟨S512, .f32⟩ : BufTy).Contents (Elt F) → (⟨S1x512, .f32⟩ : BufTy).Contents (Elt F)),
    unary main_v48 main_v49 (broadcastInDim S32x512 ![0, 1] bcast_S1x512_S32x512_0_1 : (⟨S1x512, .f32⟩ : BufTy).Contents (Elt F) → (⟨S32x512, .f32⟩ : BufTy).Contents (Elt F)),
    binary main_v47 main_v49 main_v50 (addf : (⟨S32x512, .f32⟩ : BufTy).Contents (Elt F) → (⟨S32x512, .f32⟩ : BufTy).Contents (Elt F) → (⟨S32x512, .f32⟩ : BufTy).Contents (Elt F)),
    TRef.nullary main_call5.cst (constant S_ .f32 0x00000000#32),
    TRef.unary main_call5.cst main_call5.v0 (broadcastInDim S32x512 ![] bcast_S_S32x512),
    TRef.binary (TRef.of main_v50 : TRef sig ⟨S32x512, .f32⟩) main_call5.v0 main_call5.v1 maximumf,
    binary main_v51 main_arg9 main_v52 ((fun l r => Host.dotGeneral dot_S32x512_S512x256_S32x256_1_0_0_1_n_n none l r) : (⟨S32x512, .f32⟩ : BufTy).Contents (Elt F) → (⟨S512x256, .f32⟩ : BufTy).Contents (Elt F) → (⟨S32x256, .f32⟩ : BufTy).Contents (Elt F)),
    unary main_arg10 main_v53 (broadcastInDim S1x256 ![1] bcast_S256_S1x256_1 : (⟨S256, .f32⟩ : BufTy).Contents (Elt F) → (⟨S1x256, .f32⟩ : BufTy).Contents (Elt F)),
    unary main_v53 main_v54 (broadcastInDim S32x256 ![0, 1] bcast_S1x256_S32x256_0_1 : (⟨S1x256, .f32⟩ : BufTy).Contents (Elt F) → (⟨S32x256, .f32⟩ : BufTy).Contents (Elt F)),
    binary main_v52 main_v54 main_v55 (addf : (⟨S32x256, .f32⟩ : BufTy).Contents (Elt F) → (⟨S32x256, .f32⟩ : BufTy).Contents (Elt F) → (⟨S32x256, .f32⟩ : BufTy).Contents (Elt F)) ]

/-- The line through the differences' two broadcasts: the feature map's three views, the object numbers, their floor
    quotient and remainder by 8, the pairwise differences of each as floats. -/
def opsA : List (HloOp τ sig (Elt F)) :=
  [ reshape main_arg0 main_v0 rfl shapeCasts_S32x256x8x8_S32x256x64,
    unary main_v0 main_v1 ((transpose S32x64x256 [0, 2, 1] · transposes_S32x256x64_S32x64x256_0_2_1) : (⟨S32x256x64, .f32⟩ : BufTy).Contents (Elt F) → (⟨S32x64x256, .f32⟩ : BufTy).Contents (Elt F)),
    unary main_v1 main_v2 (broadcastInDim S32x1x64x256 ![0, 2, 3] bcast_S32x64x256_S32x1x64x256_0_2_3 : (⟨S32x64x256, .f32⟩ : BufTy).Contents (Elt F) → (⟨S32x1x64x256, .f32⟩ : BufTy).Contents (Elt F)),
    unary main_v2 main_v3 (broadcastInDim S32x64x64x256 ![0, 1, 2, 3] bcast_S32x1x64x256_S32x64x64x256_0_1_2_3 : (⟨S32x1x64x256, .f32⟩ : BufTy).Contents (Elt F) → (⟨S32x64x64x256, .f32⟩ : BufTy).Contents (Elt F)),
    unary main_v1 main_v4 (broadcastInDim S32x64x1x256 ![0, 1, 3] bcast_S32x64x256_S32x64x1x256_0_1_3 : (⟨S32x64x256, .f32⟩ : BufTy).Contents (Elt F) → (⟨S32x64x1x256, .f32⟩ : BufTy).Contents (Elt F)),
    unary main_v4 main_v5 (broadcastInDim S32x64x64x256 ![0, 1, 2, 3] bcast_S32x64x1x256_S32x64x64x256_0_1_2_3 : (⟨S32x64x1x256, .f32⟩ : BufTy).Contents (Elt F) → (⟨S32x64x64x256, .f32⟩ : BufTy).Contents (Elt F)),
    nullary main_v6 (iotaInDim S64 32 0),
    nullary main_c (constantI S_ 32 8#32),
    TRef.unary (TRef.of main_c : TRef sig ⟨S_, .i32⟩) main_call0.v0 id,
    TRef.unary main_call0.v0 main_call0.v1 (broadcastInDim S64 ![] bcast_S_S64),
    TRef.binary (TRef.of main_v6 : TRef sig ⟨S64, .i32⟩) main_call0.v1 main_call0.v2 Host.divsi,
    TRef.unary (TRef.of main_v6 : TRef sig ⟨S64, .i32⟩) main_call0.v3 signi,
    TRef.unary main_call0.v0 main_call0.v4 signi,
    TRef.unary main_call0.v4 main_call0.v5 (broadcastInDim S64 ![] bcast_S_S64),
    TRef.binary main_call0.v3 main_call0.v5 main_call0.v6 (cmpi .ne),
    TRef.unary main_call0.v0 main_call0.v7 (broadcastInDim S64 ![] bcast_S_S64),
    TRef.binary (TRef.of main_v6 : TRef sig ⟨S64, .i32⟩) main_call0.v7 main_call0.v8 Host.remsi,
    TRef.nullary main_call0.c (constantI S_ 32 0#32),
    TRef.unary main_call0.c main_call0.v9 (broadcastInDim S64 ![] bcast_S_S64),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S64 ![] bcast_S_S64),
    TRef.binary main_call0.v2 main_call0.v12 main_call0.v13 subi,
    TRef.ternary main_call0.v11 main_call0.v13 main_call0.v2 main_call0.call0.v0 select,
    nullary main_c_0 (constantI S_ 32 8#32),
    TRef.unary (TRef.of main_c_0 : TRef sig ⟨S_, .i32⟩) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S64 ![] bcast_S_S64),
    TRef.binary (TRef.of main_v6 : TRef sig ⟨S64, .i32⟩) main_call1.v3 main_call1.v4 Host.remsi,
    TRef.nullary main_call1.c_1 (constantI S_ 32 0#32),
    TRef.unary main_call1.c_1 main_call1.v5 (broadcastInDim S64 ![] bcast_S_S64),
    TRef.binary main_call1.v4 main_call1.v5 main_call1.v6 (cmpi .ne),
    TRef.nullary main_call1.c_2 (constantI S_ 32 0#32),
    TRef.unary main_call1.c_2 main_call1.v7 (broadcastInDim S64 ![] bcast_S_S64),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S64 ![] bcast_S_S64),
    TRef.binary main_call1.v8 main_call1.v10 main_call1.v11 (cmpi .ne),
    TRef.binary main_call1.v11 main_call1.v6 main_call1.v12 andi,
    TRef.unary main_call1.call0.v0 main_call1.v13 (broadcastInDim S64 ![] bcast_S_S64),
    TRef.binary main_call1.v4 main_call1.v13 main_call1.v14 addi,
    TRef.ternary main_call1.v12 main_call1.v14 main_call1.v4 main_call1.v15 select,
    unary main_v7 main_v9 (broadcastInDim S64x1 ![0] bcast_S64_S64x1_0 : (⟨S64, .i32⟩ : BufTy).Contents (Elt F) → (⟨S64x1, .i32⟩ : BufTy).Contents (Elt F)),
    unary main_v7 main_v10 (broadcastInDim S1x64 ![1] bcast_S64_S1x64_1 : (⟨S64, .i32⟩ : BufTy).Contents (Elt F) → (⟨S1x64, .i32⟩ : BufTy).Contents (Elt F)),
    unary main_v9 main_v11 (broadcastInDim S64x64 ![0, 1] bcast_S64x1_S64x64_0_1 : (⟨S64x1, .i32⟩ : BufTy).Contents (Elt F) → (⟨S64x64, .i32⟩ : BufTy).Contents (Elt F)),
    unary main_v10 main_v12 (broadcastInDim S64x64 ![0, 1] bcast_S1x64_S64x64_0_1 : (⟨S1x64, .i32⟩ : BufTy).Contents (Elt F) → (⟨S64x64, .i32⟩ : BufTy).Contents (Elt F)),
    binary main_v11 main_v12 main_v13 (subi : (⟨S64x64, .i32⟩ : BufTy).Contents (Elt F) → (⟨S64x64, .i32⟩ : BufTy).Contents (Elt F) → (⟨S64x64, .i32⟩ : BufTy).Contents (Elt F)),
    unary main_v13 main_v14 (sitofp .f32 : (⟨S64x64, .i32⟩ : BufTy).Contents (Elt F) → (⟨S64x64, .f32⟩ : BufTy).Contents (Elt F)),
    unary main_v8 main_v15 (broadcastInDim S64x1 ![0] bcast_S64_S64x1_0 : (⟨S64, .i32⟩ : BufTy).Contents (Elt F) → (⟨S64x1, .i32⟩ : BufTy).Contents (Elt F)),
    unary main_v8 main_v16 (broadcastInDim S1x64 ![1] bcast_S64_S1x64_1 : (⟨S64, .i32⟩ : BufTy).Contents (Elt F) → (⟨S1x64, .i32⟩ : BufTy).Contents (Elt F)),
    unary main_v15 main_v17 (broadcastInDim S64x64 ![0, 1] bcast_S64x1_S64x64_0_1 : (⟨S64x1, .i32⟩ : BufTy).Contents (Elt F) → (⟨S64x64, .i32⟩ : BufTy).Contents (Elt F)),
    unary main_v16 main_v18 (broadcastInDim S64x64 ![0, 1] bcast_S1x64_S64x64_0_1 : (⟨S1x64, .i32⟩ : BufTy).Contents (Elt F) → (⟨S64x64, .i32⟩ : BufTy).Contents (Elt F)),
    binary main_v17 main_v18 main_v19 (subi : (⟨S64x64, .i32⟩ : BufTy).Contents (Elt F) → (⟨S64x64, .i32⟩ : BufTy).Contents (Elt F) → (⟨S64x64, .i32⟩ : BufTy).Contents (Elt F)),
    unary main_v19 main_v20 (sitofp .f32 : (⟨S64x64, .i32⟩ : BufTy).Contents (Elt F) → (⟨S64x64, .f32⟩ : BufTy).Contents (Elt F)),
    unary main_v14 main_v21 (broadcastInDim S64x64x1 ![0, 1] bcast_S64x64_S64x64x1_0_1 : (⟨S64x64, .f32⟩ : BufTy).Contents (Elt F) → (⟨S64x64x1, .f32⟩ : BufTy).Contents (Elt F)),
    unary main_v20 main_v22 (broadcastInDim S64x64x1 ![0, 1] bcast_S64x64_S64x64x1_0_1 : (⟨S64x64, .f32⟩ : BufTy).Contents (Elt F) → (⟨S64x64x1, .f32⟩ : BufTy).Contents (Elt F)) ]

/-- Row and column differences side by side. -/
def op23 : HloOp τ sig (Elt F) :=
  binary main_v21 main_v22 main_v23 ((fun a b => concatenate S64x64x2 2 [⟨S64x64x1, a⟩, ⟨S64x64x1, b⟩] concatenates_S64x64x1_S64x64x1_S64x64x2_d2) : (⟨S64x64x1, .f32⟩ : BufTy).Contents (Elt F) → (⟨S64x64x1, .f32⟩ : BufTy).Contents (Elt F) → (⟨S64x64x2, .f32⟩ : BufTy).Contents (Elt F))

/-- The mean of the differences subtracted, and the table repeated along the batch. -/
def opsB : List (HloOp τ sig (Elt F)) :=
  [ nullary main_cst (constant S_ .f32 0x00000000#32),
    binary main_v23 main_cst main_v24 ((fun x v => Host.reduceAdd x v reducesTo_S64x64x2_S_d0_1_2 h_S_) : (⟨S64x64x2, .f32⟩ : BufTy).Contents (Elt F) → (⟨S_, .f32⟩ : BufTy).Contents (Elt F) → (⟨S_, .f32⟩ : BufTy).Contents (Elt F)),
    nullary main_cst_1 (constant S_ .f32 0x46000000#32),
    binary main_v24 main_cst_1 main_v25 (Host.divf : (⟨S_, .f32⟩ : BufTy).Contents (Elt F) → (⟨S_, .f32⟩ : BufTy).Contents (Elt F) → (⟨S_, .f32⟩ : BufTy).Contents (Elt F)),
    unary main_v25 main_v26 (broadcastInDim S64x64x2 ![] bcast_S_S64x64x2 : (⟨S_, .f32⟩ : BufTy).Contents (Elt F) → (⟨S64x64x2, .f32⟩ : BufTy).Contents (Elt F)),
    binary main_v23 main_v26 main_v27 (subf : (⟨S64x64x2, .f32⟩ : BufTy).Contents (Elt F) → (⟨S64x64x2, .f32⟩ : BufTy).Contents (Elt F) → (⟨S64x64x2, .f32⟩ : BufTy).Contents (Elt F)),
    unary main_v27 main_v28 (broadcastInDim S1x64x64x2 ![1, 2, 3] bcast_S64x64x2_S1x64x64x2_1_2_3 : (⟨S64x64x2, .f32⟩ : BufTy).Contents (Elt F) → (⟨S1x64x64x2, .f32⟩ : BufTy).Contents (Elt F)),
    unary main_v28 main_v29 (broadcastInDim S32x64x64x2 ![0, 1, 2, 3] bcast_S1x64x64x2_S32x64x64x2_0_1_2_3 : (⟨S1x64x64x2, .f32⟩ : BufTy).Contents (Elt F) → (⟨S32x64x64x2, .f32⟩ : BufTy).Contents (Elt F)) ]

/-- The pair tensor: inner features, outer features, relative positions side by side. -/
def op30 : HloOp τ sig (Elt F) :=
  nary ![main_v3, main_v5, main_v29] main_v30 (fun u => concatenate S32x64x64x514 3 [⟨S32x64x64x256, u 0⟩, ⟨S32x64x64x256, u 1⟩, ⟨S32x64x64x2, u 2⟩] concatenates_S32x64x64x256_S32x64x64x256_S32x64x64x2_S32x64x64x514_d3)

/-- g's three layers, the sum over both object axes, f's two layers. -/
def opsC : List (HloOp τ sig (Elt F)) :=
  [ binary main_v30 main_arg1 main_v31 ((fun l r => Host.dotGeneral dot_S32x64x64x514_S514x512_S32x64x64x512_3_0_012_1_n_n none l r) : (⟨S32x64x64x514, .f32⟩ : BufTy).Contents (Elt F) → (⟨S514x512, .f32⟩ : BufTy).Contents (Elt F) → (⟨S32x64x64x512, .f32⟩ : BufTy).Contents (Elt F)),
    unary main_arg2 main_v32 (broadcastInDim S1x1x1x512 ![3] bcast_S512_S1x1x1x512_3 : (⟨S512, .f32⟩ : BufTy).Contents (Elt F) → (⟨S1x1x1x512, .f32⟩ : BufTy).Contents (Elt F)),
    unary main_v32 main_v33 (broadcastInDim S32x64x64x512 ![0, 1, 2, 3] bcast_S1x1x1x512_S32x64x64x512_0_1_2_3 : (⟨S1x1x1x512, .f32⟩ : BufTy).Contents (Elt F) → (⟨S32x64x64x512, .f32⟩ : BufTy).Contents (Elt F)),
    binary main_v31 main_v33 main_v34 (addf : (⟨S32x64x64x512, .f32⟩ : BufTy).Contents (Elt F) → (⟨S32x64x64x512, .f32⟩ : BufTy).Contents (Elt F) → (⟨S32x64x64x512, .f32⟩ : BufTy).Contents (Elt F)),
    TRef.nullary main_call2.cst (constant S_ .f32 0x00000000#32),
    TRef.unary main_call2.cst main_call2.v0 (broadcastInDim S32x64x64x512 ![] bcast_S_S32x64x64x512),
    TRef.binary (TRef.of main_v34 : TRef sig ⟨S32x64x64x512, .f32⟩) main_call2.v0 main_call2.v1 maximumf,
    binary main_v35 main_arg3 main_v36 ((fun l r => Host.dotGeneral dot_S32x64x64x512_S512x512_S32x64x64x512_3_0_012_1_n_n none l r) : (⟨S32x64x64x512, .f32⟩ : BufTy).Contents (Elt F) → (⟨S512x512, .f32⟩ : BufTy).Contents (Elt F) → (⟨S32x64x64x512, .f32⟩ : BufTy).Contents (Elt F)),
    unary main_arg4 main_v37 (broadcastInDim S1x1x1x512 ![3] bcast_S512_S1x1x1x512_3 : (⟨S512, .f32⟩ : BufTy).Contents (Elt F) → (⟨S1x1x1x512, .f32⟩ : BufTy).Contents (Elt F)),
    unary main_v37 main_v38 (broadcastInDim S32x64x64x512 ![0, 1, 2, 3] bcast_S1x1x1x512_S32x64x64x512_0_1_2_3 : (⟨S1x1x1x512, .f32⟩ : BufTy).Contents (Elt F) → (⟨S32x64x64x512, .f32⟩ : BufTy).Contents (Elt F)),
    binary main_v36 main_v38 main_v39 (addf : (⟨S32x64x64x512, .f32⟩ : BufTy).Contents (Elt F) → (⟨S32x64x64x512, .f32⟩ : BufTy).Contents (Elt F) → (⟨S32x64x64x512, .f32⟩ : BufTy).Contents (Elt F)),
    TRef.nullary main_call3.cst (constant S_ .f32 0x00000000#32),
    TRef.unary main_call3.cst main_call3.v0 (broadcastInDim S32x64x64x512 ![] bcast_S_S32x64x64x512),
    TRef.binary (TRef.of main_v39 : TRef sig ⟨S32x64x64x512, .f32⟩) main_call3.v0 main_call3.v1 maximumf,
    binary main_v40 main_arg5 main_v41 ((fun l r => Host.dotGeneral dot_S32x64x64x512_S512x512_S32x64x64x512_3_0_012_1_n_n none l r) : (⟨S32x64x64x512, .f32⟩ : BufTy).Contents (Elt F) → (⟨S512x512, .f32⟩ : BufTy).Contents (Elt F) → (⟨S32x64x64x512, .f32⟩ : BufTy).Contents (Elt F)),
    unary main_arg6 main_v42 (broadcastInDim S1x1x1x512 ![3] bcast_S512_S1x1x1x512_3 : (⟨S512, .f32⟩ : BufTy).Contents (Elt F) → (⟨S1x1x1x512, .f32⟩ : BufTy).Contents (Elt F)),
    unary main_v42 main_v43 (broadcastInDim S32x64x64x512 ![0, 1, 2, 3] bcast_S1x1x1x512_S32x64x64x512_0_1_2_3 : (⟨S1x1x1x512, .f32⟩ : BufTy).Contents (Elt F) → (⟨S32x64x64x512, .f32⟩ : BufTy).Contents (Elt F)),
    binary main_v41 main_v43 main_v44 (addf : (⟨S32x64x64x512, .f32⟩ : BufTy).Contents (Elt F) → (⟨S32x64x64x512, .f32⟩ : BufTy).Contents (Elt F) → (⟨S32x64x64x512, .f32⟩ : BufTy).Contents (Elt F)),
    TRef.nullary main_call4.cst (constant S_ .f32 0x00000000#32),
    TRef.unary main_call4.cst main_call4.v0 (broadcastInDim S32x64x64x512 ![] bcast_S_S32x64x64x512),
    TRef.binary (TRef.of main_v44 : TRef sig ⟨S32x64x64x512, .f32⟩) main_call4.v0 main_call4.v1 maximumf,
    nullary main_cst_2 (constant S_ .f32 0x00000000#32),
    binary main_v45 main_cst_2 main_v46 ((fun x v => Host.reduceAdd x v reducesTo_S32x64x64x512_S32x512_d1_2 h_S_) : (⟨S32x64x64x512, .f32⟩ : BufTy).Contents (Elt F) → (⟨S_, .f32⟩ : BufTy).Contents (Elt F) → (⟨S32x512, .f32⟩ : BufTy).Contents (Elt F)),
    binary main_v46 main_arg7 main_v47 ((fun l r => Host.dotGeneral dot_S32x512_S512x512_S32x512_1_0_0_1_n_n none l r) : (⟨S32x512, .f32⟩ : BufTy).Contents (Elt F) → (⟨S512x512, .f32⟩ : BufTy).Contents (Elt F) → (⟨S32x512, .f32⟩ : BufTy).Contents (Elt F)),
    unary main_arg8 main_v48 (broadcastInDim S1x512 ![1] bcast_S512_S1x512_1 : (⟨S512, .f32⟩ : BufTy).Contents (Elt F) → (⟨S1x512, .f32⟩ : BufTy).Contents (Elt F)),
    unary main_v48 main_v49 (broadcastInDim S32x512 ![0, 1] bcast_S1x512_S32x512_0_1 : (⟨S1x512, .f32⟩ : BufTy).Contents (Elt F) → (⟨S32x512, .f32⟩ : BufTy).Contents (Elt F)),
    binary main_v47 main_v49 main_v50 (addf : (⟨S32x512, .f32⟩ : BufTy).Contents (Elt F) → (⟨S32x512, .f32⟩ : BufTy).Contents (Elt F) → (⟨S32x512, .f32⟩ : BufTy).Contents (Elt F)),
    TRef.nullary main_call5.cst (constant S_ .f32 0x00000000#32),
    TRef.unary main_call5.cst main_call5.v0 (broadcastInDim S32x512 ![] bcast_S_S32x512),
    TRef.binary (TRef.of main_v50 : TRef sig ⟨S32x512, .f32⟩) main_call5.v0 main_call5.v1 maximumf,
    binary main_v51 main_arg9 main_v52 ((fun l r => Host.dotGeneral dot_S32x512_S512x256_S32x256_1_0_0_1_n_n none l r) : (⟨S32x512, .f32⟩ : BufTy).Contents (Elt F) → (⟨S512x256, .f32⟩ : BufTy).Contents (Elt F) → (⟨S32x256, .f32⟩ : BufTy).Contents (Elt F)),
    unary main_arg10 main_v53 (broadcastInDim S1x256 ![1] bcast_S256_S1x256_1 : (⟨S256, .f32⟩ : BufTy).Contents (Elt F) → (⟨S1x256, .f32⟩ : BufTy).Contents (Elt F)),
    unary main_v53 main_v54 (broadcastInDim S32x256 ![0, 1] bcast_S1x256_S32x256_0_1 : (⟨S1x256, .f32⟩ : BufTy).Contents (Elt F) → (⟨S32x256, .f32⟩ : BufTy).Contents (Elt F)),
    binary main_v52 main_v54 main_v55 (addf : (⟨S32x256, .f32⟩ : BufTy).Contents (Elt F) → (⟨S32x256, .f32⟩ : BufTy).Contents (Elt F) → (⟨S32x256, .f32⟩ : BufTy).Contents (Elt F)) ]

theorem ops_eq : (ops : List (HloOp τ sig (Elt F))) = opsA ++ op23 :: (opsB ++ op30 :: opsC) := rfl

/-! ## What each stretch leaves

The line is cut at its two concatenations: a stretch's results are read off operation by operation, and at a
concatenation the operands' contents are the earlier stretch's results. -/

set_option maxRecDepth 8192 in
set_option maxHeartbeats 2000000 in
/-- After the first stretch the first difference tensor is the row differences. -/
theorem A_v21 (V : Valuation τ sig (Elt F)) :
    after opsA V (main_v21 : DevRef τ sig) = Cert.RelTable.diffs Cert.RelTable.rowOf := by
  unfold opsA
  results_simp
  rfl

set_option maxRecDepth 8192 in
set_option maxHeartbeats 2000000 in
/-- … and the second the column differences. -/
theorem A_v22 (V : Valuation τ sig (Elt F)) :
    after opsA V (main_v22 : DevRef τ sig) = Cert.RelTable.diffs Cert.RelTable.colOf := by
  unfold opsA
  results_simp
  rfl

set_option maxRecDepth 8192 in
set_option maxHeartbeats 2000000 in
/-- Before the pair tensor is formed its third operand is the shared table repeated along the batch. -/
theorem B_v29 (V : Valuation τ sig (Elt F)) :
    after opsB (op23.result (after opsA V)) (main_v29 : DevRef τ sig) = Cert.ReferenceIdeal.RefTerm.relB (Cert.RelTable.table (F := F)) := by
  have h21 := A_v21 V
  have h22 := A_v22 V
  generalize after opsA V = W at h21 h22 ⊢
  unfold opsB op23
  results_simp
  rw [h21, h22]
  rfl

set_option maxRecDepth 8192 in
set_option maxHeartbeats 2000000 in
/-- … its first the inner object's features. -/
theorem B_v3 (V : Valuation τ sig (Elt F)) :
    after opsB (op23.result (after opsA V)) (main_v3 : DevRef τ sig) = Cert.ReferenceIdeal.RefTerm.inner (V (main_arg0 : DevRef τ sig)) := by
  unfold opsA opsB op23
  results_simp
  rfl

set_option maxRecDepth 8192 in
set_option maxHeartbeats 2000000 in
/-- … its second the outer object's. -/
theorem B_v5 (V : Valuation τ sig (Elt F)) :
    after opsB (op23.result (after opsA V)) (main_v5 : DevRef τ sig) = Cert.ReferenceIdeal.RefTerm.outer (V (main_arg0 : DevRef τ sig)) := by
  unfold opsA opsB op23
  results_simp
  rfl

set_option maxRecDepth 8192 in
set_option maxHeartbeats 2000000 in
theorem B_arg1 (V : Valuation τ sig (Elt F)) :
    after opsB (op23.result (after opsA V)) (main_arg1 : DevRef τ sig) = V (main_arg1 : DevRef τ sig) := by
  unfold opsA opsB op23
  results_simp

set_option maxRecDepth 8192 in
set_option maxHeartbeats 2000000 in
theorem B_arg2 (V : Valuation τ sig (Elt F)) :
    after opsB (op23.result (after opsA V)) (main_arg2 : DevRef τ sig) = V (main_arg2 : DevRef τ sig) := by
  unfold opsA opsB op23
  results_simp

set_option maxRecDepth 8192 in
set_option maxHeartbeats 2000000 in
theorem B_arg3 (V : Valuation τ sig (Elt F)) :
    after opsB (op23.result (after opsA V)) (main_arg3 : DevRef τ sig) = V (main_arg3 : DevRef τ sig) := by
  unfold opsA opsB op23
  results_simp

set_option maxRecDepth 8192 in
set_option maxHeartbeats 2000000 in
theorem B_arg4 (V : Valuation τ sig (Elt F)) :
    after opsB (op23.result (after opsA V)) (main_arg4 : DevRef τ sig) = V (main_arg4 : DevRef τ sig) := by
  unfold opsA opsB op23
  results_simp

set_option maxRecDepth 8192 in
set_option maxHeartbeats 2000000 in
theorem B_arg5 (V : Valuation τ sig (Elt F)) :
    after opsB (op23.result (after opsA V)) (main_arg5 : DevRef τ sig) = V (main_arg5 : DevRef τ sig) := by
  unfold opsA opsB op23
  results_simp

set_option maxRecDepth 8192 in
set_option maxHeartbeats 2000000 in
theorem B_arg6 (V : Valuation τ sig (Elt F)) :
    after opsB (op23.result (after opsA V)) (main_arg6 : DevRef τ sig) = V (main_arg6 : DevRef τ sig) := by
  unfold opsA opsB op23
  results_simp

set_option maxRecDepth 8192 in
set_option maxHeartbeats 2000000 in
theorem B_arg7 (V : Valuation τ sig (Elt F)) :
    after opsB (op23.result (after opsA V)) (main_arg7 : DevRef τ sig) = V (main_arg7 : DevRef τ sig) := by
  unfold opsA opsB op23
  results_simp

set_option maxRecDepth 8192 in
set_option maxHeartbeats 2000000 in
theorem B_arg8 (V : Valuation τ sig (Elt F)) :
    after opsB (op23.result (after opsA V)) (main_arg8 : DevRef τ sig) = V (main_arg8 : DevRef τ sig) := by
  unfold opsA opsB op23
  results_simp

set_option maxRecDepth 8192 in
set_option maxHeartbeats 2000000 in
theorem B_arg9 (V : Valuation τ sig (Elt F)) :
    after opsB (op23.result (after opsA V)) (main_arg9 : DevRef τ sig) = V (main_arg9 : DevRef τ sig) := by
  unfold opsA opsB op23
  results_simp

set_option maxRecDepth 8192 in
set_option maxHeartbeats 2000000 in
theorem B_arg10 (V : Valuation τ sig (Elt F)) :
    after opsB (op23.result (after opsA V)) (main_arg10 : DevRef τ sig) = V (main_arg10 : DevRef τ sig) := by
  unfold opsA opsB op23
  results_simp

set_option maxRecDepth 8192 in
set_option maxHeartbeats 2000000 in
/-- The whole line leaves the result at the reference's term of the arguments and the shared table. -/
theorem out_eq (V : Valuation τ sig (Elt F)) :
    after ops V (main_v55 : DevRef τ sig) = Cert.ReferenceIdeal.RefTerm.refOut (Cert.RelTable.table (F := F)) (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  have h3 := B_v3 V
  have h5 := B_v5 V
  have h29 := B_v29 V
  have ha1 := B_arg1 V
  have ha2 := B_arg2 V
  have ha3 := B_arg3 V
  have ha4 := B_arg4 V
  have ha5 := B_arg5 V
  have ha6 := B_arg6 V
  have ha7 := B_arg7 V
  have ha8 := B_arg8 V
  have ha9 := B_arg9 V
  have ha10 := B_arg10 V
  rw [ops_eq, after_app, after_cons, after_app, after_cons]
  generalize after opsB (op23.result (after opsA V)) = W at h3 h5 h29 ha1 ha2 ha3 ha4 ha5 ha6 ha7 ha8 ha9 ha10 ⊢
  unfold opsC op30
  results_simp
  rw [h3, h5, h29, ha1, ha2, ha3, ha4, ha5, ha6, ha7, ha8, ha9, ha10]
  rfl

set_option maxRecDepth 8192 in
set_option maxHeartbeats 2000000 in
theorem arg0_eq (V : Valuation τ sig (Elt F)) :
    after ops V (main_arg0 : DevRef τ sig) = V (main_arg0 : DevRef τ sig) := by
  results_simp

set_option maxRecDepth 8192 in
set_option maxHeartbeats 2000000 in
theorem arg1_eq (V : Valuation τ sig (Elt F)) :
    after ops V (main_arg1 : DevRef τ sig) = V (main_arg1 : DevRef τ sig) := by
  results_simp

set_option maxRecDepth 8192 in
set_option maxHeartbeats 2000000 in
theorem arg2_eq (V : Valuation τ sig (Elt F)) :
    after ops V (main_arg2 : DevRef τ sig) = V (main_arg2 : DevRef τ sig) := by
  results_simp

set_option maxRecDepth 8192 in
set_option maxHeartbeats 2000000 in
theorem arg3_eq (V : Valuation τ sig (Elt F)) :
    after ops V (main_arg3 : DevRef τ sig) = V (main_arg3 : DevRef τ sig) := by
  results_simp

set_option maxRecDepth 8192 in
set_option maxHeartbeats 2000000 in
theorem arg4_eq (V : Valuation τ sig (Elt F)) :
    after ops V (main_arg4 : DevRef τ sig) = V (main_arg4 : DevRef τ sig) := by
  results_simp

set_option maxRecDepth 8192 in
set_option maxHeartbeats 2000000 in
theorem arg5_eq (V : Valuation τ sig (Elt F)) :
    after ops V (main_arg5 : DevRef τ sig) = V (main_arg5 : DevRef τ sig) := by
  results_simp

set_option maxRecDepth 8192 in
set_option maxHeartbeats 2000000 in
theorem arg6_eq (V : Valuation τ sig (Elt F)) :
    after ops V (main_arg6 : DevRef τ sig) = V (main_arg6 : DevRef τ sig) := by
  results_simp

set_option maxRecDepth 8192 in
set_option maxHeartbeats 2000000 in
theorem arg7_eq (V : Valuation τ sig (Elt F)) :
    after ops V (main_arg7 : DevRef τ sig) = V (main_arg7 : DevRef τ sig) := by
  results_simp

set_option maxRecDepth 8192 in
set_option maxHeartbeats 2000000 in
theorem arg8_eq (V : Valuation τ sig (Elt F)) :
    after ops V (main_arg8 : DevRef τ sig) = V (main_arg8 : DevRef τ sig) := by
  results_simp

set_option maxRecDepth 8192 in
set_option maxHeartbeats 2000000 in
theorem arg9_eq (V : Valuation τ sig (Elt F)) :
    after ops V (main_arg9 : DevRef τ sig) = V (main_arg9 : DevRef τ sig) := by
  results_simp

set_option maxRecDepth 8192 in
set_option maxHeartbeats 2000000 in
theorem arg10_eq (V : Valuation τ sig (Elt F)) :
    after ops V (main_arg10 : DevRef τ sig) = V (main_arg10 : DevRef τ sig) := by
  results_simp

/-! ## The run -/

set_option maxRecDepth 8192 in
set_option maxHeartbeats 8000000 in
/-- @main is that straight line: the called functions' definitions unfolded at their calls, both sides are one chain of
    host steps once sequencing is reassociated. -/
theorem main_eq (c : Dev nD) : main (F := F) c = seq ops := by
  simp only [main, main_part0, main_part1, fn_floor_divide.body, fn_where.body, fn_remainder.body, fn_where_0.body,
    fn_relu.body, fn_relu_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨reshape_bufs_sub .., unary_bufs_sub .., unary_bufs_sub .., unary_bufs_sub .., unary_bufs_sub .., unary_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., unary_bufs_sub .., unary_bufs_sub .., unary_bufs_sub .., binary_bufs_sub .., unary_bufs_sub .., unary_bufs_sub .., unary_bufs_sub .., unary_bufs_sub .., unary_bufs_sub .., binary_bufs_sub .., unary_bufs_sub .., unary_bufs_sub .., unary_bufs_sub .., binary_bufs_sub .., nullary_bufs_sub .., binary_bufs_sub .., nullary_bufs_sub .., binary_bufs_sub .., unary_bufs_sub .., binary_bufs_sub .., unary_bufs_sub .., unary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- On every device, for any float values, from any memory with zero counters: every weakly fair execution of @main
    terminates with the result at the reference's term of the arguments over the shared table, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55)
        = Cert.ReferenceIdeal.RefTerm.refOut (Cert.RelTable.table (F := F)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v55).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_seq scopedRefs_eq scopedSems_eq defs main (fun _ => ops) main_eq (fun _ => ops_sub) m ρ)

end Cert.ReferenceIdeal.RefRun

end
-- ==== Proof.RefL0.lean ====
/-
  The reference's first g layer at an index: the 514-term contraction of the pair tensor with the first weight matrix
  is the inner object's 256 terms, the outer object's 256 and the relative position's two, in that order.
-/
import proofs.«160269_j53584011985126_1_alg».proof.Proof.RefTerm
import proofs.«160269_j53584011985126_1_alg».proof.Proof.Spec
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin

noncomputable section

namespace Cert.ReferenceIdeal.RefValue

open Idealize.ShloMosaic Idealize.ShloMosaic.ValueIdx
open Cert.ReferenceIdeal Cert.ReferenceIdeal.Gen

/-! ## The contraction's operand indices, axis by axis -/

theorem lhs_g0_0 (i : S32x64x64x512.Idx) (k : dot_S32x64x64x514_S514x512_S32x64x64x512_3_0_012_1_n_n.contr.Idx) :
    (dot_S32x64x64x514_S514x512_S32x64x64x512_3_0_012_1_n_n.lhsIdx i k 0).val = (i 0).val := by
  unfold DotDims.lhsIdx
  rw [dif_neg (show ¬(0 : Fin S32x64x64x514.rank) ∈ dot_S32x64x64x514_S514x512_S32x64x64x512_3_0_012_1_n_n.lhsBatch by decide),
    dif_pos (show (0 : Fin S32x64x64x514.rank) ∈ dot_S32x64x64x514_S514x512_S32x64x64x512_3_0_012_1_n_n.lhsNonContracting by decide)]
  rfl

theorem lhs_g0_1 (i : S32x64x64x512.Idx) (k : dot_S32x64x64x514_S514x512_S32x64x64x512_3_0_012_1_n_n.contr.Idx) :
    (dot_S32x64x64x514_S514x512_S32x64x64x512_3_0_012_1_n_n.lhsIdx i k 1).val = (i 1).val := by
  unfold DotDims.lhsIdx
  rw [dif_neg (show ¬(1 : Fin S32x64x64x514.rank) ∈ dot_S32x64x64x514_S514x512_S32x64x64x512_3_0_012_1_n_n.lhsBatch by decide),
    dif_pos (show (1 : Fin S32x64x64x514.rank) ∈ dot_S32x64x64x514_S514x512_S32x64x64x512_3_0_012_1_n_n.lhsNonContracting by decide)]
  rfl

theorem lhs_g0_2 (i : S32x64x64x512.Idx) (k : dot_S32x64x64x514_S514x512_S32x64x64x512_3_0_012_1_n_n.contr.Idx) :
    (dot_S32x64x64x514_S514x512_S32x64x64x512_3_0_012_1_n_n.lhsIdx i k 2).val = (i 2).val := by
  unfold DotDims.lhsIdx
  rw [dif_neg (show ¬(2 : Fin S32x64x64x514.rank) ∈ dot_S32x64x64x514_S514x512_S32x64x64x512_3_0_012_1_n_n.lhsBatch by decide),
    dif_pos (show (2 : Fin S32x64x64x514.rank) ∈ dot_S32x64x64x514_S514x512_S32x64x64x512_3_0_012_1_n_n.lhsNonContracting by decide)]
  rfl

theorem lhs_g0_3 (i : S32x64x64x512.Idx) (k : dot_S32x64x64x514_S514x512_S32x64x64x512_3_0_012_1_n_n.contr.Idx) :
    (dot_S32x64x64x514_S514x512_S32x64x64x512_3_0_012_1_n_n.lhsIdx i k 3).val = (k ⟨0, by decide⟩).val :=
  dot_S32x64x64x514_S514x512_S32x64x64x512_3_0_012_1_n_n.lhsIdx_val_of_single rfl i k

theorem rhs_g0_0 (i : S32x64x64x512.Idx) (k : dot_S32x64x64x514_S514x512_S32x64x64x512_3_0_012_1_n_n.contr.Idx) :
    (dot_S32x64x64x514_S514x512_S32x64x64x512_3_0_012_1_n_n.rhsIdx i k 0).val = (k ⟨0, by decide⟩).val :=
  dot_S32x64x64x514_S514x512_S32x64x64x512_3_0_012_1_n_n.rhsIdx_val_of_single rfl i k

theorem rhs_g0_1 (i : S32x64x64x512.Idx) (k : dot_S32x64x64x514_S514x512_S32x64x64x512_3_0_012_1_n_n.contr.Idx) :
    (dot_S32x64x64x514_S514x512_S32x64x64x512_3_0_012_1_n_n.rhsIdx i k 1).val = (i 3).val := by
  unfold DotDims.rhsIdx
  rw [dif_neg (show ¬(1 : Fin S514x512.rank) ∈ dot_S32x64x64x514_S514x512_S32x64x64x512_3_0_012_1_n_n.rhsBatch by decide),
    dif_pos (show (1 : Fin S514x512.rank) ∈ dot_S32x64x64x514_S514x512_S32x64x64x512_3_0_012_1_n_n.rhsNonContracting by decide)]
  rfl

/-- The first layer's contraction at an index: the 514 products of the pair tensor's entries with the weight's. -/
theorem dot0_apply (L : FVec Ideal S32x64x64x514 .f32) (W0 : FVec Ideal S514x512 .f32)
    (b : Fin 32) (p q : Fin 64) (h : Fin 512) :
    Host.dotGeneral (F := Ideal) dot_S32x64x64x514_S514x512_S32x64x64x512_3_0_012_1_n_n none L W0 (ix4 b p q h)
      = ∑ k : Fin 514, L (ix4 b p q k) * W0 (ix2 k h) := by
  simp only [Host.dotGeneral]
  rw [Ideal.dotGeneral_apply,
    ← Equiv.sum_comp (contrEquiv1 dot_S32x64x64x514_S514x512_S32x64x64x512_3_0_012_1_n_n 514 rfl rfl).symm]
  refine Finset.sum_congr rfl fun k _ => ?_
  have hk := contrEquiv1_symm_val dot_S32x64x64x514_S514x512_S32x64x64x512_3_0_012_1_n_n 514 rfl rfl k
  have el : dot_S32x64x64x514_S514x512_S32x64x64x512_3_0_012_1_n_n.lhsIdx (ix4 b p q h)
      ((contrEquiv1 dot_S32x64x64x514_S514x512_S32x64x64x512_3_0_012_1_n_n 514 rfl rfl).symm k) = ix4 b p q k :=
    funext fun a => Fin.ext (by
      match a with
      | ⟨0, _⟩ => exact lhs_g0_0 _ _
      | ⟨1, _⟩ => exact lhs_g0_1 _ _
      | ⟨2, _⟩ => exact lhs_g0_2 _ _
      | ⟨3, _⟩ => exact (lhs_g0_3 _ _).trans hk)
  have er : dot_S32x64x64x514_S514x512_S32x64x64x512_3_0_012_1_n_n.rhsIdx (ix4 b p q h)
      ((contrEquiv1 dot_S32x64x64x514_S514x512_S32x64x64x512_3_0_012_1_n_n 514 rfl rfl).symm k) = ix2 k h :=
    funext fun a => Fin.ext (by
      match a with
      | ⟨0, _⟩ => exact (rhs_g0_0 _ _).trans hk
      | ⟨1, _⟩ => exact rhs_g0_1 _ _)
  rw [el, er]

/-! ## The 514 contracted positions: 256 of the inner object, 256 of the outer, two of the relative position -/

theorem sum_514 {M : Type*} [AddCommMonoid M] (f : Fin 514 → M) :
    ∑ k, f k = (∑ c : Fin 256, f ⟨c.val, by omega⟩) + (∑ c : Fin 256, f ⟨256 + c.val, by omega⟩)
      + ∑ r : Fin 2, f ⟨512 + r.val, by omega⟩ := by
  have h1 := Fin.sum_univ_add (a := 512) (b := 2) (f := f)
  have h2 := Fin.sum_univ_add (a := 256) (b := 256) (f := fun i : Fin 512 => f ⟨i.val, by omega⟩)
  refine h1.trans ?_
  refine congrArg₂ (· + ·) (h2.trans ?_) rfl
  rfl

/-! ## The stages of the pair tensor at an index -/

/-- Object n of batch entry b, channel c, is pixel (n / 8, n % 8) of the map. -/
theorem feats_apply (x : FVec Ideal S32x256x8x8 .f32) (b : Fin 32) (n : Fin 64) (c : Fin 256) :
    RefTerm.feats (F := Ideal) x (ix3 b n c) = x (ix4 b c ⟨n.val / 8, by omega⟩ ⟨n.val % 8, by omega⟩) := by
  unfold RefTerm.feats
  refine (transpose_ix3_021_apply _ transposes_S32x256x64_S32x64x256_0_2_1 b n c).trans ?_
  refine shapeCast_apply x shapeCasts_S32x256x8x8_S32x256x64 _ _ ?_
  rw [Shape.rowMajor_val_four, Shape.rowMajor_val_three]
  show ((b.val * 256 + c.val) * 8 + n.val / 8) * 8 + n.val % 8 = (b.val * 256 + c.val) * 64 + n.val
  omega

/-- At pair (p, q) the inner features are object q's. -/
theorem inner_apply (x : FVec Ideal S32x256x8x8 .f32) (b : Fin 32) (p q : Fin 64) (c : Fin 256) :
    RefTerm.inner (F := Ideal) x (ix4 b p q c) = RefTerm.feats (F := Ideal) x (ix3 b q c) := by
  unfold RefTerm.inner
  refine (broadcastInDim_apply _ bcast_S32x1x64x256_S32x64x64x256_0_1_2_3 _ _ (ix4 b (0 : Fin 1) q c) fun a => ?_).trans ?_
  · match a with
    | ⟨0, _⟩ => rfl
    | ⟨1, _⟩ => rfl
    | ⟨2, _⟩ => rfl
    | ⟨3, _⟩ => rfl
  · refine broadcastInDim_apply _ bcast_S32x64x256_S32x1x64x256_0_2_3 _ _ (ix3 b q c) fun a => ?_
    match a with
    | ⟨0, _⟩ => rfl
    | ⟨1, _⟩ => rfl
    | ⟨2, _⟩ => rfl

/-- At pair (p, q) the outer features are object p's. -/
theorem outer_apply (x : FVec Ideal S32x256x8x8 .f32) (b : Fin 32) (p q : Fin 64) (c : Fin 256) :
    RefTerm.outer (F := Ideal) x (ix4 b p q c) = RefTerm.feats (F := Ideal) x (ix3 b p c) := by
  unfold RefTerm.outer
  refine (broadcastInDim_apply _ bcast_S32x64x1x256_S32x64x64x256_0_1_2_3 _ _ (ix4 b p (0 : Fin 1) c) fun a => ?_).trans ?_
  · match a with
    | ⟨0, _⟩ => rfl
    | ⟨1, _⟩ => rfl
    | ⟨2, _⟩ => rfl
    | ⟨3, _⟩ => rfl
  · refine broadcastInDim_apply _ bcast_S32x64x256_S32x64x1x256_0_1_3 _ _ (ix3 b p c) fun a => ?_
    match a with
    | ⟨0, _⟩ => rfl
    | ⟨1, _⟩ => rfl
    | ⟨2, _⟩ => rfl

/-- The table repeated along the batch reads the table. -/
theorem relB_apply (rel : FVec Ideal S64x64x2 .f32) (b : Fin 32) (p q : Fin 64) (r : Fin 2) :
    RefTerm.relB (F := Ideal) rel (ix4 b p q r) = rel (ix3 p q r) := by
  unfold RefTerm.relB
  refine (broadcastInDim_apply _ bcast_S1x64x64x2_S32x64x64x2_0_1_2_3 _ _ (ix4 (0 : Fin 1) p q r) fun a => ?_).trans ?_
  · match a with
    | ⟨0, _⟩ => rfl
    | ⟨1, _⟩ => rfl
    | ⟨2, _⟩ => rfl
    | ⟨3, _⟩ => rfl
  · refine broadcastInDim_apply _ bcast_S64x64x2_S1x64x64x2_1_2_3 _ _ (ix3 p q r) fun a => ?_
    match a with
    | ⟨0, _⟩ => rfl
    | ⟨1, _⟩ => rfl
    | ⟨2, _⟩ => rfl

/-- The pair tensor's first 256 entries along the last axis are the inner features. -/
theorem pairs_fst (rel : FVec Ideal S64x64x2 .f32) (x : FVec Ideal S32x256x8x8 .f32) (b : Fin 32) (p q : Fin 64)
    (c : Fin 256) :
    RefTerm.pairs (F := Ideal) rel x (ix4 b p q ⟨c.val, by omega⟩) = RefTerm.inner (F := Ideal) x (ix4 b p q c) := by
  unfold RefTerm.pairs
  refine concatenate_apply_piece (t := S32x64x64x514) 3
    [⟨S32x64x64x256, RefTerm.inner (F := Ideal) x⟩, ⟨S32x64x64x256, RefTerm.outer (F := Ideal) x⟩, ⟨S32x64x64x2, RefTerm.relB (F := Ideal) rel⟩]
    concatenates_S32x64x64x256_S32x64x64x256_S32x64x64x2_S32x64x64x514_d3
    (ix4 b p q ⟨c.val, by omega⟩) 0 (by simp) _ (RefTerm.inner (F := Ideal) x) rfl rfl 0 rfl (ix4 b p q c) ?_ ?_
  · intro a ha
    match a with
    | ⟨0, _⟩ => rfl
    | ⟨1, _⟩ => rfl
    | ⟨2, _⟩ => rfl
    | ⟨3, _⟩ => exact absurd rfl ha
  · show 0 + c.val = c.val
    omega

/-- Its next 256 are the outer features. -/
theorem pairs_snd (rel : FVec Ideal S64x64x2 .f32) (x : FVec Ideal S32x256x8x8 .f32) (b : Fin 32) (p q : Fin 64)
    (c : Fin 256) :
    RefTerm.pairs (F := Ideal) rel x (ix4 b p q ⟨256 + c.val, by omega⟩) = RefTerm.outer (F := Ideal) x (ix4 b p q c) := by
  unfold RefTerm.pairs
  refine concatenate_apply_piece (t := S32x64x64x514) 3
    [⟨S32x64x64x256, RefTerm.inner (F := Ideal) x⟩, ⟨S32x64x64x256, RefTerm.outer (F := Ideal) x⟩, ⟨S32x64x64x2, RefTerm.relB (F := Ideal) rel⟩]
    concatenates_S32x64x64x256_S32x64x64x256_S32x64x64x2_S32x64x64x514_d3
    (ix4 b p q ⟨256 + c.val, by omega⟩) 1 (by simp) _ (RefTerm.outer (F := Ideal) x) rfl rfl 256 rfl (ix4 b p q c) ?_ ?_
  · intro a ha
    match a with
    | ⟨0, _⟩ => rfl
    | ⟨1, _⟩ => rfl
    | ⟨2, _⟩ => rfl
    | ⟨3, _⟩ => exact absurd rfl ha
  · rfl

/-- Its last two are the relative position. -/
theorem pairs_thd (rel : FVec Ideal S64x64x2 .f32) (x : FVec Ideal S32x256x8x8 .f32) (b : Fin 32) (p q : Fin 64)
    (r : Fin 2) :
    RefTerm.pairs (F := Ideal) rel x (ix4 b p q ⟨512 + r.val, by omega⟩) = RefTerm.relB (F := Ideal) rel (ix4 b p q r) := by
  unfold RefTerm.pairs
  refine concatenate_apply_piece (t := S32x64x64x514) 3
    [⟨S32x64x64x256, RefTerm.inner (F := Ideal) x⟩, ⟨S32x64x64x256, RefTerm.outer (F := Ideal) x⟩, ⟨S32x64x64x2, RefTerm.relB (F := Ideal) rel⟩]
    concatenates_S32x64x64x256_S32x64x64x256_S32x64x64x2_S32x64x64x514_d3
    (ix4 b p q ⟨512 + r.val, by omega⟩) 2 (by simp) _ (RefTerm.relB (F := Ideal) rel) rfl rfl 512 rfl (ix4 b p q r) ?_ ?_
  · intro a ha
    match a with
    | ⟨0, _⟩ => rfl
    | ⟨1, _⟩ => rfl
    | ⟨2, _⟩ => rfl
    | ⟨3, _⟩ => exact absurd rfl ha
  · rfl

/-- A bias vector repeated over batch and both object axes reads the vector. -/
theorem bias4_apply (v : FVec Ideal S512 .f32) (b : Fin 32) (p q : Fin 64) (h : Fin 512) :
    RefTerm.bias4 (F := Ideal) v (ix4 b p q h) = v (ix1 h) := by
  unfold RefTerm.bias4
  refine (broadcastInDim_apply _ bcast_S1x1x1x512_S32x64x64x512_0_1_2_3 _ _
    (ix4 (0 : Fin 1) (0 : Fin 1) (0 : Fin 1) h) fun a => ?_).trans ?_
  · match a with
    | ⟨0, _⟩ => rfl
    | ⟨1, _⟩ => rfl
    | ⟨2, _⟩ => rfl
    | ⟨3, _⟩ => rfl
  · refine broadcastInDim_apply _ bcast_S512_S1x1x1x512_3 _ _ (ix1 h) fun a => ?_
    match a with
    | ⟨0, _⟩ => rfl

/-- The rectifier on an activation is the rectifier at each entry. -/
theorem relu4_apply (t : FVec Ideal S32x64x64x512 .f32) (i : S32x64x64x512.Idx) :
    RefTerm.relu4 (F := Ideal) t i = Cert.Spec.relu (t i) := by
  unfold RefTerm.relu4 Cert.Spec.relu
  refine (maximumf_apply _ _ i).trans ?_
  refine congrArg (max (t i)) ?_
  exact broadcastInDim_apply _ bcast_S_S32x64x64x512 _ i ix0 fun a => a.elim0

/-! ## The first layer at an index -/

theorem g0_apply (rel : FVec Ideal S64x64x2 .f32) (x : FVec Ideal S32x256x8x8 .f32) (W0 : FVec Ideal S514x512 .f32)
    (b0 : FVec Ideal S512 .f32) (b : Fin 32) (p q : Fin 64) (h : Fin 512) :
    Cert.ReferenceIdeal.RefTerm.g0 (F := Ideal) rel x W0 b0 (ix4 b p q h) = Cert.Spec.a0 x W0 b0 rel b p q h := by
  unfold RefTerm.g0
  refine (relu4_apply _ _).trans ?_
  unfold Cert.Spec.a0
  refine congrArg Cert.Spec.relu ?_
  refine (addf_apply _ _ _).trans ?_
  refine congrArg₂ (fun u v : EReal => u + v) ?_ (bias4_apply b0 b p q h)
  refine (dot0_apply _ W0 b p q h).trans ?_
  refine (sum_514 _).trans ?_
  refine congrArg₂ (fun u v : EReal => u + v) (congrArg₂ (fun u v : EReal => u + v) ?_ ?_) ?_
  · unfold Cert.Spec.partQ
    refine Finset.sum_congr rfl fun c _ => ?_
    exact congrArg₂ (fun u v : EReal => u * v)
      ((pairs_fst rel x b p q c).trans ((inner_apply x b p q c).trans (feats_apply x b q c))) rfl
  · unfold Cert.Spec.partP
    refine Finset.sum_congr rfl fun c _ => ?_
    exact congrArg₂ (fun u v : EReal => u * v)
      ((pairs_snd rel x b p q c).trans ((outer_apply x b p q c).trans (feats_apply x b p c))) rfl
  · unfold Cert.Spec.partR
    refine Finset.sum_congr rfl fun r _ => ?_
    exact congrArg₂ (fun u v : EReal => u * v)
      ((pairs_thd rel x b p q r).trans (relB_apply rel b p q r)) rfl

end Cert.ReferenceIdeal.RefValue

end
-- ==== Proof.RefRest.lean ====
/-
  The rest of the reference at an index — g's second and third layers, the sum over both object axes, f's two layers —
  and with the first layer: the reference's term is the specification.
-/
import proofs.«160269_j53584011985126_1_alg».proof.Proof.RefL0
import Idealize.ShloMosaic.Lib.IdealHost

noncomputable section

namespace Cert.ReferenceIdeal.RefValue

open Idealize.ShloMosaic Idealize.ShloMosaic.ValueIdx
open Cert.ReferenceIdeal Cert.ReferenceIdeal.Gen

/-! ## The contractions' operand indices, axis by axis -/

theorem d4_lhs_0 (j : S32x64x64x512.Idx) (k : dot_S32x64x64x512_S512x512_S32x64x64x512_3_0_012_1_n_n.contr.Idx) :
    (dot_S32x64x64x512_S512x512_S32x64x64x512_3_0_012_1_n_n.lhsIdx j k 0).val = (j 0).val := by
  unfold DotDims.lhsIdx
  rw [dif_neg (show ¬(0 : Fin S32x64x64x512.rank) ∈ dot_S32x64x64x512_S512x512_S32x64x64x512_3_0_012_1_n_n.lhsBatch by decide),
    dif_pos (show (0 : Fin S32x64x64x512.rank) ∈ dot_S32x64x64x512_S512x512_S32x64x64x512_3_0_012_1_n_n.lhsNonContracting by decide)]
  rfl

theorem d4_lhs_1 (j : S32x64x64x512.Idx) (k : dot_S32x64x64x512_S512x512_S32x64x64x512_3_0_012_1_n_n.contr.Idx) :
    (dot_S32x64x64x512_S512x512_S32x64x64x512_3_0_012_1_n_n.lhsIdx j k 1).val = (j 1).val := by
  unfold DotDims.lhsIdx
  rw [dif_neg (show ¬(1 : Fin S32x64x64x512.rank) ∈ dot_S32x64x64x512_S512x512_S32x64x64x512_3_0_012_1_n_n.lhsBatch by decide),
    dif_pos (show (1 : Fin S32x64x64x512.rank) ∈ dot_S32x64x64x512_S512x512_S32x64x64x512_3_0_012_1_n_n.lhsNonContracting by decide)]
  rfl

theorem d4_lhs_2 (j : S32x64x64x512.Idx) (k : dot_S32x64x64x512_S512x512_S32x64x64x512_3_0_012_1_n_n.contr.Idx) :
    (dot_S32x64x64x512_S512x512_S32x64x64x512_3_0_012_1_n_n.lhsIdx j k 2).val = (j 2).val := by
  unfold DotDims.lhsIdx
  rw [dif_neg (show ¬(2 : Fin S32x64x64x512.rank) ∈ dot_S32x64x64x512_S512x512_S32x64x64x512_3_0_012_1_n_n.lhsBatch by decide),
    dif_pos (show (2 : Fin S32x64x64x512.rank) ∈ dot_S32x64x64x512_S512x512_S32x64x64x512_3_0_012_1_n_n.lhsNonContracting by decide)]
  rfl

theorem d4_lhs_3 (j : S32x64x64x512.Idx) (k : dot_S32x64x64x512_S512x512_S32x64x64x512_3_0_012_1_n_n.contr.Idx) :
    (dot_S32x64x64x512_S512x512_S32x64x64x512_3_0_012_1_n_n.lhsIdx j k 3).val = (k ⟨0, by decide⟩).val :=
  DotDims.lhsIdx_val_of_single _ rfl j k

theorem d4_rhs_0 (j : S32x64x64x512.Idx) (k : dot_S32x64x64x512_S512x512_S32x64x64x512_3_0_012_1_n_n.contr.Idx) :
    (dot_S32x64x64x512_S512x512_S32x64x64x512_3_0_012_1_n_n.rhsIdx j k 0).val = (k ⟨0, by decide⟩).val :=
  DotDims.rhsIdx_val_of_single _ rfl j k

theorem d4_rhs_1 (j : S32x64x64x512.Idx) (k : dot_S32x64x64x512_S512x512_S32x64x64x512_3_0_012_1_n_n.contr.Idx) :
    (dot_S32x64x64x512_S512x512_S32x64x64x512_3_0_012_1_n_n.rhsIdx j k 1).val = (j 3).val := by
  unfold DotDims.rhsIdx
  rw [dif_neg (show ¬(1 : Fin S512x512.rank) ∈ dot_S32x64x64x512_S512x512_S32x64x64x512_3_0_012_1_n_n.rhsBatch by decide),
    dif_pos (show (1 : Fin S512x512.rank) ∈ dot_S32x64x64x512_S512x512_S32x64x64x512_3_0_012_1_n_n.rhsNonContracting by decide)]
  rfl

theorem da_lhs_0 (j : S32x512.Idx) (k : dot_S32x512_S512x512_S32x512_1_0_0_1_n_n.contr.Idx) :
    (dot_S32x512_S512x512_S32x512_1_0_0_1_n_n.lhsIdx j k 0).val = (j 0).val := by
  unfold DotDims.lhsIdx
  rw [dif_neg (show ¬(0 : Fin S32x512.rank) ∈ dot_S32x512_S512x512_S32x512_1_0_0_1_n_n.lhsBatch by decide),
    dif_pos (show (0 : Fin S32x512.rank) ∈ dot_S32x512_S512x512_S32x512_1_0_0_1_n_n.lhsNonContracting by decide)]
  rfl

theorem da_lhs_1 (j : S32x512.Idx) (k : dot_S32x512_S512x512_S32x512_1_0_0_1_n_n.contr.Idx) :
    (dot_S32x512_S512x512_S32x512_1_0_0_1_n_n.lhsIdx j k 1).val = (k ⟨0, by decide⟩).val :=
  DotDims.lhsIdx_val_of_single _ rfl j k

theorem da_rhs_0 (j : S32x512.Idx) (k : dot_S32x512_S512x512_S32x512_1_0_0_1_n_n.contr.Idx) :
    (dot_S32x512_S512x512_S32x512_1_0_0_1_n_n.rhsIdx j k 0).val = (k ⟨0, by decide⟩).val :=
  DotDims.rhsIdx_val_of_single _ rfl j k

theorem da_rhs_1 (j : S32x512.Idx) (k : dot_S32x512_S512x512_S32x512_1_0_0_1_n_n.contr.Idx) :
    (dot_S32x512_S512x512_S32x512_1_0_0_1_n_n.rhsIdx j k 1).val = (j 1).val := by
  unfold DotDims.rhsIdx
  rw [dif_neg (show ¬(1 : Fin S512x512.rank) ∈ dot_S32x512_S512x512_S32x512_1_0_0_1_n_n.rhsBatch by decide),
    dif_pos (show (1 : Fin S512x512.rank) ∈ dot_S32x512_S512x512_S32x512_1_0_0_1_n_n.rhsNonContracting by decide)]
  rfl

theorem db_lhs_0 (j : S32x256.Idx) (k : dot_S32x512_S512x256_S32x256_1_0_0_1_n_n.contr.Idx) :
    (dot_S32x512_S512x256_S32x256_1_0_0_1_n_n.lhsIdx j k 0).val = (j 0).val := by
  unfold DotDims.lhsIdx
  rw [dif_neg (show ¬(0 : Fin S32x512.rank) ∈ dot_S32x512_S512x256_S32x256_1_0_0_1_n_n.lhsBatch by decide),
    dif_pos (show (0 : Fin S32x512.rank) ∈ dot_S32x512_S512x256_S32x256_1_0_0_1_n_n.lhsNonContracting by decide)]
  rfl

theorem db_lhs_1 (j : S32x256.Idx) (k : dot_S32x512_S512x256_S32x256_1_0_0_1_n_n.contr.Idx) :
    (dot_S32x512_S512x256_S32x256_1_0_0_1_n_n.lhsIdx j k 1).val = (k ⟨0, by decide⟩).val :=
  DotDims.lhsIdx_val_of_single _ rfl j k

theorem db_rhs_0 (j : S32x256.Idx) (k : dot_S32x512_S512x256_S32x256_1_0_0_1_n_n.contr.Idx) :
    (dot_S32x512_S512x256_S32x256_1_0_0_1_n_n.rhsIdx j k 0).val = (k ⟨0, by decide⟩).val :=
  DotDims.rhsIdx_val_of_single _ rfl j k

theorem db_rhs_1 (j : S32x256.Idx) (k : dot_S32x512_S512x256_S32x256_1_0_0_1_n_n.contr.Idx) :
    (dot_S32x512_S512x256_S32x256_1_0_0_1_n_n.rhsIdx j k 1).val = (j 1).val := by
  unfold DotDims.rhsIdx
  rw [dif_neg (show ¬(1 : Fin S512x256.rank) ∈ dot_S32x512_S512x256_S32x256_1_0_0_1_n_n.rhsBatch by decide),
    dif_pos (show (1 : Fin S512x256.rank) ∈ dot_S32x512_S512x256_S32x256_1_0_0_1_n_n.rhsNonContracting by decide)]
  rfl

/-! ## The contractions read at an index -/

theorem dot4_apply (H : FVec Ideal S32x64x64x512 .f32) (W : FVec Ideal S512x512 .f32) (b : Fin 32) (p q : Fin 64) (k : Fin 512) :
    Host.dotGeneral (F := Ideal) dot_S32x64x64x512_S512x512_S32x64x64x512_3_0_012_1_n_n none H W (ix4 b p q k)
      = ∑ c : Fin 512, H (ix4 b p q c) * W (ix2 c k) := by
  rw [Host.dotGeneral, Ideal.dotGeneral_apply, ← Equiv.sum_comp (contrEquiv1 dot_S32x64x64x512_S512x512_S32x64x64x512_3_0_012_1_n_n 512 rfl rfl).symm]
  refine Finset.sum_congr rfl fun c _ => ?_
  have hk := contrEquiv1_symm_val dot_S32x64x64x512_S512x512_S32x64x64x512_3_0_012_1_n_n 512 rfl rfl c
  have el : dot_S32x64x64x512_S512x512_S32x64x64x512_3_0_012_1_n_n.lhsIdx (ix4 b p q k) ((contrEquiv1 dot_S32x64x64x512_S512x512_S32x64x64x512_3_0_012_1_n_n 512 rfl rfl).symm c) = ix4 b p q c :=
    funext fun a => Fin.ext (by
      match a with
      | ⟨0, _⟩ => exact d4_lhs_0 _ _
      | ⟨1, _⟩ => exact d4_lhs_1 _ _
      | ⟨2, _⟩ => exact d4_lhs_2 _ _
      | ⟨3, _⟩ => exact (d4_lhs_3 _ _).trans hk)
  have er : dot_S32x64x64x512_S512x512_S32x64x64x512_3_0_012_1_n_n.rhsIdx (ix4 b p q k) ((contrEquiv1 dot_S32x64x64x512_S512x512_S32x64x64x512_3_0_012_1_n_n 512 rfl rfl).symm c) = ix2 c k :=
    funext fun a => Fin.ext (by
      match a with
      | ⟨0, _⟩ => exact (d4_rhs_0 _ _).trans hk
      | ⟨1, _⟩ => exact d4_rhs_1 _ _)
  rw [el, er]

theorem dotA_apply (E : FVec Ideal S32x512 .f32) (V : FVec Ideal S512x512 .f32) (b : Fin 32) (j : Fin 512) :
    Host.dotGeneral (F := Ideal) dot_S32x512_S512x512_S32x512_1_0_0_1_n_n none E V (ix2 b j)
      = ∑ c : Fin 512, E (ix2 b c) * V (ix2 c j) := by
  rw [Host.dotGeneral, Ideal.dotGeneral_apply, ← Equiv.sum_comp (contrEquiv1 dot_S32x512_S512x512_S32x512_1_0_0_1_n_n 512 rfl rfl).symm]
  refine Finset.sum_congr rfl fun c _ => ?_
  have hk := contrEquiv1_symm_val dot_S32x512_S512x512_S32x512_1_0_0_1_n_n 512 rfl rfl c
  have el : dot_S32x512_S512x512_S32x512_1_0_0_1_n_n.lhsIdx (ix2 b j) ((contrEquiv1 dot_S32x512_S512x512_S32x512_1_0_0_1_n_n 512 rfl rfl).symm c) = ix2 b c :=
    funext fun a => Fin.ext (by
      match a with
      | ⟨0, _⟩ => exact da_lhs_0 _ _
      | ⟨1, _⟩ => exact (da_lhs_1 _ _).trans hk)
  have er : dot_S32x512_S512x512_S32x512_1_0_0_1_n_n.rhsIdx (ix2 b j) ((contrEquiv1 dot_S32x512_S512x512_S32x512_1_0_0_1_n_n 512 rfl rfl).symm c) = ix2 c j :=
    funext fun a => Fin.ext (by
      match a with
      | ⟨0, _⟩ => exact (da_rhs_0 _ _).trans hk
      | ⟨1, _⟩ => exact da_rhs_1 _ _)
  rw [el, er]

theorem dotB_apply (E : FVec Ideal S32x512 .f32) (V : FVec Ideal S512x256 .f32) (b : Fin 32) (j : Fin 256) :
    Host.dotGeneral (F := Ideal) dot_S32x512_S512x256_S32x256_1_0_0_1_n_n none E V (ix2 b j)
      = ∑ c : Fin 512, E (ix2 b c) * V (ix2 c j) := by
  rw [Host.dotGeneral, Ideal.dotGeneral_apply, ← Equiv.sum_comp (contrEquiv1 dot_S32x512_S512x256_S32x256_1_0_0_1_n_n 512 rfl rfl).symm]
  refine Finset.sum_congr rfl fun c _ => ?_
  have hk := contrEquiv1_symm_val dot_S32x512_S512x256_S32x256_1_0_0_1_n_n 512 rfl rfl c
  have el : dot_S32x512_S512x256_S32x256_1_0_0_1_n_n.lhsIdx (ix2 b j) ((contrEquiv1 dot_S32x512_S512x256_S32x256_1_0_0_1_n_n 512 rfl rfl).symm c) = ix2 b c :=
    funext fun a => Fin.ext (by
      match a with
      | ⟨0, _⟩ => exact db_lhs_0 _ _
      | ⟨1, _⟩ => exact (db_lhs_1 _ _).trans hk)
  have er : dot_S32x512_S512x256_S32x256_1_0_0_1_n_n.rhsIdx (ix2 b j) ((contrEquiv1 dot_S32x512_S512x256_S32x256_1_0_0_1_n_n 512 rfl rfl).symm c) = ix2 c j :=
    funext fun a => Fin.ext (by
      match a with
      | ⟨0, _⟩ => exact (db_rhs_0 _ _).trans hk
      | ⟨1, _⟩ => exact db_rhs_1 _ _)
  rw [el, er]

/-! ## The bias broadcasts of f's layers read at an index -/

theorem biasA_apply (cc : FVec Ideal S512 .f32) (b : Fin 32) (j : Fin 512) :
    broadcastInDim S32x512 ![0, 1] bcast_S1x512_S32x512_0_1 (broadcastInDim S1x512 ![1] bcast_S512_S1x512_1 cc) (ix2 b j)
      = cc (ix1 j) := by
  rw [broadcastInDim_apply ![0, 1] bcast_S1x512_S32x512_0_1 _ (ix2 b j) (ix2 (0 : Fin 1) j) (fun a => by
      match a with
      | ⟨0, _⟩ => rfl
      | ⟨1, _⟩ => rfl)]
  exact broadcastInDim_apply ![1] bcast_S512_S1x512_1 cc (ix2 (0 : Fin 1) j) (ix1 j) (fun a => by
      match a with
      | ⟨0, _⟩ => rfl)

theorem biasB_apply (cc : FVec Ideal S256 .f32) (b : Fin 32) (o : Fin 256) :
    broadcastInDim S32x256 ![0, 1] bcast_S1x256_S32x256_0_1 (broadcastInDim S1x256 ![1] bcast_S256_S1x256_1 cc) (ix2 b o)
      = cc (ix1 o) := by
  rw [broadcastInDim_apply ![0, 1] bcast_S1x256_S32x256_0_1 _ (ix2 b o) (ix2 (0 : Fin 1) o) (fun a => by
      match a with
      | ⟨0, _⟩ => rfl
      | ⟨1, _⟩ => rfl)]
  exact broadcastInDim_apply ![1] bcast_S256_S1x256_1 cc (ix2 (0 : Fin 1) o) (ix1 o) (fun a => by
      match a with
      | ⟨0, _⟩ => rfl)

/-! ## g's later layers at an index -/

theorem gk_apply (H : FVec Ideal S32x64x64x512 .f32) (W : FVec Ideal S512x512 .f32) (bb : FVec Ideal S512 .f32)
    (A : Fin 32 → Fin 64 → Fin 64 → Fin 512 → EReal) (hA : ∀ b p q h, H (ix4 b p q h) = A b p q h)
    (b : Fin 32) (p q : Fin 64) (k : Fin 512) :
    RefTerm.gk (F := Ideal) H W bb (ix4 b p q k)
      = Cert.Spec.relu ((∑ h : Fin 512, A b p q h * W (ix2 h k)) + bb (ix1 k)) := by
  unfold RefTerm.gk
  rw [relu4_apply, addf_apply, dot4_apply, bias4_apply]
  exact congrArg (fun t => Cert.Spec.relu (t + bb (ix1 k))) (Finset.sum_congr rfl fun h _ => by rw [hA])

/-! ## The sum over both object axes at an index -/

/-- An index of the activation drops to `(b, k)` exactly when its batch and feature coordinates are `b` and `k`. -/
theorem drop_ix4 (b : Fin 32) (p q : Fin 64) (k : Fin 512) :
    reducesTo_S32x64x64x512_S32x512_d1_2.drop (ix4 b p q k) = ix2 b k :=
  funext fun a => Fin.ext (by
    match a with
    | ⟨0, _⟩ => rfl
    | ⟨1, _⟩ => rfl)

theorem eq_of_drop (i : S32x64x64x512.Idx) (b : Fin 32) (k : Fin 512)
    (h : reducesTo_S32x64x64x512_S32x512_d1_2.drop i = ix2 b k) :
    i = ix4 b (i 1) (i 2) k := by
  have h0 : (i 0).val = b.val := congrArg Fin.val (congrFun h 0)
  have h3 : (i 3).val = k.val := congrArg Fin.val (congrFun h 1)
  funext a
  refine Fin.ext ?_
  match a with
  | ⟨0, _⟩ => exact h0
  | ⟨1, _⟩ => rfl
  | ⟨2, _⟩ => rfl
  | ⟨3, _⟩ => exact h3

theorem summed_apply (H : FVec Ideal S32x64x64x512 .f32) (b : Fin 32) (k : Fin 512) :
    RefTerm.summed (F := Ideal) H (ix2 b k) = ∑ p : Fin 64, ∑ q : Fin 64, H (ix4 b p q k) := by
  unfold RefTerm.summed
  rw [hostReduceAdd_apply]
  unfold Ideal.hostReduceAdd
  rw [constant_apply, Ideal.ofBits_zero_f32, zero_add, ← Fintype.sum_prod_type']
  refine Finset.sum_bij' (fun i _ => ((i 1 : Fin 64), (i 2 : Fin 64))) (fun pq _ => ix4 b pq.1 pq.2 k)
    (fun _ _ => Finset.mem_univ _)
    (fun pq _ => Finset.mem_filter.mpr ⟨Finset.mem_univ _, drop_ix4 b pq.1 pq.2 k⟩)
    (fun i hi => (eq_of_drop i b k (Finset.mem_filter.mp hi).2).symm)
    (fun pq _ => rfl)
    (fun i hi => congrArg H (eq_of_drop i b k (Finset.mem_filter.mp hi).2))

/-! ## f's two layers at an index -/

theorem f0_apply (E : FVec Ideal S32x512 .f32) (V : FVec Ideal S512x512 .f32) (cc : FVec Ideal S512 .f32)
    (e : Fin 32 → Fin 512 → EReal) (hE : ∀ b k, E (ix2 b k) = e b k) (b : Fin 32) (j : Fin 512) :
    RefTerm.f0 (F := Ideal) E V cc (ix2 b j)
      = Cert.Spec.relu ((∑ k : Fin 512, e b k * V (ix2 k j)) + cc (ix1 j)) := by
  unfold RefTerm.f0 Cert.Spec.relu
  rw [maximumf_apply, broadcastInDim_scalar_apply, addf_apply, dotA_apply, biasA_apply]
  exact congrArg (fun t => max (t + cc (ix1 j)) Cert.Spec.z32) (Finset.sum_congr rfl fun k _ => by rw [hE])

theorem f1_apply (Hf : FVec Ideal S32x512 .f32) (V : FVec Ideal S512x256 .f32) (cc : FVec Ideal S256 .f32)
    (e : Fin 32 → Fin 512 → EReal) (hE : ∀ b j, Hf (ix2 b j) = e b j) (b : Fin 32) (o : Fin 256) :
    RefTerm.f1 (F := Ideal) Hf V cc (ix2 b o) = (∑ j : Fin 512, e b j * V (ix2 j o)) + cc (ix1 o) := by
  unfold RefTerm.f1
  rw [addf_apply, dotB_apply, biasB_apply]
  exact congrArg (fun t => t + cc (ix1 o)) (Finset.sum_congr rfl fun j _ => by rw [hE])

theorem refOut_eq (rel : FVec Ideal S64x64x2 .f32) (x : FVec Ideal S32x256x8x8 .f32) (W0 : FVec Ideal S514x512 .f32)
    (b0 : FVec Ideal S512 .f32) (W1 : FVec Ideal S512x512 .f32) (b1 : FVec Ideal S512 .f32) (W2 : FVec Ideal S512x512 .f32)
    (b2 : FVec Ideal S512 .f32) (V0 : FVec Ideal S512x512 .f32) (c0 : FVec Ideal S512 .f32) (V1 : FVec Ideal S512x256 .f32)
    (c1 : FVec Ideal S256 .f32) :
    Cert.ReferenceIdeal.RefTerm.refOut (F := Ideal) rel x W0 b0 W1 b1 W2 b2 V0 c0 V1 c1
      = Cert.Spec.G x W0 b0 W1 b1 W2 b2 V0 c0 V1 c1 rel := by
  funext i
  obtain ⟨b, o, rfl⟩ : ∃ (b : Fin 32) (o : Fin 256), i = ix2 b o := ⟨i 0, i 1, eq_ix2 i⟩
  rw [Cert.Spec.G_apply]
  unfold RefTerm.refOut
  -- g's three layers hold the specification's activations at every pair
  have h0 : ∀ (b : Fin 32) (p q : Fin 64) (h : Fin 512),
      RefTerm.g0 (F := Ideal) rel x W0 b0 (ix4 b p q h) = Cert.Spec.a0 x W0 b0 rel b p q h :=
    fun b p q h => g0_apply rel x W0 b0 b p q h
  have h1 : ∀ (b : Fin 32) (p q : Fin 64) (k : Fin 512),
      RefTerm.gk (F := Ideal) (RefTerm.g0 rel x W0 b0) W1 b1 (ix4 b p q k) = Cert.Spec.a1 x W0 b0 W1 b1 rel b p q k :=
    fun b p q k => gk_apply _ W1 b1 (Cert.Spec.a0 x W0 b0 rel) h0 b p q k
  have h2 : ∀ (b : Fin 32) (p q : Fin 64) (k : Fin 512),
      RefTerm.gk (F := Ideal) (RefTerm.gk (RefTerm.g0 rel x W0 b0) W1 b1) W2 b2 (ix4 b p q k)
        = Cert.Spec.a2 x W0 b0 W1 b1 W2 b2 rel b p q k :=
    fun b p q k => gk_apply _ W2 b2 (Cert.Spec.a1 x W0 b0 W1 b1 rel) h1 b p q k
  -- the sum over every ordered pair
  have h3 : ∀ (b : Fin 32) (k : Fin 512),
      RefTerm.summed (F := Ideal) (RefTerm.gk (RefTerm.gk (RefTerm.g0 rel x W0 b0) W1 b1) W2 b2) (ix2 b k)
        = Cert.Spec.emb x W0 b0 W1 b1 W2 b2 rel b k :=
    fun b k => (summed_apply _ b k).trans
      (Finset.sum_congr rfl fun p _ => Finset.sum_congr rfl fun q _ => h2 b p q k)
  -- f's two layers
  have h4 : ∀ (b : Fin 32) (j : Fin 512),
      RefTerm.f0 (F := Ideal) (RefTerm.summed (RefTerm.gk (RefTerm.gk (RefTerm.g0 rel x W0 b0) W1 b1) W2 b2)) V0 c0 (ix2 b j)
        = Cert.Spec.hid x W0 b0 W1 b1 W2 b2 V0 c0 rel b j :=
    fun b j => f0_apply _ V0 c0 (Cert.Spec.emb x W0 b0 W1 b1 W2 b2 rel) h3 b j
  exact f1_apply _ V1 c1 (Cert.Spec.hid x W0 b0 W1 b1 W2 b2 V0 c0 rel) h4 b o

end Cert.ReferenceIdeal.RefValue

end
-- ==== Proof.lean ====
/-
  A relation network on an 8 × 8 feature map: every ordered pair (p, q) of the 64 objects of a batch entry, with the
  relative position of the two, goes through a three-layer MLP g; the 4096 results are summed; a two-layer MLP f maps the
  sum to the output row.

  The kernel never forms the pair tensor. Per batch entry it walks four tiles of 16 outer objects: it splits g's first
  contraction over [inner features | outer features | relative position] into three products, adds the tile's column
  sums of g's output to an accumulator it keeps across the four tiles, and after the last tile applies f. The reference
  concatenates the pair tensor, contracts its 514 entries at once, sums over both object axes and applies f. Over the
  extended reals the two are one function: the 514-term sum is the three partial sums in order, the sum over all pairs is
  the four tiles' sums added in order onto zero, and the table of relative positions is built by the same host lines in
  both. Only the commutative monoid of addition is used; no input needs to be finite.

  The kernel's frames are the generated ones; the reference's frame is its run with the result dropped; the ideal pass
  rewrote nothing, so the kernel's idealization is the kernel's own text.
-/
import proofs.«160269_j53584011985126_1_alg».proof.Defs
import proofs.«160269_j53584011985126_1_alg».proof.Proof.Gen.Kernel
import proofs.«160269_j53584011985126_1_alg».proof.Proof.Gen.Kernel.Frame
import proofs.«160269_j53584011985126_1_alg».proof.Proof.Gen.KernelIdeal
import proofs.«160269_j53584011985126_1_alg».proof.Proof.Gen.KernelIdeal.Frame
import proofs.«160269_j53584011985126_1_alg».proof.Proof.Gen.ReferenceIdeal
import proofs.«160269_j53584011985126_1_alg».proof.Proof.Gen.Pre_finite_inputs
import proofs.«160269_j53584011985126_1_alg».proof.Proof.KRun
import proofs.«160269_j53584011985126_1_alg».proof.Proof.RefRun
import proofs.«160269_j53584011985126_1_alg».proof.Proof.RefRest
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end with the result at the relation network of their arguments over the shared table of relative
    positions; the arguments agree. -/
theorem algebraic : Cert.algebraic_KernelIdeal_ReferenceIdeal := by
  intro m ρ m' ρ' _ hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (Cert.RelTable.table (F := Ideal)), Cert.KernelIdeal.KV.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2]
  exact Cert.ReferenceIdeal.RefValue.refOut_eq _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
